-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x32x64 : Shape := ⟨3, ![20000, 32, 64]⟩
abbrev S20000x32x3 : Shape := ⟨3, ![20000, 32, 3]⟩
abbrev S20000x4 : Shape := ⟨2, ![20000, 4]⟩
abbrev S20000x32 : Shape := ⟨2, ![20000, 32]⟩
abbrev S128x64 : Shape := ⟨2, ![128, 64]⟩
abbrev S128 : Shape := ⟨1, ![128]⟩
abbrev S_ : Shape := ⟨0, ![]⟩

class Facts : Prop where
  bcast_S_S20000x32x64 : S_.BroadcastsInDim S20000x32x64 (![] : Fin 0 → Fin S20000x32x64.rank)
  reducesTo_S20000x32x64_S_d0_1_2 : S20000x32x64.ReducesTo [0, 1, 2] S_
  h_S_ : 0 < S_.numel
  bcast_S_S20000x32x3 : S_.BroadcastsInDim S20000x32x3 (![] : Fin 0 → Fin S20000x32x3.rank)
  reducesTo_S20000x32x3_S_d0_1_2 : S20000x32x3.ReducesTo [0, 1, 2] S_
  bcast_S_S20000x4 : S_.BroadcastsInDim S20000x4 (![] : Fin 0 → Fin S20000x4.rank)
  reducesTo_S20000x4_S_d0_1 : S20000x4.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S20000x32x64 .f32) (main_arg1 : FVec F S20000x32x3 .f32) (main_arg2 : FVec F S20000x4 .f32) (main_arg3 : IVec S20000x32 32) (main_arg4 : FVec F S128x64 .f32) (main_arg5 : FVec F S128 .f32) (main_arg6 : FVec F S128 .f32) : IVec S_ 1 :=
  let main_v0 : FVec F S20000x32x64 .f32 := Host.absf main_arg0
  let main_cst : FVec F S_ .f32 := constant S_ .f32 0x7F800000#32
  let main_v1 : FVec F S20000x32x64 .f32 := broadcastInDim S20000x32x64 ![] bcast_S_S20000x32x64 main_cst
  let main_v2 : IVec S20000x32x64 1 := cmpf .olt main_v0 main_v1
  let main_c : IVec S_ 1 := constantI S_ 1 1#1
  let main_v3 : IVec S_ 1 := (fun x v => Host.reduce IntOp.andi x v reducesTo_S20000x32x64_S_d0_1_2 h_S_) main_v2 main_c
  let main_v4 : FVec F S20000x32x3 .f32 := Host.absf main_arg1
  let main_cst_0 : FVec F S_ .f32 := constant S_ .f32 0x7F800000#32
  let main_v5 : FVec F S20000x32x3 .f32 := broadcastInDim S20000x32x3 ![] bcast_S_S20000x32x3 main_cst_0
  let main_v6 : IVec S20000x32x3 1 := cmpf .olt main_v4 main_v5
  let main_c_1 : IVec S_ 1 := constantI S_ 1 1#1
  let main_v7 : IVec S_ 1 := (fun x v => Host.reduce IntOp.andi x v reducesTo_S20000x32x3_S_d0_1_2 h_S_) main_v6 main_c_1
  let main_v8 : IVec S_ 1 := andi main_v3 main_v7
  let main_v9 : FVec F S20000x4 .f32 := Host.absf main_arg2
  let main_cst_2 : FVec F S_ .f32 := constant S_ .f32 0x7F800000#32
  let main_v10 : FVec F S20000x4 .f32 := broadcastInDim S20000x4 ![] bcast_S_S20000x4 main_cst_2
  let main_v11 : IVec S20000x4 1 := cmpf .olt main_v9 main_v10
  let main_c_3 : IVec S_ 1 := constantI S_ 1 1#1
  let main_v12 : IVec S_ 1 := (fun x v => Host.reduce IntOp.andi x v reducesTo_S20000x4_S_d0_1 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_v13 main_v16
-- ==== Kernel.lean ====
abbrev S20000x32x64 : Shape := ⟨3, ![20000, 32, 64]⟩
abbrev S20000x32x3 : Shape := ⟨3, ![20000, 32, 3]⟩
abbrev S20000x4 : Shape := ⟨2, ![20000, 4]⟩
abbrev S20000x32 : Shape := ⟨2, ![20000, 32]⟩
abbrev S128x64 : Shape := ⟨2, ![128, 64]⟩
abbrev S128 : Shape := ⟨1, ![128]⟩
abbrev S4 : Shape := ⟨1, ![4]⟩
abbrev S20000x3 : Shape := ⟨2, ![20000, 3]⟩
abbrev S20000x1x3 : Shape := ⟨3, ![20000, 1, 3]⟩
abbrev S_ : Shape := ⟨0, ![]⟩
abbrev S20000x32x1 : Shape := ⟨3, ![20000, 32, 1]⟩
abbrev S20000x32x4 : Shape := ⟨3, ![20000, 32, 4]⟩
abbrev S1x1x4 : Shape := ⟨3, ![1, 1, 4]⟩
abbrev S20000x128 : Shape := ⟨2, ![20000, 128]⟩
abbrev S20000 : Shape := ⟨1, ![20000]⟩
abbrev S20000x1 : Shape := ⟨2, ![20000, 1]⟩
abbrev S20000x2048 : Shape := ⟨2, ![20000, 2048]⟩
abbrev S64x128 : Shape := ⟨2, ![64, 128]⟩
abbrev S2x1x128 : Shape := ⟨3, ![2, 1, 128]⟩
abbrev S200x2048 : Shape := ⟨2, ![200, 2048]⟩
abbrev S1x1x128 : Shape := ⟨3, ![1, 1, 128]⟩
abbrev S6400x64 : Shape := ⟨2, ![6400, 64]⟩
abbrev S6400x128 : Shape := ⟨2, ![6400, 128]⟩
abbrev S1x128 : Shape := ⟨2, ![1, 128]⟩
abbrev S200x128 : Shape := ⟨2, ![200, 128]⟩
abbrev S200x1 : Shape := ⟨2, ![200, 1]⟩
abbrev S200x32x128 : Shape := ⟨3, ![200, 32, 128]⟩
abbrev S200x32x4 : Shape := ⟨3, ![200, 32, 4]⟩

abbrev nBuf : Space → Nat
  | .hbm => 60
  | .vmem => 18
  | .smem => 0
  | _ => 0

abbrev bufTy : (tb : Table) → Fin (tcTables nBuf tb) → BufTy
  | .hbm, ⟨0, _⟩ => ⟨S20000x32x64, .f32⟩
  | .hbm, ⟨1, _⟩ => ⟨S20000x32x3, .f32⟩
  | .hbm, ⟨2, _⟩ => ⟨S20000x4, .f32⟩
  | .hbm, ⟨3, _⟩ => ⟨S20000x32, .i32⟩
  | .hbm, ⟨4, _⟩ => ⟨S128x64, .f32⟩
  | .hbm, ⟨5, _⟩ => ⟨S128, .f32⟩
  | .hbm, ⟨6, _⟩ => ⟨S128, .f32⟩
  | .hbm, ⟨7, _⟩ => ⟨S4, .f32⟩
  | .hbm, ⟨8, _⟩ => ⟨S20000x3, .f32⟩
  | .hbm, ⟨9, _⟩ => ⟨S20000x1x3, .f32⟩
  | .hbm, ⟨10, _⟩ => ⟨S20000x32x3, .f32⟩
  | .hbm, ⟨11, _⟩ => ⟨S20000x32x3, .f32⟩
  | .hbm, ⟨12, _⟩ => ⟨S20000x32x3, .f32⟩
  | .hbm, ⟨13, _⟩ => ⟨S_, .f32⟩
  | .hbm, ⟨14, _⟩ => ⟨S20000x32, .f32⟩
  | .hbm, ⟨15, _⟩ => ⟨S20000x32x1, .f32⟩
  | .hbm, ⟨16, _⟩ => ⟨S20000x32x4, .f32⟩
  | .hbm, ⟨17, _⟩ => ⟨S1x1x4, .f32⟩
  | .hbm, ⟨18, _⟩ => ⟨S20000x32x4, .f32⟩
  | .hbm, ⟨19, _⟩ => ⟨S20000x32x4, .f32⟩
  | .hbm, ⟨20, _⟩ => ⟨S20000x32, .f32⟩
  | .hbm, ⟨21, _⟩ => ⟨S20000x32x1, .f32⟩
  | .hbm, ⟨22, _⟩ => ⟨S20000x32x4, .f32⟩
  | .hbm, ⟨23, _⟩ => ⟨S20000x32x4, .f32⟩
  | .hbm, ⟨24, _⟩ => ⟨S20000x128, .f32⟩
  | .hbm, ⟨25, _⟩ => ⟨S_, .f32⟩
  | .hbm, ⟨26, _⟩ => ⟨S20000, .f32⟩
  | .hbm, ⟨27, _⟩ => ⟨S20000x1, .f32⟩
  | .hbm, ⟨28, _⟩ => ⟨S_, .f32⟩
  | .hbm, ⟨29, _⟩ => ⟨S20000x1, .f32⟩
  | .hbm, ⟨30, _⟩ => ⟨S20000x1, .f32⟩
  | .hbm, ⟨31, _⟩ => ⟨S20000x2048, .f32⟩
  | .hbm, ⟨32, _⟩ => ⟨S64x128, .f32⟩
  | .hbm, ⟨33, _⟩ => ⟨S2x1x128, .f32⟩
  | .hbm, ⟨34, _⟩ => ⟨S2x1x128, .f32⟩
  | .hbm, ⟨35, _⟩ => ⟨S_, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S_, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S20000x128, .f32⟩
  | .local _ .vmem, ⟨0, _⟩ => ⟨S200x2048, .f32⟩
  | .local _ .vmem, ⟨1, _⟩ => ⟨S200x2048, .f32⟩
  | .local _ .vmem, ⟨2, _⟩ => ⟨S64x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S200x2048, .f32⟩
  | .local _ .vmem, ⟨8, _⟩ => ⟨S200x2048, .f32⟩
  | .local _ .vmem, ⟨9, _⟩ => ⟨S200x128, .f32⟩
  | .local _ .vmem, ⟨10, _⟩ => ⟨S200x128, .f32⟩
  | .local _ .vmem, ⟨11, _⟩ => ⟨S200x1, .f32⟩
  | .local _ .vmem, ⟨12, _⟩ => ⟨S200x1, .f32⟩
  | .local _ .vmem, ⟨13, _⟩ => ⟨S64x128, .f32⟩
  | .local _ .vmem, ⟨14, _⟩ => ⟨S1x128, .f32⟩
  | .local _ .vmem, ⟨15, _⟩ => ⟨S1x128, .f32⟩
  | .local _ .vmem, ⟨16, _⟩ => ⟨S200x128, .f32⟩
  | .local _ .vmem, ⟨17, _⟩ => ⟨S200x128, .f32⟩
  | _, _ => ⟨S20000x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_cst_3 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S200x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S200x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S20000x4_S20000x3_0_1 : S20000x4.Slices ![0, 1] S20000x3
  bcast_S20000x3_S20000x1x3_0_2 : S20000x3.BroadcastsInDim S20000x1x3 (![0, 2] : Fin 2 → Fin S20000x1x3.rank)
  bcast_S20000x1x3_S20000x32x3_0_1_2 : S20000x1x3.BroadcastsInDim S20000x32x3 (![0, 1, 2] : Fin 3 → Fin S20000x32x3.rank)
  reducesTo_S20000x32x3_S20000x32_d2 : S20000x32x3.ReducesTo [2] S20000x32
  h_S_ : 0 < S_.numel
  bcast_S20000x32_S20000x32x1_0_1 : S20000x32.BroadcastsInDim S20000x32x1 (![0, 1] : Fin 2 → Fin S20000x32x1.rank)
  concatenates_S20000x32x3_S20000x32x1_S20000x32x4_d2 : Shape.Concatenates [S20000x32x3, S20000x32x1] S20000x32x4 2
  bcast_S4_S1x1x4_2 : S4.BroadcastsInDim S1x1x4 (![2] : Fin 1 → Fin S1x1x4.rank)
  bcast_S1x1x4_S20000x32x4_0_1_2 : S1x1x4.BroadcastsInDim S20000x32x4 (![0, 1, 2] : Fin 3 → Fin S20000x32x4.rank)
  bcast_S20000x32x1_S20000x32x4_0_1_2 : S20000x32x1.BroadcastsInDim S20000x32x4 (![0, 1, 2] : Fin 3 → Fin S20000x32x4.rank)
  shapeCasts_S20000x32x4_S20000x128 : S20000x32x4.ShapeCasts S20000x128
  reducesTo_S20000x32_S20000_d1 : S20000x32.ReducesTo [1] S20000
  bcast_S20000_S20000x1_0 : S20000.BroadcastsInDim S20000x1 (![0] : Fin 1 → Fin S20000x1.rank)
  bcast_S_S20000x1 : S_.BroadcastsInDim S20000x1 (![] : Fin 0 → Fin S20000x1.rank)
  shapeCasts_S20000x32x64_S20000x2048 : S20000x32x64.ShapeCasts S20000x2048
  transposes_S128x64_S64x128_1_0 : S128x64.Transposes [1, 0] S64x128
  inb_S200x2048_S200x2048_0_0 : ∀ a, (![0, 0] : Fin 2 → Nat) a + S200x2048.size a ≤ S200x2048.size a
  h_S200x2048 : 0 < S200x2048.numel
  shapeCasts_S200x2048_S200x2048 : S200x2048.ShapeCasts S200x2048
  shapeCasts_S200x2048_S6400x64 : S200x2048.ShapeCasts S6400x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  reduces_S6400x128_S128 : S6400x128.Reduces [0] S128
  shapeCasts_S128_S1x128 : S128.ShapeCasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  reducesTo_S2x1x128_S1x128_d0 : S2x1x128.ReducesTo [0] S1x128
  bcast_S_S1x128 : S_.BroadcastsInDim S1x128 (![] : Fin 0 → Fin S1x128.rank)
  bcast_S128_S1x128_1 : S128.BroadcastsInDim S1x128 (![1] : Fin 1 → Fin S1x128.rank)
  shapeCasts_S6400x128_S200x32x128 : S6400x128.ShapeCasts S200x32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x1x128_S200x32x128 : S1x1x128.Broadcasts S200x32x128
  inb_S200x128_S200x128_0_0 : ∀ a, (![0, 0] : Fin 2 → Nat) a + S200x128.size a ≤ S200x128.size a
  h_S200x128 : 0 < S200x128.numel
  shapeCasts_S200x128_S200x128 : S200x128.ShapeCasts S200x128
  shapeCasts_S200x128_S200x32x4 : S200x128.ShapeCasts S200x32x4
  concatenates_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x128_d2 : Shape.Concatenates [S200x32x4, S200x32x4, S200x32x4, S200x32x4, S200x32x4, S200x32x4, S200x32x4, S200x32x4, S200x32x4, S200x32x4, S200x32x4, S200x32x4, S200x32x4, S200x32x4, S200x32x4, S200x32x4, S200x32x4, S200x32x4, S200x32x4, S200x32x4, S200x32x4, S200x32x4, S200x32x4, S200x32x4, S200x32x4, S200x32x4, S200x32x4, S200x32x4, S200x32x4, S200x32x4, S200x32x4, S200x32x4] S200x32x128 2
  reduces_S200x32x128_S200x128 : S200x32x128.Reduces [1] S200x128
  inb_S200x1_S200x1_0_0 : ∀ a, (![0, 0] : Fin 2 → Nat) a + S200x1.size a ≤ S200x1.size a
  h_S200x1 : 0 < S200x1.numel
  shapeCasts_S200x1_S200x1 : S200x1.ShapeCasts S200x1
  broadcasts_S200x1_S200x128 : S200x1.Broadcasts S200x128
  dot_S6400x64_S64x128_S6400x128_1_0_0_1_n_n_wf : DotDims.WF S6400x64 S64x128 S6400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x2048.size a ≤ S20000x2048.size a
  hwx0_0 : ∀ i : grid0.Coords, EltTy.bits .f32 = 32 ∨ (Rect.block (s := S20000x2048) S200x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x2048.size a ≤ S20000x2048.size a
  hwx1_0 : ∀ i : grid1.Coords, EltTy.bits .f32 = 32 ∨ (Rect.block (s := S20000x2048) S200x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x128.size a ≤ S20000x128.size a
  hwx1_1 : ∀ i : grid1.Coords, EltTy.bits .f32 = 32 ∨ (Rect.block (s := S20000x128) S200x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x1.size a ≤ S20000x1.size a
  hwx1_2 : ∀ i : grid1.Coords, EltTy.bits .f32 = 32 ∨ (Rect.block (s := S20000x1) S200x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S200x128.size a ≤ S20000x128.size a
  hwx1_6 : ∀ i : grid1.Coords, EltTy.bits .f32 = 32 ∨ (Rect.block (s := S20000x128) S200x128.size (cc1_transform_6 i) (hinb1_6 i)).WholeWords (EltTy.packing .f32)

variable [Facts₀]

def dot_S6400x64_S64x128_S6400x128_1_0_0_1_n_n : DotDims S6400x64 S64x128 S6400x128 where
  lhsContracting := [1]
  rhsContracting := [0]
  lhsNonContracting := [0]
  rhsNonContracting := [1]
  lhsBatch := []
  rhsBatch := []
  wf := dot_S6400x64_S64x128_S6400x128_1_0_0_1_n_n_wf

abbrev win0_0 : Pipeline.Window sig grid0 :=
  Pipeline.Window.ofSpec (Memref.whole main_v20) S200x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S200x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S200x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S200x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S20000x32x64 : Shape := ⟨3, ![20000, 32, 64]⟩
abbrev S20000x32x3 : Shape := ⟨3, ![20000, 32, 3]⟩
abbrev S20000x4 : Shape := ⟨2, ![20000, 4]⟩
abbrev S20000x32 : Shape := ⟨2, ![20000, 32]⟩
abbrev S128x64 : Shape := ⟨2, ![128, 64]⟩
abbrev S128 : Shape := ⟨1, ![128]⟩
abbrev S4 : Shape := ⟨1, ![4]⟩
abbrev S20000x3 : Shape := ⟨2, ![20000, 3]⟩
abbrev S20000x1x3 : Shape := ⟨3, ![20000, 1, 3]⟩
abbrev S_ : Shape := ⟨0, ![]⟩
abbrev S20000x32x1 : Shape := ⟨3, ![20000, 32, 1]⟩
abbrev S20000x32x4 : Shape := ⟨3, ![20000, 32, 4]⟩
abbrev S1x1x4 : Shape := ⟨3, ![1, 1, 4]⟩
abbrev S20000x32x128 : Shape := ⟨3, ![20000, 32, 128]⟩
abbrev S640000x128 : Shape := ⟨2, ![640000, 128]⟩
abbrev S1x128 : Shape := ⟨2, ![1, 128]⟩
abbrev S1x1x128 : Shape := ⟨3, ![1, 1, 128]⟩
abbrev S1x20000x1x32x1x4 : Shape := ⟨6, ![1, 20000, 1, 32, 1, 4]⟩
abbrev S1x20000x1x32x32x4 : Shape := ⟨6, ![1, 20000, 1, 32, 32, 4]⟩
abbrev S20000x128 : Shape := ⟨2, ![20000, 128]⟩
abbrev S20000 : Shape := ⟨1, ![20000]⟩
abbrev S20000x1 : Shape := ⟨2, ![20000, 1]⟩

abbrev nBuf : Space → Nat
  | .hbm => 73
  | .vmem => 0
  | .smem => 0
  | _ => 0

abbrev bufTy : (tb : Table) → Fin (tcTables nBuf tb) → BufTy
  | .hbm, ⟨0, _⟩ => ⟨S20000x32x64, .f32⟩
  | .hbm, ⟨1, _⟩ => ⟨S20000x32x3, .f32⟩
  | .hbm, ⟨2, _⟩ => ⟨S20000x4, .f32⟩
  | .hbm, ⟨3, _⟩ => ⟨S20000x32, .i32⟩
  | .hbm, ⟨4, _⟩ => ⟨S128x64, .f32⟩
  | .hbm, ⟨5, _⟩ => ⟨S128, .f32⟩
  | .hbm, ⟨6, _⟩ => ⟨S128, .f32⟩
  | .hbm, ⟨7, _⟩ => ⟨S4, .f32⟩
  | .hbm, ⟨8, _⟩ => ⟨S20000x3, .f32⟩
  | .hbm, ⟨9, _⟩ => ⟨S20000x1x3, .f32⟩
  | .hbm, ⟨10, _⟩ => ⟨S20000x32x3, .f32⟩
  | .hbm, ⟨11, _⟩ => ⟨S20000x32x3, .f32⟩
  | .hbm, ⟨12, _⟩ => ⟨S20000x32x3, .f32⟩
  | .hbm, ⟨13, _⟩ => ⟨S_, .f32⟩
  | .hbm, ⟨14, _⟩ => ⟨S20000x32, .f32⟩
  | .hbm, ⟨15, _⟩ => ⟨S20000x32x1, .f32⟩
  | .hbm, ⟨16, _⟩ => ⟨S20000x32x4, .f32⟩
  | .hbm, ⟨17, _⟩ => ⟨S1x1x4, .f32⟩
  | .hbm, ⟨18, _⟩ => ⟨S20000x32x4, .f32⟩
  | .hbm, ⟨19, _⟩ => ⟨S20000x32x4, .f32⟩
  | .hbm, ⟨20, _⟩ => ⟨S20000x32x128, .f32⟩
  | .hbm, ⟨21, _⟩ => ⟨S640000x128, .f32⟩
  | .hbm, ⟨22, _⟩ => ⟨S_, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S1x128, .f32⟩
  | .hbm, ⟨28, _⟩ => ⟨S640000x128, .f32⟩
  | .hbm, ⟨29, _⟩ => ⟨S640000x128, .f32⟩
  | .hbm, ⟨30, _⟩ => ⟨S640000x128, .f32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S1x1x128, .f32⟩
  | .hbm, ⟨37, _⟩ => ⟨S20000x32x128, .f32⟩
  | .hbm, ⟨38, _⟩ => ⟨S20000x32x128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S1x1x128, .f32⟩
  | .hbm, ⟨44, _⟩ => ⟨S20000x32x128, .f32⟩
  | .hbm, ⟨45, _⟩ => ⟨S20000x32x128, .f32⟩
  | .hbm, ⟨46, _⟩ => ⟨S1x1x128, .f32⟩
  | .hbm, ⟨47, _⟩ => ⟨S20000x32x128, .f32⟩
  | .hbm, ⟨48, _⟩ => ⟨S20000x32x128, .f32⟩
  | .hbm, ⟨49, _⟩ => ⟨S1x1x128, .f32⟩
  | .hbm, ⟨50, _⟩ => ⟨S20000x32x128, .f32⟩
  | .hbm, ⟨51, _⟩ => ⟨S20000x32x128, .f32⟩
  | .hbm, ⟨52, _⟩ => ⟨S_, .f32⟩
  | .hbm, ⟨53, _⟩ => ⟨S20000x32x128, .f32⟩
  | .hbm, ⟨54, _⟩ => ⟨S20000x32x128, .f32⟩
  | .hbm, ⟨55, _⟩ => ⟨S1x20000x1x32x1x4, .f32⟩
  | .hbm, ⟨56, _⟩ => ⟨S1x20000x1x32x32x4, .f32⟩
  | .hbm, ⟨57, _⟩ => ⟨S20000x32x128, .f32⟩
  | .hbm, ⟨58, _⟩ => ⟨S20000x32, .f32⟩
  | .hbm, ⟨59, _⟩ => ⟨S20000x32x128, .f32⟩
  | .hbm, ⟨60, _⟩ => ⟨S20000x32x1, .f32⟩
  | .hbm, ⟨61, _⟩ => ⟨S20000x32x128, .f32⟩
  | .hbm, ⟨62, _⟩ => ⟨S20000x32x128, .f32⟩
  | .hbm, ⟨63, _⟩ => ⟨S_, .f32⟩
  | .hbm, ⟨64, _⟩ => ⟨S20000x128, .f32⟩
  | .hbm, ⟨65, _⟩ => ⟨S_, .f32⟩
  | .hbm, ⟨66, _⟩ => ⟨S20000, .f32⟩
  | .hbm, ⟨67, _⟩ => ⟨S20000x1, .f32⟩
  | .hbm, ⟨68, _⟩ => ⟨S_, .f32⟩
  | .hbm, ⟨69, _⟩ => ⟨S20000x1, .f32⟩
  | .hbm, ⟨70, _⟩ => ⟨S20000x1, .f32⟩
  | .hbm, ⟨71, _⟩ => ⟨S20000x128, .f32⟩
  | .hbm, ⟨72, _⟩ => ⟨S20000x128, .f32⟩
  | _, _ => ⟨S20000x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_cst : Ref sig .tc := ⟨.hbm, 52, rfl⟩
abbrev main_call0_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]

class Facts₀ : Prop where
  slices_S20000x4_S20000x3_0_1 : S20000x4.Slices ![0, 1] S20000x3
  bcast_S20000x3_S20000x1x3_0_2 : S20000x3.BroadcastsInDim S20000x1x3 (![0, 2] : Fin 2 → Fin S20000x1x3.rank)
  bcast_S20000x1x3_S20000x32x3_0_1_2 : S20000x1x3.BroadcastsInDim S20000x32x3 (![0, 1, 2] : Fin 3 → Fin S20000x32x3.rank)
  reducesTo_S20000x32x3_S20000x32_d2 : S20000x32x3.ReducesTo [2] S20000x32
  h_S_ : 0 < S_.numel
  bcast_S20000x32_S20000x32x1_0_1 : S20000x32.BroadcastsInDim S20000x32x1 (![0, 1] : Fin 2 → Fin S20000x32x1.rank)
  concatenates_S20000x32x3_S20000x32x1_S20000x32x4_d2 : Shape.Concatenates [S20000x32x3, S20000x32x1] S20000x32x4 2
  bcast_S4_S1x1x4_2 : S4.BroadcastsInDim S1x1x4 (![2] : Fin 1 → Fin S1x1x4.rank)
  bcast_S1x1x4_S20000x32x4_0_1_2 : S1x1x4.BroadcastsInDim S20000x32x4 (![0, 1, 2] : Fin 3 → Fin S20000x32x4.rank)
  shapeCasts_S20000x32x128_S640000x128 : S20000x32x128.ShapeCasts S640000x128
  reducesTo_S640000x128_S128_d0 : S640000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S128_S1x1x128_2 : S128.BroadcastsInDim S1x1x128 (![2] : Fin 1 → Fin S1x1x128.rank)
  bcast_S1x1x128_S20000x32x128_0_1_2 : S1x1x128.BroadcastsInDim S20000x32x128 (![0, 1, 2] : Fin 3 → Fin S20000x32x128.rank)
  bcast_S_S20000x32x128 : S_.BroadcastsInDim S20000x32x128 (![] : Fin 0 → Fin S20000x32x128.rank)
  shapeCasts_S20000x32x4_S1x20000x1x32x1x4 : S20000x32x4.ShapeCasts S1x20000x1x32x1x4
  bcast_S1x20000x1x32x1x4_S1x20000x1x32x32x4_0_1_2_3_4_5 : S1x20000x1x32x1x4.BroadcastsInDim S1x20000x1x32x32x4 (![0, 1, 2, 3, 4, 5] : Fin 6 → Fin S1x20000x1x32x32x4.rank)
  shapeCasts_S1x20000x1x32x32x4_S20000x32x128 : S1x20000x1x32x32x4.ShapeCasts S20000x32x128
  bcast_S20000x32x1_S20000x32x128_0_1_2 : S20000x32x1.BroadcastsInDim S20000x32x128 (![0, 1, 2] : Fin 3 → Fin S20000x32x128.rank)
  reducesTo_S20000x32x128_S20000x128_d1 : S20000x32x128.ReducesTo [1] S20000x128
  reducesTo_S20000x32_S20000_d1 : S20000x32.ReducesTo [1] S20000
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  dot_S20000x32x64_S128x64_S20000x32x128_2_1_01_0_n_n_wf : DotDims.WF S20000x32x64 S128x64 S20000x32x128 [2] [1] [0, 1] [0] [] []

variable [Facts₀]

def dot_S20000x32x64_S128x64_S20000x32x128_2_1_01_0_n_n : DotDims S20000x32x64 S128x64 S20000x32x128 where
  lhsContracting := [2]
  rhsContracting := [1]
  lhsNonContracting := [0, 1]
  rhsNonContracting := [0]
  lhsBatch := []
  rhsBatch := []
  wf := dot_S20000x32x64_S128x64_S20000x32x128_2_1_01_0_n_n_wf

class Facts : Prop extends Facts₀ where

variable [Facts]
-- ==== Proof.Spec.lean ====
/-
  The mathematics of this certificate, stated once over literal shapes and with no program in sight.

  A point cloud of 20000 centres, each with 32 neighbours carrying 64 features, goes through a shared linear layer
  (128 output channels), a batch normalisation with the statistics of ALL 640000 rows, a rectifier, and a pooling
  over the 32 neighbours weighted by a geometric encoding (4 numbers per neighbour, repeated along the channels
  with period 4) and a 0/1-like integer mask, divided by the clamped mask count.

  Two arrangements of that computation are written here as functions of the same data, index by index over the
  extended reals:

  * the fused form (`outK`): the channel sums `Σ x` and `Σ x²` are gathered tile by tile (2 halves × 50 tiles ×
    6400 rows), the variance is `max (E[x²] − μ², 0)`, the normalisation is applied as one multiply-add
    `x · scale + shift` with `scale = γ · rsqrt(var + ε)`, `shift = β − μ · scale`, and the pooling weight is the
    product `geo · mask` formed beforehand;
  * the textbook form (`outR`): the sums run over the 640000 rows in order, the variance is the mean of
    `(x − μ)²`, the normalisation is `(x − μ) · rsqrt(var + ε) · γ + β`, and the pooling multiplies by `geo` and then
    by the mask.

  Module Algebra proves the two equal when the features, the weights, γ and β are finite.
-/
import Idealize.ShloMosaic.PureOps.Ideal
import Idealize.ShloMosaic.Lib.ValueIdx

noncomputable section

namespace Cert.PosPool

open Idealize.ShloMosaic Idealize.ShloMosaic.ValueIdx

/-- Everything the result depends on, as arrays of extended reals: the features [20000, 32, 64], the weights
    [128, 64], the normalisation's γ and β [128], the geometric encoding [20000, 32, 4], the mask as floats
    [20000, 32] and the clamped mask count [20000, 1]. -/
structure Data where
  feat : (⟨3, ![20000, 32, 64]⟩ : Shape).Idx → EReal
  W : (⟨2, ![128, 64]⟩ : Shape).Idx → EReal
  gamma : (⟨1, ![128]⟩ : Shape).Idx → EReal
  beta : (⟨1, ![128]⟩ : Shape).Idx → EReal
  geo : (⟨3, ![20000, 32, 4]⟩ : Shape).Idx → EReal
  mf : (⟨2, ![20000, 32]⟩ : Shape).Idx → EReal
  den : (⟨2, ![20000, 1]⟩ : Shape).Idx → EReal

/-- The row count 640000 = 20000 · 32 as both programs write it (an exact f32). -/
abbrev cnt : EReal := Ideal.ofBits .f32 0x491C4000#32
/-- The normalisation's ε (the f32 nearest 1e-5), the same word in both programs. -/
abbrev eps : EReal := Ideal.ofBits .f32 0x3727C5AC#32

/-! ## Index arithmetic shared by the statements -/

/-- Feature `k` of neighbour `s` in a centre's flattened row of 32 · 64 features. -/
def fk (s : Fin 32) (k : Fin 64) : Fin 2048 := ⟨s.val * 64 + k.val, by have := s.isLt; have := k.isLt; omega⟩
/-- Geometric component `q` of neighbour `s` in a centre's flattened row of 32 · 4 numbers. -/
def fq (s : Fin 32) (q : Fin 4) : Fin 128 := ⟨s.val * 4 + q.val, by have := s.isLt; have := q.isLt; omega⟩
/-- The geometric component that channel `d` is weighted by: the encoding repeats with period 4. -/
def ch4 (d : Fin 128) : Fin 4 := ⟨d.val % 4, Nat.mod_lt _ (by decide)⟩
/-- Row `r` of tile `i` of half `h`: its centre … -/
def tileN (h : Fin 2) (i : Fin 50) (r : Fin 6400) : Fin 20000 :=
  ⟨(h.val * 50 + i.val) * 200 + r.val / 32, by have := h.isLt; have := i.isLt; have := r.isLt; omega⟩
/-- … and its neighbour. -/
def tileS (r : Fin 6400) : Fin 32 := ⟨r.val % 32, Nat.mod_lt _ (by decide)⟩
/-- Row `q` of the 640000: its centre … -/
def rowN (q : Fin 640000) : Fin 20000 := ⟨q.val / 32, by have := q.isLt; omega⟩
/-- … and its neighbour. -/
def rowS (q : Fin 640000) : Fin 32 := ⟨q.val % 32, Nat.mod_lt _ (by decide)⟩

variable (D : Data)

/-- The linear layer: channel `d` of neighbour `s` of centre `n`. -/
def lin (n : Fin 20000) (s : Fin 32) (d : Fin 128) : EReal :=
  ∑ k : Fin 64, D.feat (ix3 n s k) * D.W (ix2 d k)

/-! ## The fused form -/

/-- Channel `d`'s sum of `x` gathered by halves, tiles and rows. -/
def S1K (d : Fin 128) : EReal := ∑ h : Fin 2, ∑ i : Fin 50, ∑ r : Fin 6400, lin D (tileN h i r) (tileS r) d
/-- Channel `d`'s sum of `x²` gathered the same way. -/
def S2K (d : Fin 128) : EReal :=
  ∑ h : Fin 2, ∑ i : Fin 50, ∑ r : Fin 6400, lin D (tileN h i r) (tileS r) d * lin D (tileN h i r) (tileS r) d
/-- The mean from a sum. -/
def muOf (s1 : EReal) : EReal := Ideal.div s1 cnt
/-- The clamped variance `max (E[x²] − μ², 0)` from the two sums. -/
def varOf (s1 s2 : EReal) : EReal := max (Ideal.div s2 cnt - muOf s1 * muOf s1) 0
/-- `γ · rsqrt (var + ε)`. -/
def scaleOf (g s1 s2 : EReal) : EReal := g * Ideal.rsqrt (varOf s1 s2 + eps)
/-- `β − μ · scale`. -/
def shiftOf (b g s1 s2 : EReal) : EReal := b - muOf s1 * scaleOf g s1 s2
def scaleK (d : Fin 128) : EReal := scaleOf (D.gamma (ix1 d)) (S1K D d) (S2K D d)
def shiftK (d : Fin 128) : EReal := shiftOf (D.beta (ix1 d)) (D.gamma (ix1 d)) (S1K D d) (S2K D d)
/-- The pooled numerator's summand, given the multiply-add's two coefficients. -/
def termK (sc sh : EReal) (n : Fin 20000) (s : Fin 32) (d : Fin 128) : EReal :=
  max (lin D n s d * sc + sh) 0 * (D.geo (ix3 n s (ch4 d)) * D.mf (ix2 n s))
/-- The fused form's result at centre `n`, channel `d`. -/
def outK (n : Fin 20000) (d : Fin 128) : EReal :=
  Ideal.div (∑ s : Fin 32, termK D (scaleK D d) (shiftK D d) n s d) (D.den (ix2 n 0))

/-! ## The textbook form -/

def S1R (d : Fin 128) : EReal := ∑ q : Fin 640000, lin D (rowN q) (rowS q) d
def muR (d : Fin 128) : EReal := Ideal.div (S1R D d) cnt
/-- The mean of the squared deviations. -/
def varR (d : Fin 128) : EReal :=
  Ideal.div (∑ q : Fin 640000, (lin D (rowN q) (rowS q) d - muR D d) * (lin D (rowN q) (rowS q) d - muR D d)) cnt
def termR (n : Fin 20000) (s : Fin 32) (d : Fin 128) : EReal :=
  max ((lin D n s d - muR D d) * Ideal.rsqrt (varR D d + eps) * D.gamma (ix1 d) + D.beta (ix1 d)) 0
    * D.geo (ix3 n s (ch4 d)) * D.mf (ix2 n s)
/-- The textbook form's result at centre `n`, channel `d`. -/
def outR (n : Fin 20000) (d : Fin 128) : EReal :=
  Ideal.div (∑ s : Fin 32, termR D n s d) (D.den (ix2 n 0))

end Cert.PosPool

end
-- ==== Proof.KHost.lean ====
/-
  The host side of the fused program, read at an index. Before the first kernel: the features flattened to rows of
  32 · 64, the weights transposed, the geometric encoding times the mask flattened to rows of 32 · 4, the clamped mask
  count. Between the kernels: those four arrays are still what they were when the first kernel was entered.
-/
import proofs.«420376_j26259430048619_3_alg».proof.Proof.Spec
import proofs.«420376_j26259430048619_3_alg».proof.Proof.Gen.KernelIdeal.Frame
import Idealize.ShloMosaic.Lib.StableHlo.Run
import Idealize.ShloMosaic.Lib.Pipeline.Value
import Idealize.ShloMosaic.PureOps.Ideal.Laws

noncomputable section

namespace Cert.PosPool.K

open Cert.KernelIdeal Cert.KernelIdeal.Gen Idealize.ShloMosaic Idealize.ShloMosaic.TcCoe Idealize.SL.Sem
open Idealize.ShloMosaic.Pipeline (Dat)
open Cert.PosPool Idealize.ShloMosaic.ValueIdx

/-- The neighbours' positions relative to their centre: `coords − centers[:, 1:4]`, broadcast along the neighbours. -/
def relK (coords : FVec Ideal S20000x32x3 .f32) (centers : FVec Ideal S20000x4 .f32) : FVec Ideal S20000x32x3 .f32 :=
  subf (F := Ideal) (φ := .f32) coords (broadcastInDim (α := EReal) S20000x32x3 ![0, 1, 2] bcast_S20000x1x3_S20000x32x3_0_1_2
    (broadcastInDim (α := EReal) S20000x1x3 ![0, 2] bcast_S20000x3_S20000x1x3_0_2 (extractStridedSlice (α := EReal) S20000x3 ![0, 1] centers slices_S20000x4_S20000x3_0_1)))

/-- The geometric encoding: the three relative coordinates and their squared length, each divided by its normaliser
    (0.1, 0.1, 0.2, 0.06). Both programs compute it by the same thirteen host operations; it is carried as one term and
    never opened. -/
def geoK (coords : FVec Ideal S20000x32x3 .f32) (centers : FVec Ideal S20000x4 .f32) : FVec Ideal S20000x32x4 .f32 :=
  Host.divf (F := Ideal) (φ := .f32)
    (concatenate (α := EReal) S20000x32x4 2 [⟨S20000x32x3, relK coords centers⟩,
      ⟨S20000x32x1, broadcastInDim (α := EReal) S20000x32x1 ![0, 1] bcast_S20000x32_S20000x32x1_0_1
        (Host.reduceAdd (F := Ideal) (φ := .f32) (mulf (F := Ideal) (φ := .f32) (relK coords centers) (relK coords centers)) (constant (F := Ideal) S_ .f32 0x00000000#32) reducesTo_S20000x32x3_S20000x32_d2 h_S_)⟩]
      concatenates_S20000x32x3_S20000x32x1_S20000x32x4_d2)
    (broadcastInDim (α := EReal) S20000x32x4 ![0, 1, 2] bcast_S1x1x4_S20000x32x4_0_1_2
      (broadcastInDim (α := EReal) S1x1x4 ![2] bcast_S4_S1x1x4_2 (fun i => FloatOps.ofBits (F := Ideal) .f32 (lit0 (S4.rowMajor i)))))

/-- The mask as floats. -/
def mfK (mask : IVec S20000x32 32) : FVec Ideal S20000x32 .f32 := sitofp (F := Ideal) .f32 mask

/-- The clamped mask count `max (Σₛ mask, 1)`, as a column. -/
def denK (mask : IVec S20000x32 32) : FVec Ideal S20000x1 .f32 :=
  maximumf (F := Ideal) (φ := .f32)
    (broadcastInDim (α := EReal) S20000x1 ![0] bcast_S20000_S20000x1_0
      (Host.reduceAdd (F := Ideal) (φ := .f32) (mfK mask) (constant (F := Ideal) S_ .f32 0x00000000#32) reducesTo_S20000x32_S20000_d1 h_S_))
    (broadcastInDim (α := EReal) S20000x1 ![] bcast_S_S20000x1 (constant (F := Ideal) S_ .f32 0x3F800000#32))

/-- The data of the specification, from the seven argument arrays. -/
def dataK (a0 : FVec Ideal S20000x32x64 .f32) (a1 : FVec Ideal S20000x32x3 .f32) (a2 : FVec Ideal S20000x4 .f32)
    (a3 : IVec S20000x32 32) (a4 : FVec Ideal S128x64 .f32) (a5 a6 : FVec Ideal S128 .f32) : Data where
  feat := a0
  W := a4
  gamma := a5
  beta := a6
  geo := geoK a1 a2
  mf := mfK a3
  den := denK a3

variable (m : (ℓ : Loc nD τ sig) → Buf (Elt Ideal) ℓ) (ρ : Dev nD → PrngReg)

/-- The specification's data, read off the launch memory's argument buffers on core `c`. -/
def dataM (c : Dev nD) : Data :=
  dataK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## Before the first kernel (the contents `V1`) -/

/-- The flattened features: row `n`, column `s · 64 + k` of the [20000, 2048] array is entry `(n, s, k)` of the
    [20000, 32, 64] one — the two have the same row-major position `(n · 32 + s) · 64 + k = n · 2048 + (s · 64 + k)`. -/
theorem v20_apply (c : Dev nD) (n : Fin 20000) (s : Fin 32) (k : Fin 64) :
    (V1 m ρ c main_v20 : FVec Ideal S20000x2048 .f32) (ix2 n (fk s k)) = (dataM m c).feat (ix3 n s k) := by
  have e : (V1 m ρ c main_v20 : FVec Ideal S20000x2048 .f32)
      = shapeCast S20000x2048 (m ((c : Thread nD τ).loc main_arg0) : FVec Ideal S20000x32x64 .f32) shapeCasts_S20000x32x64_S20000x2048 := by
    show StableHlo.after hostOps0 _ (Proc.devRef .tc main_v20) = _
    after_results
    rfl
  rw [e]
  refine shapeCast_apply _ _ _ (ix3 n s k) ?_
  rw [Shape.rowMajor_val_three, Shape.rowMajor_val_two]
  show (n.val * 32 + s.val) * 64 + k.val = n.val * 2048 + (s.val * 64 + k.val)
  omega

/-- The transposed weights: entry `(k, d)` of the [64, 128] array is entry `(d, k)` of the [128, 64] one. -/
theorem v21_apply (c : Dev nD) (k : Fin 64) (d : Fin 128) :
    (V1 m ρ c main_v21 : FVec Ideal S64x128 .f32) (ix2 k d) = (dataM m c).W (ix2 d k) := by
  have e : (V1 m ρ c main_v21 : FVec Ideal S64x128 .f32)
      = transpose S64x128 [1, 0] (m ((c : Thread nD τ).loc main_arg4) : FVec Ideal S128x64 .f32) transposes_S128x64_S64x128_1_0 := by
    show StableHlo.after hostOps0 _ (Proc.devRef .tc main_v21) = _
    after_results
  rw [e]
  refine transpose_apply _ _ _ _ (ix2 d k) fun b => ?_
  match b with
  | ⟨0, _⟩ => rfl
  | ⟨1, _⟩ => rfl

/-- The buffers once the thirteen operations that form the geometric encoding have run. -/
def Wgeo (c : Dev nD) : Valuation τ sig (Elt Ideal) := StableHlo.after (List.take 13 hostOps0) (W0 m ρ c)

/-- The stretch before the first kernel is those thirteen operations and then the other thirteen. -/
theorem W1_split (c : Dev nD) : W1 m ρ c = StableHlo.after (List.drop 13 hostOps0) (Wgeo m ρ c) := by
  unfold Wgeo
  rw [← StableHlo.after_append, List.take_append_drop]

/-- What the thirteen leave in the encoding's buffer is `geoK` of the coordinates and the centres. -/
theorem Wgeo_v10 (c : Dev nD) :
    (Wgeo m ρ c (Proc.devRef .tc main_v10) : FVec Ideal S20000x32x4 .f32)
      = geoK (m ((c : Thread nD τ).loc main_arg1)) (m ((c : Thread nD τ).loc main_arg2)) := by
  unfold Wgeo
  simp only [hostOps0, List.take_succ_cons, List.take_zero]
  after_results
  rfl

/-- None of the thirteen writes the mask. -/
theorem Wgeo_arg3 (c : Dev nD) :
    (Wgeo m ρ c (Proc.devRef .tc main_arg3) : IVec S20000x32 32) = m ((c : Thread nD τ).loc main_arg3) := by
  unfold Wgeo
  simp only [hostOps0, List.take_succ_cons, List.take_zero]
  after_results

/-- The weighted encoding as the other thirteen form it: the encoding times the mask spread along the last axis, flattened. -/
theorem v15_eq (c : Dev nD) :
    (V1 m ρ c main_v15 : FVec Ideal S20000x128 .f32)
      = shapeCast S20000x128 (mulf (F := Ideal) (φ := .f32) (Wgeo m ρ c (Proc.devRef .tc main_v10) : FVec Ideal S20000x32x4 .f32)
          (broadcastInDim (α := EReal) S20000x32x4 ![0, 1, 2] bcast_S20000x32x1_S20000x32x4_0_1_2
            (broadcastInDim (α := EReal) S20000x32x1 ![0, 1] bcast_S20000x32_S20000x32x1_0_1 (mfK (Wgeo m ρ c (Proc.devRef .tc main_arg3))))))
          shapeCasts_S20000x32x4_S20000x128 := by
  show W1 m ρ c (Proc.devRef .tc main_v15) = _
  rw [W1_split]
  simp only [hostOps0, List.drop_succ_cons, List.drop_zero]
  after_results
  rfl

/-- The mask given a unit last axis and then spread over 4: its entry at `(n, s, q)` is the mask's at `(n, s)`. -/
theorem maskSpread_apply (x : FVec Ideal S20000x32 .f32) (n : Fin 20000) (s : Fin 32) (q : Fin 4) :
    broadcastInDim (α := EReal) S20000x32x4 ![0, 1, 2] bcast_S20000x32x1_S20000x32x4_0_1_2
      (broadcastInDim (α := EReal) S20000x32x1 ![0, 1] bcast_S20000x32_S20000x32x1_0_1 x) (ix3 n s q) = x (ix2 n s) := by
  refine (broadcastInDim_apply _ _ _ (ix3 n s q) (ix3 n s (0 : Fin 1)) fun a => ?_).trans
    (broadcastInDim_apply _ _ _ (ix3 n s (0 : Fin 1)) (ix2 n s) fun a => ?_)
  · match a with
    | ⟨0, _⟩ => rfl
    | ⟨1, _⟩ => rfl
    | ⟨2, _⟩ => rfl
  · match a with
    | ⟨0, _⟩ => rfl
    | ⟨1, _⟩ => rfl

/-- The flattened weighted encoding: row `n`, column `s · 4 + q` of the [20000, 128] array is entry `(n, s, q)` of the
    [20000, 32, 4] product (equal row-major positions `(n · 32 + s) · 4 + q = n · 128 + (s · 4 + q)`), and the product is
    pointwise. -/
theorem v15_apply (c : Dev nD) (n : Fin 20000) (s : Fin 32) (q : Fin 4) :
    (V1 m ρ c main_v15 : FVec Ideal S20000x128 .f32) (ix2 n (fq s q)) = (dataM m c).geo (ix3 n s q) * (dataM m c).mf (ix2 n s) := by
  rw [v15_eq, Wgeo_v10, Wgeo_arg3]
  refine (shapeCast_apply _ _ _ (ix3 n s q) ?_).trans ?_
  · rw [Shape.rowMajor_val_three, Shape.rowMajor_val_two]
    show (n.val * 32 + s.val) * 4 + q.val = n.val * 128 + (s.val * 4 + q.val)
    omega
  · exact congrArg (geoK (m ((c : Thread nD τ).loc main_arg1)) (m ((c : Thread nD τ).loc main_arg2)) (ix3 n s q) * ·)
      (maskSpread_apply (mfK (m ((c : Thread nD τ).loc main_arg3))) n s q)

/-- The count column is `denK` of the mask, term for term. -/
theorem v19_apply (c : Dev nD) (n : Fin 20000) :
    (V1 m ρ c main_v19 : FVec Ideal S20000x1 .f32) (ix2 n 0) = (dataM m c).den (ix2 n 0) := by
  have e : (V1 m ρ c main_v19 : FVec Ideal S20000x1 .f32) = denK (m ((c : Thread nD τ).loc main_arg3)) := by
    show StableHlo.after hostOps0 _ (Proc.devRef .tc main_v19) = _
    after_results
    rfl
  rw [e]
  rfl

/-! ## Between the kernels (the contents `V3`): the four arrays are kept -/

/-- A buffer that none of the twenty-four operations between the kernels writes holds after them what the first kernel
    left in it. -/
theorem hostOps1_keeps (c : Dev nD) (b : Ref sig .tc)
    (hb : b ≠ main_cst_3 ∧ b ≠ main_v23 ∧ b ≠ main_cst_4 ∧ b ≠ main_v24 ∧ b ≠ main_cst_5 ∧ b ≠ main_v25 ∧ b ≠ main_v26
      ∧ b ≠ main_cst_6 ∧ b ≠ main_v27 ∧ b ≠ main_v28 ∧ b ≠ main_v29 ∧ b ≠ main_v30 ∧ b ≠ main_cst_7 ∧ b ≠ main_v31
      ∧ b ≠ main_v32 ∧ b ≠ main_v33 ∧ b ≠ main_cst_8 ∧ b ≠ main_v34 ∧ b ≠ main_v35 ∧ b ≠ main_v36 ∧ b ≠ main_v37
      ∧ b ≠ main_v38 ∧ b ≠ main_v39 ∧ b ≠ main_v40) :
    V3 m ρ c b = V2 m ρ c b := by
  refine StableHlo.after_of_forall_not_mem (b := Proc.devRef .tc b) _ _ (List.forall_iff_forall_mem.mp ?_)
  simp only [hostOps1, List.Forall, StableHlo.nullary_writes, StableHlo.unary_writes, StableHlo.binary_writes, Finset.mem_singleton]
  obtain ⟨h0, h1, h2, h3, h4, h5, h6, h7, h8, h9, h10, h11, h12, h13, h14, h15, h16, h17, h18, h19, h20, h21, h22, h23⟩ := hb
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11,
    StableHlo.devRef_ne_of_ne h12, StableHlo.devRef_ne_of_ne h13, StableHlo.devRef_ne_of_ne h14, StableHlo.devRef_ne_of_ne h15,
    StableHlo.devRef_ne_of_ne h16, StableHlo.devRef_ne_of_ne h17, StableHlo.devRef_ne_of_ne h18, StableHlo.devRef_ne_of_ne h19,
    StableHlo.devRef_ne_of_ne h20, StableHlo.devRef_ne_of_ne h21, StableHlo.devRef_ne_of_ne h22, StableHlo.devRef_ne_of_ne h23⟩

/-- The flattened features are the first kernel's first input array: it leaves an input array as it found it. -/
theorem V3_v20 (c : Dev nD) : V3 m ρ c main_v20 = V1 m ρ c main_v20 :=
  calc V3 m ρ c main_v20
    _ = V2 m ρ c main_v20 := hostOps1_keeps m ρ c main_v20 (by decide)
    _ = (dat0 (V1 m ρ) c).arrAt 0 cfg0.N := W2_arr m ρ c 0
    _ = (dat0 (V1 m ρ) c).A 0 := Dat.arrAt_in _ 0 rfl _
    _ = V1 m ρ c main_v20 := A_eq0 (V1 m ρ) c 0

/-- The transposed weights are its second input array. -/
theorem V3_v21 (c : Dev nD) : V3 m ρ c main_v21 = V1 m ρ c main_v21 :=
  calc V3 m ρ c main_v21
    _ = V2 m ρ c main_v21 := hostOps1_keeps m ρ c main_v21 (by decide)
    _ = (dat0 (V1 m ρ) c).arrAt 1 cfg0.N := W2_arr m ρ c 1
    _ = (dat0 (V1 m ρ) c).A 1 := Dat.arrAt_in _ 1 rfl _
    _ = V1 m ρ c main_v21 := A_eq0 (V1 m ρ) c 1

/-- The weighted encoding is none of the first kernel's arrays. -/
theorem V3_v15 (c : Dev nD) : V3 m ρ c main_v15 = V1 m ρ c main_v15 :=
  calc V3 m ρ c main_v15
    _ = V2 m ρ c main_v15 := hostOps1_keeps m ρ c main_v15 (by decide)
    _ = V1 m ρ c main_v15 := W2_of_ne m ρ c main_v15 (by decide)

/-- Nor is the count column. -/
theorem V3_v19 (c : Dev nD) : V3 m ρ c main_v19 = V1 m ρ c main_v19 :=
  calc V3 m ρ c main_v19
    _ = V2 m ρ c main_v19 := hostOps1_keeps m ρ c main_v19 (by decide)
    _ = V1 m ρ c main_v19 := W2_of_ne m ρ c main_v19 (by decide)

end Cert.PosPool.K

end
-- ==== Proof.KHost1.lean ====
/-
  The host operations between the two kernels, read at an index: the two per-half sum arrays [2, 1, 128] are added
  over the halves, divided by the row count, and turned into the multiply-add's coefficient rows [1, 128]:
  `scale = γ · rsqrt (max (E[x²] − μ², 0) + ε)` and `shift = β − μ · scale`.
-/
import proofs.«420376_j26259430048619_3_alg».proof.Proof.KHost
import Idealize.ShloMosaic.Lib.IdealHost

noncomputable section

namespace Cert.PosPool.K

open Cert.KernelIdeal Cert.KernelIdeal.Gen Idealize.ShloMosaic Idealize.ShloMosaic.TcCoe Idealize.SL.Sem
open Idealize.ShloMosaic.Pipeline (Dat)
open Cert.PosPool Idealize.ShloMosaic.ValueIdx

/-! ## The stages between the kernels, as functions of the per-half sum arrays and of γ, β -/

/-- A per-half sum array added over the halves and divided by the row count. -/
def meanRow (a : FVec Ideal S2x1x128 .f32) : FVec Ideal S1x128 .f32 :=
  Host.divf (F := Ideal) (φ := .f32)
    (Host.reduceAdd (F := Ideal) (φ := .f32) a (constant (F := Ideal) S_ .f32 0x00000000#32) reducesTo_S2x1x128_S1x128_d0 h_S_)
    (broadcastInDim (α := EReal) S1x128 ![] bcast_S_S1x128 (constant (F := Ideal) S_ .f32 0x491C4000#32))

/-- The clamped variance row `max (E[x²] − μ², 0)`. -/
def varRow (a1 a2 : FVec Ideal S2x1x128 .f32) : FVec Ideal S1x128 .f32 :=
  maximumf (F := Ideal) (φ := .f32)
    (subf (F := Ideal) (φ := .f32) (meanRow a2) (mulf (F := Ideal) (φ := .f32) (meanRow a1) (meanRow a1)))
    (broadcastInDim (α := EReal) S1x128 ![] bcast_S_S1x128 (constant (F := Ideal) S_ .f32 0x00000000#32))

/-- The scale row `γ · rsqrt (var + ε)`. -/
def scaleTerm (g : FVec Ideal S128 .f32) (a1 a2 : FVec Ideal S2x1x128 .f32) : FVec Ideal S1x128 .f32 :=
  mulf (F := Ideal) (φ := .f32) (broadcastInDim (α := EReal) S1x128 ![1] bcast_S128_S1x128_1 g)
    (Host.rsqrt (F := Ideal) (φ := .f32)
      (addf (F := Ideal) (φ := .f32) (varRow a1 a2)
        (broadcastInDim (α := EReal) S1x128 ![] bcast_S_S1x128 (constant (F := Ideal) S_ .f32 0x3727C5AC#32))))

/-- The shift row `β − μ · scale`. -/
def shiftTerm (b g : FVec Ideal S128 .f32) (a1 a2 : FVec Ideal S2x1x128 .f32) : FVec Ideal S1x128 .f32 :=
  subf (F := Ideal) (φ := .f32) (broadcastInDim (α := EReal) S1x128 ![1] bcast_S128_S1x128_1 b)
    (mulf (F := Ideal) (φ := .f32) (meanRow a1) (scaleTerm g a1 a2))

/-! ## The stages at (0, d) -/

/-- The index the sum over the halves inserts: half `h` put in front of (0, d). -/
theorem lift_halves (r : S2x1x128.Reduces [0] S1x128) (d : Fin 128) (h : Fin 2) : r.lift (ix2 0 d) h = ix3 h 0 d :=
  funext fun a => Fin.ext (by match a with | ⟨0, _⟩ => rfl | ⟨1, _⟩ => rfl | ⟨2, _⟩ => rfl)

/-- A vector of 128 laid along a unit row axis reads its entry `d` at (0, d). -/
theorem rowOf_apply (g : FVec Ideal S128 .f32) (d : Fin 128) :
    broadcastInDim (α := EReal) S1x128 ![1] bcast_S128_S1x128_1 g (ix2 0 d) = g (ix1 d) :=
  broadcastInDim_apply ![1] bcast_S128_S1x128_1 g (ix2 (0 : Fin 1) d) (ix1 d) (fun a => by
    match a with
    | ⟨0, _⟩ => rfl)

/-- A broadcast word reads the word. -/
theorem wordRow_apply (w : BitVec 32) (d : Fin 128) :
    broadcastInDim (α := EReal) S1x128 ![] bcast_S_S1x128 (constant (F := Ideal) S_ .f32 w) (ix2 0 d) = Ideal.ofBits .f32 w := by
  rw [broadcastInDim_scalar_apply, constant_apply]

theorem meanRow_apply (a : FVec Ideal S2x1x128 .f32) (d : Fin 128) :
    meanRow a (ix2 0 d) = muOf (∑ h : Fin 2, a (ix3 h 0 d)) := by
  unfold meanRow
  rw [hostDivf_apply, hostReduceAdd_apply, Ideal.hostReduceAdd_single reducesTo_S2x1x128_S1x128_d0 (by decide), constant_apply,
    Ideal.ofBits_zero_f32, zero_add, wordRow_apply]
  exact congrArg (Ideal.div · cnt) (Finset.sum_congr rfl fun h _ => congrArg a (lift_halves _ d h))

theorem varRow_apply (a1 a2 : FVec Ideal S2x1x128 .f32) (d : Fin 128) :
    varRow a1 a2 (ix2 0 d) = varOf (∑ h : Fin 2, a1 (ix3 h 0 d)) (∑ h : Fin 2, a2 (ix3 h 0 d)) := by
  unfold varRow
  rw [maximumf_apply, subf_apply, mulf_apply, meanRow_apply, meanRow_apply, wordRow_apply, Ideal.ofBits_zero_f32]
  rfl

theorem scaleTerm_at (g : FVec Ideal S128 .f32) (a1 a2 : FVec Ideal S2x1x128 .f32) (d : Fin 128) :
    scaleTerm g a1 a2 (ix2 0 d) = scaleOf (g (ix1 d)) (∑ h : Fin 2, a1 (ix3 h 0 d)) (∑ h : Fin 2, a2 (ix3 h 0 d)) := by
  unfold scaleTerm
  rw [mulf_apply, rowOf_apply]
  show g (ix1 d) * Ideal.rsqrt (addf (F := Ideal) (φ := .f32) (varRow a1 a2) _ (ix2 0 d)) = _
  rw [addf_apply, varRow_apply, wordRow_apply]
  rfl

theorem shiftTerm_at (b g : FVec Ideal S128 .f32) (a1 a2 : FVec Ideal S2x1x128 .f32) (d : Fin 128) :
    shiftTerm b g a1 a2 (ix2 0 d)
      = shiftOf (b (ix1 d)) (g (ix1 d)) (∑ h : Fin 2, a1 (ix3 h 0 d)) (∑ h : Fin 2, a2 (ix3 h 0 d)) := by
  unfold shiftTerm
  rw [subf_apply, rowOf_apply, mulf_apply, meanRow_apply, scaleTerm_at]
  rfl

variable (m : (ℓ : Loc nD τ sig) → Buf (Elt Ideal) ℓ) (ρ : Dev nD → PrngReg)

/-! ## Between the kernels: γ and β are still the launch memory's, and the two coefficient rows are the stages above -/

theorem W2_arg5 (c : Dev nD) : W2 m ρ c (Proc.devRef .tc main_arg5) = m ((c : Thread nD τ).loc main_arg5) :=
  (W2_of_ne m ρ c main_arg5 (by decide)).trans
    (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W2_arg6 (c : Dev nD) : W2 m ρ c (Proc.devRef .tc main_arg6) = m ((c : Thread nD τ).loc main_arg6) :=
  (W2_of_ne m ρ c main_arg6 (by decide)).trans
    (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem V3_v37 (c : Dev nD) :
    (V3 m ρ c main_v37 : FVec Ideal S1x128 .f32)
      = scaleTerm (W2 m ρ c (Proc.devRef .tc main_arg5)) (V2 m ρ c main_v22_0) (V2 m ρ c main_v22_1) := by
  show StableHlo.after hostOps1 (W2 m ρ c) (Proc.devRef .tc main_v37) = _
  after_results_simp
  rfl

theorem V3_v40 (c : Dev nD) :
    (V3 m ρ c main_v40 : FVec Ideal S1x128 .f32)
      = shiftTerm (W2 m ρ c (Proc.devRef .tc main_arg6)) (W2 m ρ c (Proc.devRef .tc main_arg5)) (V2 m ρ c main_v22_0) (V2 m ρ c main_v22_1) := by
  show StableHlo.after hostOps1 (W2 m ρ c) (Proc.devRef .tc main_v40) = _
  after_results_simp
  rfl

theorem scaleRow_apply (c : Dev nD) (d : Fin 128) :
    (V3 m ρ c main_v37 : FVec Ideal S1x128 .f32) (ix2 0 d)
      = scaleOf ((dataM m c).gamma (ix1 d))
          (∑ h : Fin 2, (V2 m ρ c main_v22_0 : FVec Ideal S2x1x128 .f32) (ix3 h 0 d))
          (∑ h : Fin 2, (V2 m ρ c main_v22_1 : FVec Ideal S2x1x128 .f32) (ix3 h 0 d)) := by
  rw [V3_v37, scaleTerm_at, W2_arg5]
  rfl

theorem shiftRow_apply (c : Dev nD) (d : Fin 128) :
    (V3 m ρ c main_v40 : FVec Ideal S1x128 .f32) (ix2 0 d)
      = shiftOf ((dataM m c).beta (ix1 d)) ((dataM m c).gamma (ix1 d))
          (∑ h : Fin 2, (V2 m ρ c main_v22_0 : FVec Ideal S2x1x128 .f32) (ix3 h 0 d))
          (∑ h : Fin 2, (V2 m ρ c main_v22_1 : FVec Ideal S2x1x128 .f32) (ix3 h 0 d)) := by
  rw [V3_v40, shiftTerm_at, W2_arg5, W2_arg6]
  rfl

end Cert.PosPool.K

end
-- ==== Proof.KArr.lean ====
/-
  The fused program's arrays under their literal types, as a region finds them: the flattened features [20000, 2048],
  the transposed weights [64, 128], the flattened pooling weight [20000, 128], the count column [20000, 1], the
  multiply-add's two coefficient rows [1, 128], and the first kernel's two result arrays [2, 1, 128].
-/
import proofs.«420376_j26259430048619_3_alg».proof.Proof.Spec
import proofs.«420376_j26259430048619_3_alg».proof.Proof.Gen.KernelIdeal.Frame

noncomputable section

namespace Cert.PosPool.K

open Cert.KernelIdeal Cert.KernelIdeal.Gen Idealize.ShloMosaic Idealize.ShloMosaic.TcCoe Idealize.SL.Sem
open Idealize.ShloMosaic.Pipeline (Dat)
open Cert.PosPool Idealize.ShloMosaic.ValueIdx

variable (V : (c : Dev nD) → (b : Ref sig .tc) → Buf (Elt Ideal) ((c : Thread nD τ).loc b))

abbrev featFlat (c : Dev nD) : FVec Ideal S20000x2048 .f32 := V c main_v20
abbrev wT (c : Dev nD) : FVec Ideal S64x128 .f32 := V c main_v21
abbrev gmFlat (c : Dev nD) : FVec Ideal S20000x128 .f32 := V c main_v15
abbrev denCol (c : Dev nD) : FVec Ideal S20000x1 .f32 := V c main_v19
abbrev scaleRow (c : Dev nD) : FVec Ideal S1x128 .f32 := V c main_v37
abbrev shiftRow (c : Dev nD) : FVec Ideal S1x128 .f32 := V c main_v40
abbrev sumRows (c : Dev nD) : FVec Ideal S2x1x128 .f32 := V c main_v22_0
abbrev sumsqRows (c : Dev nD) : FVec Ideal S2x1x128 .f32 := V c main_v22_1

end Cert.PosPool.K

end
-- ==== Proof.KMatmul.lean ====
/-
  The product both kernels open with, read at an index: a block of 200 centres' flattened features [200, 2048] is
  reshaped to its 6400 (centre, neighbour) rows [6400, 64] and multiplied with the transposed weights [64, 128] onto
  a zero accumulator (the two changes of float format are the identity on extended reals). Row `r` is centre
  `r / 32`, neighbour `r % 32` of the block, so entry (r, d) is the sum over the 64 features `k` of the block's entry
  (r / 32, (r % 32) · 64 + k) times the weights' entry (k, d).
-/
import proofs.«420376_j26259430048619_3_alg».proof.Proof.Spec
import proofs.«420376_j26259430048619_3_alg».proof.Proof.Gen.KernelIdeal
import Idealize.ShloMosaic.Lib.Pipeline.Value
import Idealize.ShloMosaic.Lib.ValueIdx
import Idealize.ShloMosaic.PureOps.Ideal.Laws

noncomputable section

namespace Cert.PosPool.K

open Cert.KernelIdeal Cert.KernelIdeal.Gen Idealize.ShloMosaic Idealize.ShloMosaic.TcCoe Idealize.SL.Sem
open Cert.PosPool Idealize.ShloMosaic.ValueIdx

/-- The centre, within its block of 200, of row `r` of the 6400. -/
def blkN (r : Fin 6400) : Fin 200 := ⟨r.val / 32, by have := r.isLt; omega⟩

/-! ## The contraction's two operand indices, axis by axis

The left operand [6400, 64] is read at the output's row and at the contracted coordinate; the right operand
[64, 128] at the contracted coordinate and at the output's channel. -/

theorem lhs_mm_0 (i : S6400x128.Idx) (q : dot_S6400x64_S64x128_S6400x128_1_0_0_1_n_n.contr.Idx) :
    (dot_S6400x64_S64x128_S6400x128_1_0_0_1_n_n.lhsIdx i q 0).val = (i 0).val := by
  unfold DotDims.lhsIdx
  rw [dif_neg (show ¬(0 : Fin S6400x64.rank) ∈ dot_S6400x64_S64x128_S6400x128_1_0_0_1_n_n.lhsBatch by decide), dif_pos (show (0 : Fin S6400x64.rank) ∈ dot_S6400x64_S64x128_S6400x128_1_0_0_1_n_n.lhsNonContracting by decide)]
  rfl

theorem lhs_mm_1 (i : S6400x128.Idx) (q : dot_S6400x64_S64x128_S6400x128_1_0_0_1_n_n.contr.Idx) :
    (dot_S6400x64_S64x128_S6400x128_1_0_0_1_n_n.lhsIdx i q 1).val = (q ⟨0, by decide⟩).val :=
  dot_S6400x64_S64x128_S6400x128_1_0_0_1_n_n.lhsIdx_val_of_single rfl i q

theorem rhs_mm_0 (i : S6400x128.Idx) (q : dot_S6400x64_S64x128_S6400x128_1_0_0_1_n_n.contr.Idx) :
    (dot_S6400x64_S64x128_S6400x128_1_0_0_1_n_n.rhsIdx i q 0).val = (q ⟨0, by decide⟩).val :=
  dot_S6400x64_S64x128_S6400x128_1_0_0_1_n_n.rhsIdx_val_of_single rfl i q

theorem rhs_mm_1 (i : S6400x128.Idx) (q : dot_S6400x64_S64x128_S6400x128_1_0_0_1_n_n.contr.Idx) :
    (dot_S6400x64_S64x128_S6400x128_1_0_0_1_n_n.rhsIdx i q 1).val = (i 1).val := by
  unfold DotDims.rhsIdx
  rw [dif_neg (show ¬(1 : Fin S64x128.rank) ∈ dot_S6400x64_S64x128_S6400x128_1_0_0_1_n_n.rhsBatch by decide), dif_pos (show (1 : Fin S64x128.rank) ∈ dot_S6400x64_S64x128_S6400x128_1_0_0_1_n_n.rhsNonContracting by decide)]
  rfl

/-- Row `r`, feature `k` of the reshaped block is the block at centre `r / 32`, flattened feature
    `(r % 32) · 64 + k`: both sit at the row-major position `r · 64 + k = (r / 32) · 2048 + (r % 32) · 64 + k`. -/
theorem blockRows_apply (x0 : FVec Ideal S200x2048 .f32) (r : Fin 6400) (k : Fin 64) :
    shapeCast S6400x64 x0 shapeCasts_S200x2048_S6400x64 (ix2 r k) = x0 (ix2 (blkN r) (fk (tileS r) k)) := by
  refine shapeCast_apply _ _ (ix2 r k) (ix2 (blkN r) (fk (tileS r) k)) ?_
  rw [Shape.rowMajor_val_two, Shape.rowMajor_val_two]
  show (r.val / 32) * 2048 + ((r.val % 32) * 64 + k.val) = r.val * 64 + k.val
  omega

/-- The product at (row, channel): the contraction's sum re-indexed by its one coordinate, the two changes of
    format and the two same-shape casts being the identity, and the reshaped block read by `blockRows_apply`. -/
theorem blockMatmul_apply (x0 : FVec Ideal S200x2048 .f32) (x1 : FVec Ideal S64x128 .f32) (r : Fin 6400) (d : Fin 128) :
    matmul (F := Ideal) dot_S6400x64_S64x128_S6400x128_1_0_0_1_n_n none
        (truncf (F := Ideal) .bf16 (shapeCast S6400x64 (shapeCast S200x2048 x0 shapeCasts_S200x2048_S200x2048) shapeCasts_S200x2048_S6400x64) bitsLt_bf16_f32)
        (truncf (F := Ideal) .bf16 (shapeCast S64x128 x1 shapeCasts_S64x128_S64x128) bitsLt_bf16_f32)
        (constant (F := Ideal) S6400x128 .f32 0x00000000#32) (ix2 r d)
      = ∑ k : Fin 64, x0 (ix2 (blkN r) (fk (tileS r) k)) * x1 (ix2 k d) := by
  refine (Ideal.matmul_constant_zero_apply dot_S6400x64_S64x128_S6400x128_1_0_0_1_n_n none _ _ (ix2 r d)).trans ?_
  rw [← Equiv.sum_comp (contrEquiv1 dot_S6400x64_S64x128_S6400x128_1_0_0_1_n_n 64 rfl rfl).symm]
  refine Finset.sum_congr rfl fun k _ => ?_
  have hk := contrEquiv1_symm_val dot_S6400x64_S64x128_S6400x128_1_0_0_1_n_n 64 rfl rfl k
  have el : dot_S6400x64_S64x128_S6400x128_1_0_0_1_n_n.lhsIdx (ix2 r d) ((contrEquiv1 dot_S6400x64_S64x128_S6400x128_1_0_0_1_n_n 64 rfl rfl).symm k) = ix2 r k := funext fun a => Fin.ext (by
    match a with
    | ⟨0, _⟩ => exact lhs_mm_0 _ _
    | ⟨1, _⟩ => exact (lhs_mm_1 _ _).trans hk)
  have er : dot_S6400x64_S64x128_S6400x128_1_0_0_1_n_n.rhsIdx (ix2 r d) ((contrEquiv1 dot_S6400x64_S64x128_S6400x128_1_0_0_1_n_n 64 rfl rfl).symm k) = ix2 k d := funext fun a => Fin.ext (by
    match a with
    | ⟨0, _⟩ => exact (rhs_mm_0 _ _).trans hk
    | ⟨1, _⟩ => exact rhs_mm_1 _ _)
  rw [el, er, truncf_apply, truncf_apply, shapeCast_self, shapeCast_self, blockRows_apply]

end Cert.PosPool.K

end
-- ==== Proof.KPay0.lean ====
/-
  The first kernel's two accumulator updates, read at an index: the new first accumulator is the old one plus the
  block's column sums of `x` over its 6400 rows, the new second accumulator the old one plus the column sums of
  `x · x`, with `x` the block's 6400 rows times the transposed weights.
-/
import proofs.«420376_j26259430048619_3_alg».proof.Proof.KMatmul
import proofs.«420376_j26259430048619_3_alg».proof.Proof.Gen.KernelIdeal.Skeleton
import Idealize.ShloMosaic.Lib.ValueLayout

noncomputable section

namespace Cert.PosPool.K

open Cert.KernelIdeal Cert.KernelIdeal.Gen Idealize.ShloMosaic Idealize.ShloMosaic.TcCoe Idealize.SL.Sem
open Cert.PosPool Idealize.ShloMosaic.ValueIdx

/-- Row `r` of a block times the weights, channel `d`. -/
def xBlk (x0 : FVec Ideal S200x2048 .f32) (x1 : FVec Ideal S64x128 .f32) (r : Fin 6400) (d : Fin 128) : EReal :=
  ∑ k : Fin 64, x0 (ix2 (blkN r) (fk (tileS r) k)) * x1 (ix2 k d)

/-- The block's product at row `r`, channel `d`: the first kernel's matmul entry is the sum over the 64 features. -/
theorem stats_x_apply (x0 : FVec Ideal S200x2048 .f32) (x1 : FVec Ideal S64x128 .f32) (r : Fin 6400) (d : Fin 128) :
    k0_pay1 (F := Ideal) x0 x1 (ix2 r d) = xBlk x0 x1 r d := by
  unfold k0_pay1 xBlk
  exact blockMatmul_apply x0 x1 r d

/-- A [128] row viewed as [1, 1, 128] reads channel `d` at (0, 0, d): the three indices sit at the same row-major
    position `d`. -/
theorem row3_apply (v : FVec Ideal S128 .f32) (d : Fin 128) :
    shapeCast S1x1x128 (shapeCast S1x128 v shapeCasts_S128_S1x128) shapeCasts_S1x128_S1x1x128 (ix3 0 0 d) = v (ix1 d) := by
  refine (shapeCast_apply _ shapeCasts_S1x128_S1x1x128 (ix3 0 0 d) (ix2 0 d) ?_).trans ?_
  · rw [Shape.rowMajor_val_two, Shape.rowMajor_val_three]
    show 0 * 128 + d.val = (0 * 1 + 0) * 128 + d.val
    omega
  refine shapeCast_apply v shapeCasts_S128_S1x128 (ix2 0 d) (ix1 d) ?_
  rw [Shape.rowMajor_val_one, Shape.rowMajor_val_two]
  show d.val = 0 * 128 + d.val
  omega

/-- The sum over axis 0 of a [6400, 128] array from the zero word, at channel `d`: the sum over the 6400 rows (the index
    inserted at row `r` into the channel index `d` is (r, d)). -/
theorem rowsSum_apply (w : FVec Ideal S6400x128 .f32) (d : Fin 128) :
    multiReduction (F := Ideal) .add [0] S128 w 0x00000000#32 reduces_S6400x128_S128 (.inl rfl) rfl (ix1 d)
      = ∑ r : Fin 6400, w (ix2 r d) := by
  refine (Ideal.multiReduction_add_single w 0x00000000#32 reduces_S6400x128_S128 (.inl rfl) rfl (ix1 d)).trans ?_
  refine Finset.sum_congr rfl fun r _ => congrArg w ?_
  funext a
  match a with
  | ⟨0, _⟩ => rfl
  | ⟨1, _⟩ => rfl

theorem pay4_apply (x0 : FVec Ideal S200x2048 .f32) (x1 : FVec Ideal S64x128 .f32) (old : FVec Ideal S1x1x128 .f32) (d : Fin 128) :
    k0_pay4 (F := Ideal) x0 x1 old (ix3 0 0 d) = old (ix3 0 0 d) + ∑ r : Fin 6400, xBlk x0 x1 r d := by
  unfold k0_pay4
  -- a sum of two arrays reads the sum of their entries; the old accumulator's cast is the identity
  refine (addf_apply _ _ (ix3 0 0 d)).trans ?_
  refine congrArg₂ (· + ·) ?_ ?_
  · rw [shapeCast_self]
  · -- the column sums, laid along two unit axes, read at channel d
    refine (row3_apply _ d).trans ?_
    refine (rowsSum_apply (k0_pay1 (F := Ideal) x0 x1) d).trans ?_
    exact Finset.sum_congr rfl fun r _ => stats_x_apply x0 x1 r d

theorem pay5_apply (x0 : FVec Ideal S200x2048 .f32) (x1 : FVec Ideal S64x128 .f32) (old : FVec Ideal S1x1x128 .f32) (d : Fin 128) :
    k0_pay5 (F := Ideal) x0 x1 old (ix3 0 0 d) = old (ix3 0 0 d) + ∑ r : Fin 6400, xBlk x0 x1 r d * xBlk x0 x1 r d := by
  unfold k0_pay5
  refine (addf_apply _ _ (ix3 0 0 d)).trans ?_
  refine congrArg₂ (· + ·) ?_ ?_
  · rw [shapeCast_self]
  · -- the column sums of the entrywise square
    refine (row3_apply _ d).trans ?_
    refine (rowsSum_apply (mulf (k0_pay1 (F := Ideal) x0 x1) (k0_pay1 (F := Ideal) x0 x1)) d).trans ?_
    refine Finset.sum_congr rfl fun r _ => ?_
    rw [mulf_apply, stats_x_apply]

/-- The reset stores zero. -/
theorem pay2_apply (j : S1x1x128.Idx) : k0_pay2 (F := Ideal) j = 0 := by
  unfold k0_pay2
  -- a broadcast scalar reads the scalar, and the zero word is the extended real 0
  show Ideal.ofBits .f32 0x00000000#32 = 0
  exact Ideal.ofBits_zero_f32
theorem pay3_apply (j : S1x1x128.Idx) : k0_pay3 (F := Ideal) j = 0 := by
  unfold k0_pay3
  show Ideal.ofBits .f32 0x00000000#32 = 0
  exact Ideal.ofBits_zero_f32

end Cert.PosPool.K

end
-- ==== Proof.KRegion0.lean ====
/-
  The first kernel's two result arrays [2, 1, 128], read at an index: row `h` holds, channel by channel, the sum over
  half `h`'s 50 tiles of the tile's 6400 rows of `x` (first array) and of `x²` (second array), `x` the product of the
  tile's flattened features with the transposed weights. The accumulator is reset at the first tile of a half, added to
  at every tile, and written back after the half's last tile.
-/
import proofs.«420376_j26259430048619_3_alg».proof.Proof.KArr
import proofs.«420376_j26259430048619_3_alg».proof.Proof.KPay0
import Idealize.ShloMosaic.Lib.Pipeline.Value
import Idealize.ShloMosaic.PureOps.Ideal.Laws
import Idealize.ShloMosaic.Lib.Tactic
import Mathlib.Algebra.BigOperators.Intervals
import Mathlib.Algebra.BigOperators.Fin
import Mathlib.Order.Interval.Finset.Nat

noncomputable section

namespace Cert.PosPool.K

open Cert.KernelIdeal Cert.KernelIdeal.Gen Idealize.ShloMosaic Idealize.ShloMosaic.TcCoe Idealize.SL.Sem
open Idealize.ShloMosaic.Pipeline (Dat)
open Cert.PosPool Idealize.ShloMosaic.ValueIdx

variable (V : (c : Dev nD) → (b : Ref sig .tc) → Buf (Elt Ideal) ((c : Thread nD τ).loc b))

/-- A tile row's product with the weights, from the region's entry contents. -/
def xTile (c : Dev nD) (h : Fin 2) (i : Fin 50) (r : Fin 6400) (d : Fin 128) : EReal :=
  ∑ k : Fin 64, featFlat V c (ix2 (tileN h i r) (fk (tileS r) k)) * wT V c (ix2 k d)

namespace Stats

/-! ## What one tile leaves in the two accumulators -/
section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a tile that is not a half's first, the sum accumulator ends at its old contents plus the tile's column sums. -/
theorem accB_2 (c : Dev nD) (i : grid0.Coords) (a2 : Memref sig .tc .vmem S200x2048 .f32) (h2 : a2.IsWhole)
    (a3 : Memref sig .tc .vmem S64x128 .f32) (h3 : a3.IsWhole) (a4 : Memref sig .tc .vmem S1x1x128 .f32) (h4 : a4.IsWhole)
    (a5 : Memref sig .tc .vmem S1x1x128 .f32) (h5 : a5.IsWhole) (hc : ¬cond0_0 i)
    (x0 : Vec F S200x2048 .f32) (x1 : Vec F S64x128 .f32) (xo2 xo3 : Vec F S1x1x128 .f32) :
    out0_B_2 c i a2 h2 a3 h3 a4 h4 a5 h5 hc x0 x1 xo2 xo3 = k0_pay4 x0 x1 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, View.ld_unit_zero (S := S200x2048) hz2,
    View.ld_unit_zero (S := S64x128) hz2, View.ld_unit_zero (S := S1x1x128) hz3]

/-- … and the sum-of-squares accumulator at its old contents plus the tile's column sums of squares. -/
theorem accB_3 (c : Dev nD) (i : grid0.Coords) (a2 : Memref sig .tc .vmem S200x2048 .f32) (h2 : a2.IsWhole)
    (a3 : Memref sig .tc .vmem S64x128 .f32) (h3 : a3.IsWhole) (a4 : Memref sig .tc .vmem S1x1x128 .f32) (h4 : a4.IsWhole)
    (a5 : Memref sig .tc .vmem S1x1x128 .f32) (h5 : a5.IsWhole) (hc : ¬cond0_0 i)
    (x0 : Vec F S200x2048 .f32) (x1 : Vec F S64x128 .f32) (xo2 xo3 : Vec F S1x1x128 .f32) :
    out0_B_3 c i a2 h2 a3 h3 a4 h4 a5 h5 hc x0 x1 xo2 xo3 = k0_pay5 x0 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h5.read_unread, View.ld_unit_zero (S := S200x2048) hz2,
    View.ld_unit_zero (S := S64x128) hz2, View.ld_unit_zero (S := S1x1x128) hz3]

/-- At a half's first tile the sum accumulator is reset to zero, read back, and ends at zero plus the tile's column sums. -/
theorem accA_2 (c : Dev nD) (i : grid0.Coords) (a2 : Memref sig .tc .vmem S200x2048 .f32) (h2 : a2.IsWhole)
    (a3 : Memref sig .tc .vmem S64x128 .f32) (h3 : a3.IsWhole) (a4 : Memref sig .tc .vmem S1x1x128 .f32) (h4 : a4.IsWhole)
    (a5 : Memref sig .tc .vmem S1x1x128 .f32) (h5 : a5.IsWhole) (hc : cond0_0 i)
    (x0 : Vec F S200x2048 .f32) (x1 : Vec F S64x128 .f32) :
    out0_A_2 c i a2 h2 a3 h3 a4 h4 a5 h5 hc x0 x1 = k0_pay4 x0 x1 (k0_pay2 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, View.ld_unit_zero (S := S200x2048) hz2,
    View.ld_unit_zero (S := S64x128) hz2]

/-- … and the sum-of-squares accumulator at zero plus the tile's column sums of squares. -/
theorem accA_3 (c : Dev nD) (i : grid0.Coords) (a2 : Memref sig .tc .vmem S200x2048 .f32) (h2 : a2.IsWhole)
    (a3 : Memref sig .tc .vmem S64x128 .f32) (h3 : a3.IsWhole) (a4 : Memref sig .tc .vmem S1x1x128 .f32) (h4 : a4.IsWhole)
    (a5 : Memref sig .tc .vmem S1x1x128 .f32) (h5 : a5.IsWhole) (hc : cond0_0 i)
    (x0 : Vec F S200x2048 .f32) (x1 : Vec F S64x128 .f32) :
    out0_A_3 c i a2 h2 a3 h3 a4 h4 a5 h5 hc x0 x1 = k0_pay5 x0 x1 (k0_pay3 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, View.ld_unit_zero (S := S200x2048) hz2,
    View.ld_unit_zero (S := S64x128) hz2]

end Pieces

/-! ## The blocks a point reads -/

section Blocks

/-- The grid has 100 points. -/
theorem tlt (t : Fin cfg0.N) : t.val < 100 := lt_of_lt_of_eq t.isLt (show cfg0.N = 100 from N_0)

/-- The two input blocks at a point, under their literal types. -/
abbrev featBlk (c : Dev nD) (t : Fin cfg0.N) : FVec Ideal S200x2048 .f32 := iblk0 V c 0 t
abbrev wBlk (c : Dev nD) (t : Fin cfg0.N) : FVec Ideal S64x128 .f32 := iblk0 V c 1 t

/-- The block indices over the grid: the feature block is tile number `t`, the weights' block is the whole array, an
    accumulator's block is row `t / 50` (the half). -/
theorem idx_feat : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_w : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_sum : ∀ t : Fin cfg0.N, win0_2.index t (0 : Fin 3) = t.val / 50 ∧ win0_2.index t (1 : Fin 3) = 0 ∧ win0_2.index t (2 : Fin 3) = 0 :=
  (by decide +kernel : ∀ t : Fin grid0.N, win0_2.index t (0 : Fin 3) = t.val / 50 ∧ win0_2.index t (1 : Fin 3) = 0 ∧ win0_2.index t (2 : Fin 3) = 0)
theorem idx_sq : ∀ t : Fin cfg0.N, win0_3.index t (0 : Fin 3) = t.val / 50 ∧ win0_3.index t (1 : Fin 3) = 0 ∧ win0_3.index t (2 : Fin 3) = 0 :=
  (by decide +kernel : ∀ t : Fin grid0.N, win0_3.index t (0 : Fin 3) = t.val / 50 ∧ win0_3.index t (1 : Fin 3) = 0 ∧ win0_3.index t (2 : Fin 3) = 0)

/-- The feature block at point `t`, entry (a, b), is the flattened features' entry (200 t + a, b). -/
theorem featBlk_apply (c : Dev nD) (t : Fin cfg0.N) (a : Fin 200) (b : Fin 2048) :
    featBlk V c t (ix2 a b)
      = featFlat V c (ix2 (⟨t.val * 200 + a.val, by have := tlt t; have := a.isLt; omega⟩ : Fin 20000) b) := by
  unfold featBlk iblk0
  rw [View.read_apply]
  show V c main_v20 (((cfg0.win 0).blk t).view.emb (ix2 a b)) = V c main_v20 _
  refine congrArg (V c main_v20) ?_
  funext e
  apply Fin.ext
  match e with
  | ⟨0, _⟩ => show win0_0.index t (0 : Fin 2) * 200 + 1 * a.val = t.val * 200 + a.val; rw [(idx_feat t).1]; omega
  | ⟨1, _⟩ => show win0_0.index t (1 : Fin 2) * 2048 + 1 * b.val = b.val; rw [(idx_feat t).2]; omega

/-- The weights' block at every point is the transposed weights. -/
theorem wBlk_apply (c : Dev nD) (t : Fin cfg0.N) (k : Fin 64) (d : Fin 128) :
    wBlk V c t (ix2 k d) = wT V c (ix2 k d) := by
  unfold wBlk iblk0
  rw [View.read_apply]
  show V c main_v21 (((cfg0.win 1).blk t).view.emb (ix2 k d)) = V c main_v21 _
  refine congrArg (V c main_v21) ?_
  funext e
  apply Fin.ext
  match e with
  | ⟨0, _⟩ => show win0_1.index t (0 : Fin 2) * 64 + 1 * k.val = k.val; rw [(idx_w t).1]; omega
  | ⟨1, _⟩ => show win0_1.index t (1 : Fin 2) * 128 + 1 * d.val = d.val; rw [(idx_w t).2]; omega

end Blocks

/-! ## The running sums over the points -/

section Fold

/-- Row `r` of tile number `p` (= 50 · half + tile) times the weights, channel `d`; zero past the 100 tiles. -/
def xAt (c : Dev nD) (p : ℕ) (r : Fin 6400) (d : Fin 128) : EReal :=
  if hp : p < 100 then
    ∑ k : Fin 64, featFlat V c (ix2 (⟨p * 200 + r.val / 32, by have := r.isLt; omega⟩ : Fin 20000) (fk (tileS r) k)) * wT V c (ix2 k d)
  else 0

/-- At point `t` the block's row product is tile number `t`'s. -/
theorem xBlk_point (c : Dev nD) (t : Fin cfg0.N) (r : Fin 6400) (d : Fin 128) :
    xBlk (featBlk V c t) (wBlk V c t) r d = xAt V c t.val r d := by
  unfold xBlk xAt
  rw [dif_pos (tlt t)]
  refine Finset.sum_congr rfl fun k _ => ?_
  rw [featBlk_apply, wBlk_apply]
  rfl

/-- Tile number 50 h + i is tile `i` of half `h`. -/
theorem xAt_tile (c : Dev nD) (h : Fin 2) (i : Fin 50) (r : Fin 6400) (d : Fin 128) :
    xAt V c (h.val * 50 + i.val) r d = xTile V c h i r d := by
  unfold xAt xTile
  rw [dif_pos (by have := h.isLt; have := i.isLt; omega)]
  rfl

/-- At a half's first tile the sum accumulator ends at the tile's sum over rows (zero plus it). -/
theorem sum_reset (c : Dev nD) (d : Fin 128) (t : Fin cfg0.N) (h0 : t.val % 50 = 0) :
    ((outsAt0 V c t.val t.isLt).1 : FVec Ideal S1x1x128 .f32) (ix3 0 0 d) = ∑ r : Fin 6400, xAt V c t.val r d := by
  rw [outsAt0_A V c t h0]
  dsimp only
  refine (congrFun (accA_2 (F := Ideal) c (grid0.coords t) (ms0_0 t) (hs0_0 t) (ms0_1 t) (hs0_1 t) (ms0_2 t) (hs0_2 t) (ms0_3 t) (hs0_3 t) ((hcond0_0 t).mpr h0) (featBlk V c t) (wBlk V c t)) (ix3 0 0 d)).trans ?_
  refine (pay4_apply (featBlk V c t) (wBlk V c t) (k0_pay2 (F := Ideal)) d).trans ?_
  rw [pay2_apply, zero_add]
  exact Finset.sum_congr rfl fun r _ => xBlk_point V c t r d

/-- At any other tile it ends at what the tile before left plus the tile's sum over rows. -/
theorem sum_step (c : Dev nD) (d : Fin 128) (t : Fin cfg0.N) (h0 : ¬t.val % 50 = 0) :
    ((outsAt0 V c t.val t.isLt).1 : FVec Ideal S1x1x128 .f32) (ix3 0 0 d)
      = ((outsAt0 V c (t.val - 1) (Nat.lt_of_le_of_lt (Nat.sub_le _ _) t.isLt)).1 : FVec Ideal S1x1x128 .f32) (ix3 0 0 d)
        + ∑ r : Fin 6400, xAt V c t.val r d := by
  rw [outsAt0_B V c t h0]
  dsimp only
  refine (congrFun (accB_2 (F := Ideal) c (grid0.coords t) (ms0_0 t) (hs0_0 t) (ms0_1 t) (hs0_1 t) (ms0_2 t) (hs0_2 t) (ms0_3 t) (hs0_3 t) (fun h => h0 ((hcond0_0 t).mp h)) (featBlk V c t) (wBlk V c t)
    (outsAt0 V c (t.val - 1) (Nat.lt_of_le_of_lt (Nat.sub_le _ _) t.isLt)).1 (outsAt0 V c (t.val - 1) (Nat.lt_of_le_of_lt (Nat.sub_le _ _) t.isLt)).2) (ix3 0 0 d)).trans ?_
  refine (pay4_apply (featBlk V c t) (wBlk V c t) (outsAt0 V c (t.val - 1) (Nat.lt_of_le_of_lt (Nat.sub_le _ _) t.isLt)).1 d).trans ?_
  exact congrArg (_ + ·) (Finset.sum_congr rfl fun r _ => xBlk_point V c t r d)

/-- THE RUNNING SUM: after tile number `n` the sum accumulator holds the sums over rows of the tiles from the half's
    first (number 50 · (n / 50)) to `n`. -/
theorem sum_at (c : Dev nD) (d : Fin 128) : ∀ (n : ℕ) (hn : n < cfg0.N),
    ((outsAt0 V c n hn).1 : FVec Ideal S1x1x128 .f32) (ix3 0 0 d)
      = ∑ p ∈ Finset.Ico (n / 50 * 50) (n + 1), ∑ r : Fin 6400, xAt V c p r d
  | 0, hn => by
    have e : Finset.Ico (0 / 50 * 50) (0 + 1) = {0} := Nat.Ico_succ_singleton 0
    rw [e, Finset.sum_singleton]
    exact sum_reset V c d ⟨0, hn⟩ rfl
  | n + 1, hn => by
    by_cases h0 : (n + 1) % 50 = 0
    · have e : Finset.Ico ((n + 1) / 50 * 50) (n + 1 + 1) = {n + 1} := by
        rw [show (n + 1) / 50 * 50 = n + 1 by omega]; exact Nat.Ico_succ_singleton (n + 1)
      rw [e, Finset.sum_singleton]
      exact sum_reset V c d ⟨n + 1, hn⟩ h0
    · rw [show (n + 1) / 50 * 50 = n / 50 * 50 by omega, Finset.sum_Ico_succ_top (by omega : n / 50 * 50 ≤ n + 1)]
      exact (sum_step V c d ⟨n + 1, hn⟩ h0).trans (congrArg (· + _) (sum_at c d n (Nat.lt_of_succ_lt hn)))

end Fold

section FoldSq

/-- The same for the sum-of-squares accumulator: at a half's first tile the tile's sum over rows of the squares … -/
theorem sq_reset (c : Dev nD) (d : Fin 128) (t : Fin cfg0.N) (h0 : t.val % 50 = 0) :
    ((outsAt0 V c t.val t.isLt).2 : FVec Ideal S1x1x128 .f32) (ix3 0 0 d)
      = ∑ r : Fin 6400, xAt V c t.val r d * xAt V c t.val r d := by
  rw [outsAt0_A V c t h0]
  dsimp only
  refine (congrFun (accA_3 (F := Ideal) c (grid0.coords t) (ms0_0 t) (hs0_0 t) (ms0_1 t) (hs0_1 t) (ms0_2 t) (hs0_2 t) (ms0_3 t) (hs0_3 t) ((hcond0_0 t).mpr h0) (featBlk V c t) (wBlk V c t)) (ix3 0 0 d)).trans ?_
  refine (pay5_apply (featBlk V c t) (wBlk V c t) (k0_pay3 (F := Ideal)) d).trans ?_
  rw [pay3_apply, zero_add]
  exact Finset.sum_congr rfl fun r _ => by rw [xBlk_point V c t r d]

/-- … at any other tile what the tile before left plus it. -/
theorem sq_step (c : Dev nD) (d : Fin 128) (t : Fin cfg0.N) (h0 : ¬t.val % 50 = 0) :
    ((outsAt0 V c t.val t.isLt).2 : FVec Ideal S1x1x128 .f32) (ix3 0 0 d)
      = ((outsAt0 V c (t.val - 1) (Nat.lt_of_le_of_lt (Nat.sub_le _ _) t.isLt)).2 : FVec Ideal S1x1x128 .f32) (ix3 0 0 d)
        + ∑ r : Fin 6400, xAt V c t.val r d * xAt V c t.val r d := by
  rw [outsAt0_B V c t h0]
  dsimp only
  refine (congrFun (accB_3 (F := Ideal) c (grid0.coords t) (ms0_0 t) (hs0_0 t) (ms0_1 t) (hs0_1 t) (ms0_2 t) (hs0_2 t) (ms0_3 t) (hs0_3 t) (fun h => h0 ((hcond0_0 t).mp h)) (featBlk V c t) (wBlk V c t)
    (outsAt0 V c (t.val - 1) (Nat.lt_of_le_of_lt (Nat.sub_le _ _) t.isLt)).1 (outsAt0 V c (t.val - 1) (Nat.lt_of_le_of_lt (Nat.sub_le _ _) t.isLt)).2) (ix3 0 0 d)).trans ?_
  refine (pay5_apply (featBlk V c t) (wBlk V c t) (outsAt0 V c (t.val - 1) (Nat.lt_of_le_of_lt (Nat.sub_le _ _) t.isLt)).2 d).trans ?_
  exact congrArg (_ + ·) (Finset.sum_congr rfl fun r _ => by rw [xBlk_point V c t r d])

/-- THE RUNNING SUM OF SQUARES after tile number `n`. -/
theorem sq_at (c : Dev nD) (d : Fin 128) : ∀ (n : ℕ) (hn : n < cfg0.N),
    ((outsAt0 V c n hn).2 : FVec Ideal S1x1x128 .f32) (ix3 0 0 d)
      = ∑ p ∈ Finset.Ico (n / 50 * 50) (n + 1), ∑ r : Fin 6400, xAt V c p r d * xAt V c p r d
  | 0, hn => by
    have e : Finset.Ico (0 / 50 * 50) (0 + 1) = {0} := Nat.Ico_succ_singleton 0
    rw [e, Finset.sum_singleton]
    exact sq_reset V c d ⟨0, hn⟩ rfl
  | n + 1, hn => by
    by_cases h0 : (n + 1) % 50 = 0
    · have e : Finset.Ico ((n + 1) / 50 * 50) (n + 1 + 1) = {n + 1} := by
        rw [show (n + 1) / 50 * 50 = n + 1 by omega]; exact Nat.Ico_succ_singleton (n + 1)
      rw [e, Finset.sum_singleton]
      exact sq_reset V c d ⟨n + 1, hn⟩ h0
    · rw [show (n + 1) / 50 * 50 = n / 50 * 50 by omega, Finset.sum_Ico_succ_top (by omega : n / 50 * 50 ≤ n + 1)]
      exact (sq_step V c d ⟨n + 1, hn⟩ h0).trans (congrArg (· + _) (sq_at c d n (Nat.lt_of_succ_lt hn)))

end FoldSq

/-! ## From the write-backs to the arrays -/

section Array

/-- A sum over the 50 tile numbers of half `h` is the sum over its tiles. -/
theorem sum_half (g : ℕ → EReal) (h : Fin 2) :
    ∑ p ∈ Finset.Ico (h.val * 50) (h.val * 50 + 49 + 1), g p = ∑ i : Fin 50, g (h.val * 50 + i.val) := by
  rw [Finset.sum_Ico_eq_sum_range, show h.val * 50 + 49 + 1 - h.val * 50 = 50 by omega, Finset.sum_range]

/-- What the two result arrays end holding, as functions of the index: row `h`, channel `d`. -/
def sumsG (c : Dev nD) : FVec Ideal S2x1x128 .f32 := fun j => ∑ i : Fin 50, ∑ r : Fin 6400, xTile V c (j 0) i r (j 2)
def sumsqG (c : Dev nD) : FVec Ideal S2x1x128 .f32 :=
  fun j => ∑ i : Fin 50, ∑ r : Fin 6400, xTile V c (j 0) i r (j 2) * xTile V c (j 0) i r (j 2)

/-- After a half's last tile (number 50 h + 49) the sum accumulator holds row `h` … -/
theorem sum_last (c : Dev nD) (t : Fin cfg0.N) (h49 : t.val % 50 = 49) (d : Fin 128) :
    ((outsAt0 V c t.val t.isLt).1 : FVec Ideal S1x1x128 .f32) (ix3 0 0 d)
      = sumsG V c (ix3 (⟨t.val / 50, by have := tlt t; omega⟩ : Fin 2) 0 d) := by
  have hlt := tlt t
  rw [sum_at V c d t.val t.isLt,
    show t.val / 50 * 50 = (⟨t.val / 50, by omega⟩ : Fin 2).val * 50 from rfl,
    show t.val + 1 = (⟨t.val / 50, by omega⟩ : Fin 2).val * 50 + 49 + 1 by show t.val + 1 = t.val / 50 * 50 + 49 + 1; omega,
    sum_half]
  exact Finset.sum_congr rfl fun i _ => Finset.sum_congr rfl fun r _ => xAt_tile V c _ i r d

/-- … and the sum-of-squares accumulator row `h` of the squares. -/
theorem sq_last (c : Dev nD) (t : Fin cfg0.N) (h49 : t.val % 50 = 49) (d : Fin 128) :
    ((outsAt0 V c t.val t.isLt).2 : FVec Ideal S1x1x128 .f32) (ix3 0 0 d)
      = sumsqG V c (ix3 (⟨t.val / 50, by have := tlt t; omega⟩ : Fin 2) 0 d) := by
  have hlt := tlt t
  rw [sq_at V c d t.val t.isLt,
    show t.val / 50 * 50 = (⟨t.val / 50, by omega⟩ : Fin 2).val * 50 from rfl,
    show t.val + 1 = (⟨t.val / 50, by omega⟩ : Fin 2).val * 50 + 49 + 1 by show t.val + 1 = t.val / 50 * 50 + 49 + 1; omega,
    sum_half]
  exact Finset.sum_congr rfl fun i _ => Finset.sum_congr rfl fun r _ => by rw [xAt_tile V c _ i r d]

/-- What a write-back of the first result writes is its block of `sumsG`: the block at point `t` is row `t / 50`. -/
theorem flushed_sums (c : Dev nD) (t : Fin cfg0.N) (hf : (cfg0.win 2).flush t = true) :
    (dat0 V c).flushed 2 t = ((cfg0.win 2).blk t).view.read (Elt Ideal) (sumsG V c) := by
  have h49 : t.val % 50 = 49 := (flush0_2 t).mp hf
  have hlt := tlt t
  obtain ⟨e0, e1, e2⟩ := idx_sum t
  show (cfg0.win 2).cut (grid0.coords t) ((dat0 V c).after 2 t) = _
  rw [after0_2]
  funext y
  rw [View.read_apply]
  have hy : (cfg0.win 2).xinj (grid0.coords t) y = ix3 0 0 (⟨(y 2).val, (y 2).isLt⟩ : Fin 128) := by
    funext a
    apply Fin.ext
    match a with
    | ⟨0, _⟩ => show (y 0).val = 0; have : (y 0).val < 1 := (y 0).isLt; omega
    | ⟨1, _⟩ => show (y 1).val = 0; have : (y 1).val < 1 := (y 1).isLt; omega
    | ⟨2, _⟩ => rfl
  have he : ((cfg0.win 2).blk t).view.emb y
      = ix3 (⟨t.val / 50, by omega⟩ : Fin 2) 0 (⟨(y 2).val, (y 2).isLt⟩ : Fin 128) := by
    funext a
    apply Fin.ext
    match a with
    | ⟨0, _⟩ => show win0_2.index t (0 : Fin 3) * 1 + 1 * (y 0).val = t.val / 50; have : (y 0).val < 1 := (y 0).isLt; omega
    | ⟨1, _⟩ => show win0_2.index t (1 : Fin 3) * 1 + 1 * (y 1).val = 0; have : (y 1).val < 1 := (y 1).isLt; omega
    | ⟨2, _⟩ => show win0_2.index t (2 : Fin 3) * 128 + 1 * (y 2).val = (y 2).val; omega
  show ((outsAt0 V c t.val t.isLt).1 : FVec Ideal S1x1x128 .f32) ((cfg0.win 2).xinj (grid0.coords t) y)
    = sumsG V c (((cfg0.win 2).blk t).view.emb y)
  rw [hy, he]
  exact sum_last V c t h49 _

theorem flushed_sumsq (c : Dev nD) (t : Fin cfg0.N) (hf : (cfg0.win 3).flush t = true) :
    (dat0 V c).flushed 3 t = ((cfg0.win 3).blk t).view.read (Elt Ideal) (sumsqG V c) := by
  have h49 : t.val % 50 = 49 := (flush0_3 t).mp hf
  have hlt := tlt t
  obtain ⟨e0, e1, e2⟩ := idx_sq t
  show (cfg0.win 3).cut (grid0.coords t) ((dat0 V c).after 3 t) = _
  rw [after0_3]
  funext y
  rw [View.read_apply]
  have hy : (cfg0.win 3).xinj (grid0.coords t) y = ix3 0 0 (⟨(y 2).val, (y 2).isLt⟩ : Fin 128) := by
    funext a
    apply Fin.ext
    match a with
    | ⟨0, _⟩ => show (y 0).val = 0; have : (y 0).val < 1 := (y 0).isLt; omega
    | ⟨1, _⟩ => show (y 1).val = 0; have : (y 1).val < 1 := (y 1).isLt; omega
    | ⟨2, _⟩ => rfl
  have he : ((cfg0.win 3).blk t).view.emb y
      = ix3 (⟨t.val / 50, by omega⟩ : Fin 2) 0 (⟨(y 2).val, (y 2).isLt⟩ : Fin 128) := by
    funext a
    apply Fin.ext
    match a with
    | ⟨0, _⟩ => show win0_3.index t (0 : Fin 3) * 1 + 1 * (y 0).val = t.val / 50; have : (y 0).val < 1 := (y 0).isLt; omega
    | ⟨1, _⟩ => show win0_3.index t (1 : Fin 3) * 1 + 1 * (y 1).val = 0; have : (y 1).val < 1 := (y 1).isLt; omega
    | ⟨2, _⟩ => show win0_3.index t (2 : Fin 3) * 128 + 1 * (y 2).val = (y 2).val; omega
  show ((outsAt0 V c t.val t.isLt).2 : FVec Ideal S1x1x128 .f32) ((cfg0.win 3).xinj (grid0.coords t) y)
    = sumsqG V c (((cfg0.win 3).blk t).view.emb y)
  rw [hy, he]
  exact sq_last V c t h49 _

/-- Row `h` of a result array lies in the block written back after half `h`'s last tile, number 50 h + 49. -/
theorem cover_sums (c : Dev nD) (i : ((cfg0.win 2).arr.view.loc (c : Thread nD τ)).2.ty.Idx) :
    ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 128 := (i 2).isLt
  have hb : (i 0).val * 50 + 49 < cfg0.N := lt_of_lt_of_eq (by omega : (i 0).val * 50 + 49 < 100) N_0.symm
  obtain ⟨e0, e1, e2⟩ := idx_sum ⟨(i 0).val * 50 + 49, hb⟩
  have e0' : win0_2.index ⟨(i 0).val * 50 + 49, hb⟩ (0 : Fin 3) = (i 0).val := by
    rw [e0]; show ((i 0).val * 50 + 49) / 50 = (i 0).val; omega
  refine ⟨⟨(i 0).val * 50 + 49, hb⟩, (flush0_2 _).mpr (by show ((i 0).val * 50 + 49) % 50 = 49; omega), ?_⟩
  show i ∈ ((View.whole main_v22_0).slice (win0_2.rect ⟨(i 0).val * 50 + 49, hb⟩)).set
  rw [View.set_slice_whole, Rect.mem_set_unit]
  intro a
  match a with
  | ⟨0, _⟩ =>
    show win0_2.index ⟨(i 0).val * 50 + 49, hb⟩ (0 : Fin 3) * 1 ≤ (i 0).val
      ∧ (i 0).val < win0_2.index ⟨(i 0).val * 50 + 49, hb⟩ (0 : Fin 3) * 1 + 1
    rw [e0']; omega
  | ⟨1, _⟩ =>
    show win0_2.index ⟨(i 0).val * 50 + 49, hb⟩ (1 : Fin 3) * 1 ≤ (i 1).val
      ∧ (i 1).val < win0_2.index ⟨(i 0).val * 50 + 49, hb⟩ (1 : Fin 3) * 1 + 1
    rw [e1]; omega
  | ⟨2, _⟩ =>
    show win0_2.index ⟨(i 0).val * 50 + 49, hb⟩ (2 : Fin 3) * 128 ≤ (i 2).val
      ∧ (i 2).val < win0_2.index ⟨(i 0).val * 50 + 49, hb⟩ (2 : Fin 3) * 128 + 128
    rw [e2]; omega

theorem cover_sumsq (c : Dev nD) (i : ((cfg0.win 3).arr.view.loc (c : Thread nD τ)).2.ty.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 128 := (i 2).isLt
  have hb : (i 0).val * 50 + 49 < cfg0.N := lt_of_lt_of_eq (by omega : (i 0).val * 50 + 49 < 100) N_0.symm
  obtain ⟨e0, e1, e2⟩ := idx_sq ⟨(i 0).val * 50 + 49, hb⟩
  have e0' : win0_3.index ⟨(i 0).val * 50 + 49, hb⟩ (0 : Fin 3) = (i 0).val := by
    rw [e0]; show ((i 0).val * 50 + 49) / 50 = (i 0).val; omega
  refine ⟨⟨(i 0).val * 50 + 49, hb⟩, (flush0_3 _).mpr (by show ((i 0).val * 50 + 49) % 50 = 49; omega), ?_⟩
  show i ∈ ((View.whole main_v22_1).slice (win0_3.rect ⟨(i 0).val * 50 + 49, hb⟩)).set
  rw [View.set_slice_whole, Rect.mem_set_unit]
  intro a
  match a with
  | ⟨0, _⟩ =>
    show win0_3.index ⟨(i 0).val * 50 + 49, hb⟩ (0 : Fin 3) * 1 ≤ (i 0).val
      ∧ (i 0).val < win0_3.index ⟨(i 0).val * 50 + 49, hb⟩ (0 : Fin 3) * 1 + 1
    rw [e0']; omega
  | ⟨1, _⟩ =>
    show win0_3.index ⟨(i 0).val * 50 + 49, hb⟩ (1 : Fin 3) * 1 ≤ (i 1).val
      ∧ (i 1).val < win0_3.index ⟨(i 0).val * 50 + 49, hb⟩ (1 : Fin 3) * 1 + 1
    rw [e1]; omega
  | ⟨2, _⟩ =>
    show win0_3.index ⟨(i 0).val * 50 + 49, hb⟩ (2 : Fin 3) * 128 ≤ (i 2).val
      ∧ (i 2).val < win0_3.index ⟨(i 0).val * 50 + 49, hb⟩ (2 : Fin 3) * 128 + 128
    rw [e2]; omega

/-- So the two result arrays end holding the two functions: the two write-backs cover them. -/
theorem sums_final (c : Dev nD) : (dat0 V c).arrAt 2 cfg0.N = sumsG V c :=
  (dat0 V c).arrAt_eq_of_cover 2 (sumsG V c) (flushed_sums V c) (cover_sums c)
theorem sumsq_final (c : Dev nD) : (dat0 V c).arrAt 3 cfg0.N = sumsqG V c :=
  (dat0 V c).arrAt_eq_of_cover 3 (sumsqG V c) (flushed_sumsq V c) (cover_sumsq c)

end Array

end Stats

theorem sums_apply (c : Dev nD) (h : Fin 2) (d : Fin 128) :
    ((dat0 V c).arrAt 2 cfg0.N : FVec Ideal S2x1x128 .f32) (ix3 h 0 d) = ∑ i : Fin 50, ∑ r : Fin 6400, xTile V c h i r d :=
  congrFun (Stats.sums_final V c) (ix3 h 0 d)

theorem sumsq_apply (c : Dev nD) (h : Fin 2) (d : Fin 128) :
    ((dat0 V c).arrAt 3 cfg0.N : FVec Ideal S2x1x128 .f32) (ix3 h 0 d) = ∑ i : Fin 50, ∑ r : Fin 6400, xTile V c h i r d * xTile V c h i r d :=
  congrFun (Stats.sumsq_final V c) (ix3 h 0 d)

end Cert.PosPool.K

end
-- ==== Proof.KConcat.lean ====
/-
  The fused program's tiling of the pooling weight along the channels, read at an index: 32 copies of a
  [200, 32, 4] block concatenated along the last axis; channel `d` of neighbour `s` of row `a` holds component
  `d % 4` of that neighbour's block entry.
-/
import proofs.«420376_j26259430048619_3_alg».proof.Proof.Spec
import proofs.«420376_j26259430048619_3_alg».proof.Proof.Gen.KernelIdeal
import Idealize.ShloMosaic.Lib.Pipeline.Value
import Idealize.ShloMosaic.Lib.ValueLayout

noncomputable section

namespace Cert.PosPool.K

open Cert.KernelIdeal Cert.KernelIdeal.Gen Idealize.ShloMosaic Idealize.ShloMosaic.TcCoe Idealize.SL.Sem
open Cert.PosPool Idealize.ShloMosaic.ValueIdx

theorem tile32_apply (v : FVec Ideal S200x32x4 .f32) (a : Fin 200) (s : Fin 32) (d : Fin 128) :
    concatenate (α := EReal) S200x32x128 2 [⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩, ⟨S200x32x4, v⟩]
        concatenates_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x4_S200x32x128_d2 (ix3 a s d)
      = v (ix3 a s (ch4 d)) := by
  -- the 32 listed pieces are 32 copies of the one block: reading the concatenation at channel d lands in some copy,
  -- at the channel's remainder modulo the block's extent 4 along the axis, the other two coordinates unchanged
  refine concatenate_replicate_apply (t := S200x32x128) (s₁ := S200x32x4) 2 32 v _ rfl
    (ix3 a s d) (ix3 a s (ch4 d)) ?_ ?_
  · -- on the axis: component d % 4
    rfl
  · -- off the axis: the row a and the neighbour s are the same on both sides
    intro b hb
    match b, hb with
    | ⟨0, _⟩, _ => rfl
    | ⟨1, _⟩, _ => rfl
    | ⟨2, _⟩, hb => exact absurd rfl hb

end Cert.PosPool.K

end
-- ==== Proof.KPay1.lean ====
/-
  The second kernel's one store, read at an index: row `a` of the block of 200 centres, channel `d`, holds the sum
  over the 32 neighbours of `max (x · scale + shift, 0)` times the block's pooling weight (component `d % 4` of the
  neighbour), divided by the row's count, with `x` the block's row `32 a + s` times the transposed weights.
-/
import proofs.«420376_j26259430048619_3_alg».proof.Proof.KMatmul
import proofs.«420376_j26259430048619_3_alg».proof.Proof.KConcat
import proofs.«420376_j26259430048619_3_alg».proof.Proof.Gen.KernelIdeal.Skeleton
import Idealize.ShloMosaic.Lib.ValueLayout

noncomputable section

namespace Cert.PosPool.K

open Cert.KernelIdeal Cert.KernelIdeal.Gen Idealize.ShloMosaic Idealize.ShloMosaic.TcCoe Idealize.SL.Sem
open Cert.PosPool Idealize.ShloMosaic.ValueIdx

/-! ## The pieces of the store, each read at an index -/

/-- The row's count laid along the 128 channels: entry (a, d) is the count of row `a`. -/
theorem den_apply (v27 : FVec Ideal S200x1 .f32) (a : Fin 200) (d : Fin 128) :
    broadcastTo S200x128 (shapeCast S200x1 v27 shapeCasts_S200x1_S200x1) broadcasts_S200x1_S200x128 (ix2 a d)
      = v27 (ix2 a 0) := by
  rw [shapeCast_self]
  exact broadcastTo_apply v27 _ (ix2 a d) (ix2 a (0 : Fin 1)) (fun b => by
    match b with
    | ⟨0, _⟩ => rfl
    | ⟨1, _⟩ => rfl)

/-- A coefficient row [1, 128] laid over the 200 rows and 32 neighbours: entry (a, s, d) is the row's entry (0, d);
    the unit axis added in between does not move the row-major position `d`. -/
theorem coef_apply (v : FVec Ideal S1x128 .f32) (a : Fin 200) (s : Fin 32) (d : Fin 128) :
    broadcastTo S200x32x128 (shapeCast S1x1x128 (shapeCast S1x128 v shapeCasts_S1x128_S1x128) shapeCasts_S1x128_S1x1x128)
        broadcasts_S1x1x128_S200x32x128 (ix3 a s d)
      = v (ix2 0 d) := by
  rw [shapeCast_self]
  refine (broadcastTo_apply _ _ (ix3 a s d) (ix3 (0 : Fin 1) (0 : Fin 1) d) (fun b => by
    match b with
    | ⟨0, _⟩ => rfl
    | ⟨1, _⟩ => rfl
    | ⟨2, _⟩ => rfl)).trans ?_
  refine shapeCast_apply v _ (ix3 (0 : Fin 1) (0 : Fin 1) d) (ix2 (0 : Fin 1) d) ?_
  rw [Shape.rowMajor_val_three, Shape.rowMajor_val_two]
  show (0 : ℕ) * 128 + d.val = ((0 : ℕ) * 1 + 0) * 128 + d.val
  omega

/-- The pooling weight's row of 128 numbers read as 32 neighbours × 4 components: entry (a, s, q) sits at the
    row-major position `a · 128 + (s · 4 + q) = (a · 32 + s) · 4 + q`. -/
theorem weight_apply (v21 : FVec Ideal S200x128 .f32) (a : Fin 200) (s : Fin 32) (q : Fin 4) :
    shapeCast S200x32x4 (shapeCast S200x128 v21 shapeCasts_S200x128_S200x128) shapeCasts_S200x128_S200x32x4 (ix3 a s q)
      = v21 (ix2 a (fq s q)) := by
  rw [shapeCast_self]
  refine shapeCast_apply v21 _ (ix3 a s q) (ix2 a (fq s q)) ?_
  rw [Shape.rowMajor_val_three, Shape.rowMajor_val_two]
  show a.val * 128 + (s.val * 4 + q.val) = (a.val * 32 + s.val) * 4 + q.val
  omega

/-- Row `32 a + s` of the 6400: neighbour `s` of the block's centre `a`. -/
def row (a : Fin 200) (s : Fin 32) : Fin 6400 := ⟨a.val * 32 + s.val, by have := a.isLt; have := s.isLt; omega⟩

theorem blkN_row (a : Fin 200) (s : Fin 32) : blkN (row a s) = a :=
  Fin.ext (by show (a.val * 32 + s.val) / 32 = a.val; have := s.isLt; omega)

theorem tileS_row (a : Fin 200) (s : Fin 32) : tileS (row a s) = s :=
  Fin.ext (by show (a.val * 32 + s.val) % 32 = s.val; have := s.isLt; omega)

/-- The product's 6400 rows read as 200 centres × 32 neighbours: entry (a, s, d) is the product's entry
    (32 a + s, d), the sum over the 64 features of the centre's feature `s · 64 + k` times the weight (k, d). -/
theorem x_apply (v0 : FVec Ideal S200x2048 .f32) (v4 : FVec Ideal S64x128 .f32) (a : Fin 200) (s : Fin 32) (d : Fin 128) :
    shapeCast S200x32x128
        (matmul (F := Ideal) dot_S6400x64_S64x128_S6400x128_1_0_0_1_n_n none
        (truncf (F := Ideal) .bf16 (shapeCast S6400x64 (shapeCast S200x2048 v0 shapeCasts_S200x2048_S200x2048) shapeCasts_S200x2048_S6400x64) bitsLt_bf16_f32)
        (truncf (F := Ideal) .bf16 (shapeCast S64x128 v4 shapeCasts_S64x128_S64x128) bitsLt_bf16_f32)
        (constant (F := Ideal) S6400x128 .f32 0x00000000#32))
        shapeCasts_S6400x128_S200x32x128 (ix3 a s d)
      = ∑ k : Fin 64, v0 (ix2 a (fk s k)) * v4 (ix2 k d) := by
  refine (shapeCast_apply _ _ (ix3 a s d) (ix2 (row a s) d) ?_).trans ?_
  · rw [Shape.rowMajor_val_three, Shape.rowMajor_val_two]
    rfl
  · rw [blockMatmul_apply, blkN_row, tileS_row]

/-- The index the sum over the neighbours inserts: neighbour `s` put between row `a` and channel `d`. -/
theorem lift_nbr (h : S200x32x128.Reduces [1] S200x128) (a : Fin 200) (s : Fin 32) (d : Fin 128) :
    h.lift (ix2 a d) s = ix3 a s d :=
  funext fun b => Fin.ext (by match b with | ⟨0, _⟩ => rfl | ⟨1, _⟩ => rfl | ⟨2, _⟩ => rfl)

/-- The sum over the neighbour axis from the zero word, at (a, d): the sum over the 32 neighbours. -/
theorem poolSum_apply (x : FVec Ideal S200x32x128 .f32) (a : Fin 200) (d : Fin 128) :
    multiReduction (F := Ideal) .add [1] S200x128 x 0x00000000#32 reduces_S200x32x128_S200x128 (.inl rfl) rfl (ix2 a d)
      = ∑ s : Fin 32, x (ix3 a s d) := by
  refine (Ideal.multiReduction_add_single x 0x00000000#32 reduces_S200x32x128_S200x128 _ _ (ix2 a d)).trans ?_
  exact Finset.sum_congr rfl fun s _ => congrArg x (lift_nbr _ a s d)

theorem pay1_apply (v0 : FVec Ideal S200x2048 .f32) (v4 : FVec Ideal S64x128 .f32) (v9 v11 : FVec Ideal S1x128 .f32)
    (v21 : FVec Ideal S200x128 .f32) (v27 : FVec Ideal S200x1 .f32) (a : Fin 200) (d : Fin 128) :
    k1_pay1 (F := Ideal) v0 v4 v9 v11 v21 v27 (ix2 a d)
      = Ideal.div
          (∑ s : Fin 32,
            max ((∑ k : Fin 64, v0 (ix2 a (fk s k)) * v4 (ix2 k d)) * v9 (ix2 0 d) + v11 (ix2 0 d)) 0
              * v21 (ix2 a (fq s (ch4 d))))
          (v27 (ix2 a 0)) := by
  unfold k1_pay1
  rw [divf_apply]
  refine (congrArg₂ Ideal.div (poolSum_apply _ a d) (den_apply v27 a d)).trans ?_
  refine congrArg (Ideal.div · (v27 (ix2 a 0))) (Finset.sum_congr rfl fun s _ => ?_)
  rw [mulf_apply, maximumf_apply, addf_apply, mulf_apply, x_apply, coef_apply, coef_apply, tile32_apply, weight_apply,
    broadcast_apply, Ideal.ofBits_def, Ideal.ofBits_zero_f32]

end Cert.PosPool.K

end
-- ==== Proof.KRegion1.lean ====
/-
  The second kernel's result array [20000, 128], read at an index: centre `n`, channel `d` holds the sum over the 32
  neighbours of `max (x · scale + shift, 0)` times the flattened pooling weight, divided by the count column, with `x`
  the product of the centre's flattened features with the transposed weights. Every tile of 200 centres is written
  back at its own point and the 100 tiles cover the array.
-/
import proofs.«420376_j26259430048619_3_alg».proof.Proof.KArr
import proofs.«420376_j26259430048619_3_alg».proof.Proof.KPay1
import Idealize.ShloMosaic.Lib.Pipeline.Value
import Idealize.ShloMosaic.Lib.ValueLayout
import Idealize.ShloMosaic.PureOps.Ideal.Laws

noncomputable section

namespace Cert.PosPool.K

open Cert.KernelIdeal Cert.KernelIdeal.Gen Idealize.ShloMosaic Idealize.ShloMosaic.TcCoe Idealize.SL.Sem
open Idealize.ShloMosaic.Pipeline (Dat)
open Cert.PosPool Idealize.ShloMosaic.ValueIdx

variable (V : (c : Dev nD) → (b : Ref sig .tc) → Buf (Elt Ideal) ((c : Thread nD τ).loc b))

namespace PoolTile

/-! ## The closed form -/

/-- Centre `n`, channel `d` of the result, as one expression of the arrays the region finds. -/
def pooled (c : Dev nD) (n : Fin 20000) (d : Fin 128) : EReal :=
  Ideal.div
    (∑ s : Fin 32,
      max ((∑ k : Fin 64, featFlat V c (ix2 n (fk s k)) * wT V c (ix2 k d)) * scaleRow V c (ix2 0 d) + shiftRow V c (ix2 0 d)) 0
        * gmFlat V c (ix2 n (fq s (ch4 d))))
    (denCol V c (ix2 n 0))

/-- The whole result array. -/
def pooledArr (c : Dev nD) : FVec Ideal S20000x128 .f32 := fun i => pooled V c (i 0) (i 1)

/-! ## Which block each window holds at a point -/

/-- The body loads every block and stores the tile through the whole staging buffer: offsets zero on both axes. -/
theorem zeroOff : (![0, 0] : Fin 2 → Nat) = fun _ => 0 := funext fun a => by fin_cases a <;> rfl

/-- Point `t`'s block index: `(t, 0)` for the features, the pooling weight, the count column and the result;
    `(0, 0)` for the weights and the two coefficient rows — at each of the 100 points. -/
theorem blockIdx : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-! ## The six blocks read at an index

A block's coordinate in its array is the block index times the block's extent plus the coordinate inside the block. -/

/-- The features' block at point `t`: row `a` is centre `t · 200 + a`. -/
theorem featBlk_apply (c : Dev nD) (t : Fin cfg1.N) (a : Fin 200) (q : Fin 2048) (n : Fin 20000) (hn : n.val = t.val * 200 + a.val) :
    (iblk1 V c 0 t : Vec Ideal S200x2048 .f32) (ix2 a q) = featFlat V c (ix2 n q) := by
  obtain ⟨⟨e0, e1⟩, -⟩ := blockIdx t
  unfold iblk1
  rw [View.read_apply]
  show V c main_v20 _ = V c main_v20 _
  congr 1
  funext b; apply Fin.ext
  match b with
  | ⟨0, _⟩ => show win1_0.index t (0 : Fin 2) * 200 + 1 * a.val = n.val; omega
  | ⟨1, _⟩ => show win1_0.index t (1 : Fin 2) * 2048 + 1 * q.val = q.val; omega

/-- The pooling weight's block at point `t`: row `a` is centre `t · 200 + a`. -/
theorem gmBlk_apply (c : Dev nD) (t : Fin cfg1.N) (a : Fin 200) (q : Fin 128) (n : Fin 20000) (hn : n.val = t.val * 200 + a.val) :
    (iblk1 V c 1 t : Vec Ideal S200x128 .f32) (ix2 a q) = gmFlat V c (ix2 n q) := by
  obtain ⟨-, ⟨e0, e1⟩, -⟩ := blockIdx t
  unfold iblk1
  rw [View.read_apply]
  show V c main_v15 _ = V c main_v15 _
  congr 1
  funext b; apply Fin.ext
  match b with
  | ⟨0, _⟩ => show win1_1.index t (0 : Fin 2) * 200 + 1 * a.val = n.val; omega
  | ⟨1, _⟩ => show win1_1.index t (1 : Fin 2) * 128 + 1 * q.val = q.val; omega

/-- The count column's block at point `t`: row `a` is centre `t · 200 + a`. -/
theorem denBlk_apply (c : Dev nD) (t : Fin cfg1.N) (a : Fin 200) (n : Fin 20000) (hn : n.val = t.val * 200 + a.val) :
    (iblk1 V c 2 t : Vec Ideal S200x1 .f32) (ix2 a 0) = denCol V c (ix2 n 0) := by
  obtain ⟨-, -, ⟨e0, e1⟩, -⟩ := blockIdx t
  unfold iblk1
  rw [View.read_apply]
  show V c main_v19 _ = V c main_v19 _
  congr 1
  funext b; apply Fin.ext
  match b with
  | ⟨0, _⟩ => show win1_2.index t (0 : Fin 2) * 200 + 1 * a.val = n.val; omega
  | ⟨1, _⟩ => show win1_2.index t (1 : Fin 2) * 1 + 1 * 0 = 0; omega

/-- The weights' block is the whole array at every point. -/
theorem wBlk_apply (c : Dev nD) (t : Fin cfg1.N) (k : Fin 64) (d : Fin 128) :
    (iblk1 V c 3 t : Vec Ideal S64x128 .f32) (ix2 k d) = wT V c (ix2 k d) := by
  obtain ⟨-, -, -, ⟨e0, e1⟩, -⟩ := blockIdx t
  unfold iblk1
  rw [View.read_apply]
  show V c main_v21 _ = V c main_v21 _
  congr 1
  funext b; apply Fin.ext
  match b with
  | ⟨0, _⟩ => show win1_3.index t (0 : Fin 2) * 64 + 1 * k.val = k.val; omega
  | ⟨1, _⟩ => show win1_3.index t (1 : Fin 2) * 128 + 1 * d.val = d.val; omega

/-- So is the scale row's … -/
theorem scaleBlk_apply (c : Dev nD) (t : Fin cfg1.N) (d : Fin 128) :
    (iblk1 V c 4 t : Vec Ideal S1x128 .f32) (ix2 0 d) = scaleRow V c (ix2 0 d) := by
  obtain ⟨-, -, -, -, ⟨e0, e1⟩, -⟩ := blockIdx t
  unfold iblk1
  rw [View.read_apply]
  show V c main_v37 _ = V c main_v37 _
  congr 1
  funext b; apply Fin.ext
  match b with
  | ⟨0, _⟩ => show win1_4.index t (0 : Fin 2) * 1 + 1 * 0 = 0; omega
  | ⟨1, _⟩ => show win1_4.index t (1 : Fin 2) * 128 + 1 * d.val = d.val; omega

/-- … and the shift row's. -/
theorem shiftBlk_apply (c : Dev nD) (t : Fin cfg1.N) (d : Fin 128) :
    (iblk1 V c 5 t : Vec Ideal S1x128 .f32) (ix2 0 d) = shiftRow V c (ix2 0 d) := by
  obtain ⟨-, -, -, -, -, ⟨e0, e1⟩, -⟩ := blockIdx t
  unfold iblk1
  rw [View.read_apply]
  show V c main_v40 _ = V c main_v40 _
  congr 1
  funext b; apply Fin.ext
  match b with
  | ⟨0, _⟩ => show win1_5.index t (0 : Fin 2) * 1 + 1 * 0 = 0; omega
  | ⟨1, _⟩ => show win1_5.index t (1 : Fin 2) * 128 + 1 * d.val = d.val; omega

/-! ## What a point writes back -/

/-- A tile [200, 128] whose row `a` is row `t · 200 + a` of a whole array is point `t`'s block of that array: the result
    window's block at `t` starts at row `t · 200`, channel 0. -/
theorem tile_eq_block (t : Fin cfg1.N) (P : FVec Ideal S200x128 .f32) (G : FVec Ideal S20000x128 .f32)
    (h : ∀ (a : Fin 200) (d : Fin 128) (n : Fin 20000), n.val = t.val * 200 + a.val → P (ix2 a d) = G (ix2 n d)) :
    (cfg1.win 6).cut (grid1.coords t) P = ((cfg1.win 6).blk t).view.read (Elt Ideal) G := by
  obtain ⟨-, -, -, -, -, -, ⟨e0, e1⟩⟩ := blockIdx t
  have hN : t.val < 100 := lt_of_lt_of_eq t.isLt (show cfg1.N = 100 from N_1)
  funext j
  have hj0 : (j 0).val < 200 := (j 0).isLt
  have hj1 : (j 1).val < 128 := (j 1).isLt
  rw [View.read_apply]
  show P ((cfg1.win 6).xinj (grid1.coords t) j) = G (((cfg1.win 6).blk t).view.emb j)
  have ein : (cfg1.win 6).xinj (grid1.coords t) j = ix2 (⟨(j 0).val, hj0⟩ : Fin 200) (⟨(j 1).val, hj1⟩ : Fin 128) :=
    funext fun b => match b with | ⟨0, _⟩ => rfl | ⟨1, _⟩ => rfl
  have eout : ((cfg1.win 6).blk t).view.emb j
      = ix2 (⟨t.val * 200 + (j 0).val, by omega⟩ : Fin 20000) (⟨(j 1).val, hj1⟩ : Fin 128) := by
    funext b; apply Fin.ext
    match b with
    | ⟨0, _⟩ => show win1_6.index t (0 : Fin 2) * 200 + 1 * (j 0).val = t.val * 200 + (j 0).val; omega
    | ⟨1, _⟩ => show win1_6.index t (1 : Fin 2) * 128 + 1 * (j 1).val = (j 1).val; omega
  rw [ein, eout]
  exact h _ _ _ rfl

/-- WHAT POINT `t` WRITES BACK is block `t` of the closed form: the one store's payload over the six blocks, read at an
    index, each block read where its window puts it in its array. -/
theorem flushed_eq (c : Dev nD) (t : Fin cfg1.N) :
    (dat1 V c).flushed 6 t = ((cfg1.win 6).blk t).view.read (Elt Ideal) (pooledArr V c) := by
  show (cfg1.win 6).cut (grid1.coords t) ((dat1 V c).after 6 t) = _
  rw [after1_6]
  unfold out1_6
  rw [View.canon_unit_zero zeroOff]
  simp only [View.ld_unit_zero (S := S200x2048) zeroOff, View.ld_unit_zero (S := S64x128) zeroOff,
    View.ld_unit_zero (S := S1x128) zeroOff, View.ld_unit_zero (S := S200x128) zeroOff, View.ld_unit_zero (S := S200x1) zeroOff]
  refine tile_eq_block t _ (pooledArr V c) fun a d n hn => ?_
  refine (pay1_apply (iblk1 V c 0 t) (iblk1 V c 3 t) (iblk1 V c 4 t) (iblk1 V c 5 t) (iblk1 V c 1 t) (iblk1 V c 2 t) a d).trans ?_
  show _ = pooled V c n d
  unfold pooled
  refine congrArg₂ Ideal.div (Finset.sum_congr rfl fun s _ => congrArg₂ (· * ·) (congrArg₂ max (congrArg₂ (· + ·)
    (congrArg₂ (· * ·) (Finset.sum_congr rfl fun k _ => congrArg₂ (· * ·) ?_ ?_) ?_) ?_) rfl) ?_) ?_
  · exact featBlk_apply V c t a (fk s k) n hn
  · exact wBlk_apply V c t k d
  · exact scaleBlk_apply V c t d
  · exact shiftBlk_apply V c t d
  · exact gmBlk_apply V c t a (fq s (ch4 d)) n hn
  · exact denBlk_apply V c t a n hn

/-! ## The tiles cover the array -/

/-- An index of the result is in point `t`'s block iff each coordinate is in the block's range on its axis. -/
theorem mem_block (t : Fin cfg1.N) (i : S20000x128.Idx) :
    i ∈ ((cfg1.win 6).blk t).view.set
      ↔ ∀ a : Fin 2, win1_6.index t a * S200x128.size a ≤ (i a).val ∧ (i a).val < win1_6.index t a * S200x128.size a + S200x128.size a := by
  show i ∈ ((View.whole main_v41).slice (win1_6.rect t)).set ↔ _
  rw [View.set_slice_whole, Rect.mem_set_unit]
  exact Iff.rfl

/-- Centre `n` is in the block of point `n / 200`, which is written back. -/
theorem covered (i : S20000x128.Idx) :
    ∃ t : Fin cfg1.N, (cfg1.win 6).flush t = true ∧ i ∈ ((cfg1.win 6).blk t).view.set := by
  have hi0 : (i 0).val < 20000 := (i 0).isLt
  have hi1 : (i 1).val < 128 := (i 1).isLt
  have hN : cfg1.N = 100 := N_1
  let t : Fin cfg1.N := ⟨(i 0).val / 200, by rw [hN]; omega⟩
  have ht : t.val = (i 0).val / 200 := rfl
  obtain ⟨-, -, -, -, -, -, ⟨e0, e1⟩⟩ := blockIdx t
  refine ⟨t, flush1_6 t, ?_⟩
  rw [mem_block]
  intro a
  match a with
  | ⟨0, _⟩ =>
    show win1_6.index t (0 : Fin 2) * 200 ≤ (i 0).val ∧ (i 0).val < win1_6.index t (0 : Fin 2) * 200 + 200
    omega
  | ⟨1, _⟩ =>
    show win1_6.index t (1 : Fin 2) * 128 ≤ (i 1).val ∧ (i 1).val < win1_6.index t (1 : Fin 2) * 128 + 128
    omega

end PoolTile

/-! ## The array after the 100 points -/

theorem out_apply (c : Dev nD) (n : Fin 20000) (d : Fin 128) :
    ((dat1 V c).arrAt 6 cfg1.N : FVec Ideal S20000x128 .f32) (ix2 n d)
      = Ideal.div
          (∑ s : Fin 32,
            max ((∑ k : Fin 64, featFlat V c (ix2 n (fk s k)) * wT V c (ix2 k d)) * scaleRow V c (ix2 0 d) + shiftRow V c (ix2 0 d)) 0
              * gmFlat V c (ix2 n (fq s (ch4 d))))
          (denCol V c (ix2 n 0)) := by
  have hfin : (dat1 V c).arrAt 6 cfg1.N = PoolTile.pooledArr V c :=
    (dat1 V c).arrAt_eq_of_cover 6 (PoolTile.pooledArr V c) (fun t _ => PoolTile.flushed_eq V c t) PoolTile.covered
  rw [hfin]
  rfl

end Cert.PosPool.K

end
-- ==== Proof.KernelValue.lean ====
/-
  The fused program's result array, index by index, is the fused form `outK` of the launch memory's arguments: the
  second kernel's array read through its entry contents, those through the host operations between the kernels and
  the first kernel's two sum arrays, and those through the host operations before it.
-/
import proofs.«420376_j26259430048619_3_alg».proof.Proof.KHost1
import proofs.«420376_j26259430048619_3_alg».proof.Proof.KRegion0
import proofs.«420376_j26259430048619_3_alg».proof.Proof.KRegion1

noncomputable section

namespace Cert.PosPool.K

open Cert.KernelIdeal Cert.KernelIdeal.Gen Idealize.ShloMosaic Idealize.ShloMosaic.TcCoe Idealize.SL.Sem
open Idealize.ShloMosaic.Pipeline (Dat)
open Cert.PosPool Idealize.ShloMosaic.ValueIdx

variable (m : (ℓ : Loc nD τ sig) → Buf (Elt Ideal) ℓ) (ρ : Dev nD → PrngReg)

/-- The first kernel's sum arrays at its exit are what its write-backs leave. -/
theorem V2_sums (c : Dev nD) : V2 m ρ c main_v22_0 = (dat0 (V1 m ρ) c).arrAt 2 cfg0.N := (hF0 m ρ c 2).symm
theorem V2_sumsq (c : Dev nD) : V2 m ρ c main_v22_1 = (dat0 (V1 m ρ) c).arrAt 3 cfg0.N := (hF0 m ρ c 3).symm

/-- A tile row's product with the weights, from the first kernel's entry contents, is the linear layer at that row. -/
theorem xTile_eq (c : Dev nD) (h : Fin 2) (i : Fin 50) (r : Fin 6400) (d : Fin 128) :
    xTile (V1 m ρ) c h i r d = lin (dataM m c) (tileN h i r) (tileS r) d := by
  unfold xTile lin
  refine Finset.sum_congr rfl fun k _ => ?_
  have h20 : featFlat (V1 m ρ) c (ix2 (tileN h i r) (fk (tileS r) k)) = (dataM m c).feat (ix3 (tileN h i r) (tileS r) k) :=
    v20_apply m ρ c (tileN h i r) (tileS r) k
  have h21 : wT (V1 m ρ) c (ix2 k d) = (dataM m c).W (ix2 d k) := v21_apply m ρ c k d
  rw [h20, h21]

/-- The channel sum of `x` as the program gathers it is the specification's `S1K`. -/
theorem sum1_eq (c : Dev nD) (d : Fin 128) :
    (∑ h : Fin 2, (V2 m ρ c main_v22_0 : FVec Ideal S2x1x128 .f32) (ix3 h 0 d) : EReal) = S1K (dataM m c) d := by
  unfold S1K
  refine Finset.sum_congr rfl fun h _ => ?_
  have e1 : ((V2 m ρ c main_v22_0 : FVec Ideal S2x1x128 .f32) (ix3 h 0 d) : EReal)
      = ∑ i : Fin 50, ∑ r : Fin 6400, xTile (V1 m ρ) c h i r d :=
    (congrFun (V2_sums m ρ c) (ix3 h 0 d)).trans (sums_apply (V1 m ρ) c h d)
  have e2 : (∑ i : Fin 50, ∑ r : Fin 6400, xTile (V1 m ρ) c h i r d)
      = ∑ i : Fin 50, ∑ r : Fin 6400, lin (dataM m c) (tileN h i r) (tileS r) d :=
    Finset.sum_congr rfl fun i _ => Finset.sum_congr rfl fun r _ => xTile_eq m ρ c h i r d
  exact e1.trans e2

theorem sum2_eq (c : Dev nD) (d : Fin 128) :
    (∑ h : Fin 2, (V2 m ρ c main_v22_1 : FVec Ideal S2x1x128 .f32) (ix3 h 0 d) : EReal) = S2K (dataM m c) d := by
  unfold S2K
  refine Finset.sum_congr rfl fun h _ => ?_
  have e1 : ((V2 m ρ c main_v22_1 : FVec Ideal S2x1x128 .f32) (ix3 h 0 d) : EReal)
      = ∑ i : Fin 50, ∑ r : Fin 6400, xTile (V1 m ρ) c h i r d * xTile (V1 m ρ) c h i r d :=
    (congrFun (V2_sumsq m ρ c) (ix3 h 0 d)).trans (sumsq_apply (V1 m ρ) c h d)
  have e2 : (∑ i : Fin 50, ∑ r : Fin 6400, xTile (V1 m ρ) c h i r d * xTile (V1 m ρ) c h i r d)
      = ∑ i : Fin 50, ∑ r : Fin 6400, lin (dataM m c) (tileN h i r) (tileS r) d * lin (dataM m c) (tileN h i r) (tileS r) d :=
    Finset.sum_congr rfl fun i _ => Finset.sum_congr rfl fun r _ => by rw [xTile_eq m ρ c h i r d]
  exact e1.trans e2

/-- The result array at the last boundary, index by index. -/
theorem kernel_result (c : Dev nD) :
    (W4 m ρ c (Proc.devRef .tc main_v41) : FVec Ideal S20000x128 .f32) = fun j => outK (dataM m c) (j 0) (j 1) := by
  funext j
  obtain ⟨n, d, rfl⟩ : ∃ (n : Fin 20000) (d : Fin 128), j = ix2 n d := ⟨j 0, j 1, eq_ix2 j⟩
  show (W4 m ρ c (Proc.devRef .tc main_v41) : FVec Ideal S20000x128 .f32) (ix2 n d) = outK (dataM m c) n d
  refine (congrFun (W4_arr m ρ c 6) (ix2 n d)).trans ((out_apply (V3 m ρ) c n d).trans ?_)
  have hden : denCol (V3 m ρ) c (ix2 n 0) = (dataM m c).den (ix2 n 0) := by
    show (V3 m ρ c main_v19 : FVec Ideal S20000x1 .f32) (ix2 n 0) = _
    rw [V3_v19]; exact v19_apply m ρ c n
  have hsc : scaleRow (V3 m ρ) c (ix2 0 d) = scaleK (dataM m c) d := by
    show (V3 m ρ c main_v37 : FVec Ideal S1x128 .f32) (ix2 0 d) = _
    rw [scaleRow_apply, sum1_eq, sum2_eq]; rfl
  have hsh : shiftRow (V3 m ρ) c (ix2 0 d) = shiftK (dataM m c) d := by
    show (V3 m ρ c main_v40 : FVec Ideal S1x128 .f32) (ix2 0 d) = _
    rw [shiftRow_apply, sum1_eq, sum2_eq]; rfl
  unfold outK
  rw [hden]
  refine congrArg (fun z => Ideal.div z _) (Finset.sum_congr rfl fun s _ => ?_)
  have hx : (∑ k : Fin 64, featFlat (V3 m ρ) c (ix2 n (fk s k)) * wT (V3 m ρ) c (ix2 k d)) = lin (dataM m c) n s d := by
    unfold lin
    refine Finset.sum_congr rfl fun k _ => ?_
    have h20 : featFlat (V3 m ρ) c (ix2 n (fk s k)) = (dataM m c).feat (ix3 n s k) := by
      show (V3 m ρ c main_v20 : FVec Ideal S20000x2048 .f32) (ix2 n (fk s k)) = _
      rw [V3_v20]; exact v20_apply m ρ c n s k
    have h21 : wT (V3 m ρ) c (ix2 k d) = (dataM m c).W (ix2 d k) := by
      show (V3 m ρ c main_v21 : FVec Ideal S64x128 .f32) (ix2 k d) = _
      rw [V3_v21]; exact v21_apply m ρ c k d
    rw [h20, h21]
  have hgm : gmFlat (V3 m ρ) c (ix2 n (fq s (ch4 d))) = (dataM m c).geo (ix3 n s (ch4 d)) * (dataM m c).mf (ix2 n s) := by
    show (V3 m ρ c main_v15 : FVec Ideal S20000x128 .f32) (ix2 n (fq s (ch4 d))) = _
    rw [V3_v15]; exact v15_apply m ρ c n s (ch4 d)
  rw [hx, hsc, hsh, hgm]
  rfl

end Cert.PosPool.K

end
-- ==== Proof.RefOpsList.lean ====
-- A table, no argument: the reference program's @main as the list of its 66 host operations, copied from the printed program.
import proofs.«420376_j26259430048619_3_alg».proof.Proof.Gen.ReferenceIdeal
import Idealize.ShloMosaic.Lib.StableHlo.Run

noncomputable section

namespace Cert.PosPool.R

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ StableHlo.nullary main_cst (fun i => FloatOps.ofBits .f32 (lit0 (S4.rowMajor i))),
    StableHlo.unary main_arg2 main_v0 ((extractStridedSlice S20000x3 ![0, 1] · slices_S20000x4_S20000x3_0_1) : (⟨S20000x4, .f32⟩ : BufTy).Contents (Elt F) → (⟨S20000x3, .f32⟩ : BufTy).Contents (Elt F)),
    StableHlo.unary main_v0 main_v1 (broadcastInDim S20000x1x3 ![0, 2] bcast_S20000x3_S20000x1x3_0_2 : (⟨S20000x3, .f32⟩ : BufTy).Contents (Elt F) → (⟨S20000x1x3, .f32⟩ : BufTy).Contents (Elt F)),
    StableHlo.unary main_v1 main_v2 (broadcastInDim S20000x32x3 ![0, 1, 2] bcast_S20000x1x3_S20000x32x3_0_1_2 : (⟨S20000x1x3, .f32⟩ : BufTy).Contents (Elt F) → (⟨S20000x32x3, .f32⟩ : BufTy).Contents (Elt F)),
    StableHlo.binary main_arg1 main_v2 main_v3 (subf : (⟨S20000x32x3, .f32⟩ : BufTy).Contents (Elt F) → (⟨S20000x32x3, .f32⟩ : BufTy).Contents (Elt F) → (⟨S20000x32x3, .f32⟩ : BufTy).Contents (Elt F)),
    StableHlo.binary main_v3 main_v3 main_v4 (mulf : (⟨S20000x32x3, .f32⟩ : BufTy).Contents (Elt F) → (⟨S20000x32x3, .f32⟩ : BufTy).Contents (Elt F) → (⟨S20000x32x3, .f32⟩ : BufTy).Contents (Elt F)),
    StableHlo.nullary main_cst_0 (constant S_ .f32 0x00000000#32),
    StableHlo.binary main_v4 main_cst_0 main_v5 ((fun x v => Host.reduceAdd x v reducesTo_S20000x32x3_S20000x32_d2 h_S_) : (⟨S20000x32x3, .f32⟩ : BufTy).Contents (Elt F) → (⟨S_, .f32⟩ : BufTy).Contents (Elt F) → (⟨S20000x32, .f32⟩ : BufTy).Contents (Elt F)),
    StableHlo.unary main_v5 main_v6 (broadcastInDim S20000x32x1 ![0, 1] bcast_S20000x32_S20000x32x1_0_1 : (⟨S20000x32, .f32⟩ : BufTy).Contents (Elt F) → (⟨S20000x32x1, .f32⟩ : BufTy).Contents (Elt F)),
    StableHlo.binary main_v3 main_v6 main_v7 ((fun a b => concatenate S20000x32x4 2 [⟨S20000x32x3, a⟩, ⟨S20000x32x1, b⟩] concatenates_S20000x32x3_S20000x32x1_S20000x32x4_d2) : (⟨S20000x32x3, .f32⟩ : BufTy).Contents (Elt F) → (⟨S20000x32x1, .f32⟩ : BufTy).Contents (Elt F) → (⟨S20000x32x4, .f32⟩ : BufTy).Contents (Elt F)),
    StableHlo.unary main_cst main_v8 (broadcastInDim S1x1x4 ![2] bcast_S4_S1x1x4_2 : (⟨S4, .f32⟩ : BufTy).Contents (Elt F) → (⟨S1x1x4, .f32⟩ : BufTy).Contents (Elt F)),
    StableHlo.unary main_v8 main_v9 (broadcastInDim S20000x32x4 ![0, 1, 2] bcast_S1x1x4_S20000x32x4_0_1_2 : (⟨S1x1x4, .f32⟩ : BufTy).Contents (Elt F) → (⟨S20000x32x4, .f32⟩ : BufTy).Contents (Elt F)),
    StableHlo.binary main_v7 main_v9 main_v10 (Host.divf : (⟨S20000x32x4, .f32⟩ : BufTy).Contents (Elt F) → (⟨S20000x32x4, .f32⟩ : BufTy).Contents (Elt F) → (⟨S20000x32x4, .f32⟩ : BufTy).Contents (Elt F)),
    StableHlo.binary main_arg0 main_arg4 main_v11 ((fun l r => Host.dotGeneral dot_S20000x32x64_S128x64_S20000x32x128_2_1_01_0_n_n none l r) : (⟨S20000x32x64, .f32⟩ : BufTy).Contents (Elt F) → (⟨S128x64, .f32⟩ : BufTy).Contents (Elt F) → (⟨S20000x32x128, .f32⟩ : BufTy).Contents (Elt F)),
    StableHlo.reshape main_v11 main_v12 rfl shapeCasts_S20000x32x128_S640000x128,
    StableHlo.nullary main_cst_1 (constant S_ .f32 0x00000000#32),
    StableHlo.binary main_v12 main_cst_1 main_v13 ((fun x v => Host.reduceAdd x v reducesTo_S640000x128_S128_d0 h_S_) : (⟨S640000x128, .f32⟩ : BufTy).Contents (Elt F) → (⟨S_, .f32⟩ : BufTy).Contents (Elt F) → (⟨S128, .f32⟩ : BufTy).Contents (Elt F)),
    StableHlo.nullary main_cst_2 (constant S_ .f32 0x491C4000#32),
    StableHlo.unary main_cst_2 main_v14 (broadcastInDim S128 ![] bcast_S_S128 : (⟨S_, .f32⟩ : BufTy).Contents (Elt F) → (⟨S128, .f32⟩ : BufTy).Contents (Elt F)),
    StableHlo.binary main_v13 main_v14 main_v15 (Host.divf : (⟨S128, .f32⟩ : BufTy).Contents (Elt F) → (⟨S128, .f32⟩ : BufTy).Contents (Elt F) → (⟨S128, .f32⟩ : BufTy).Contents (Elt F)),
    StableHlo.unary main_v15 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S640000x128 ![0, 1] bcast_S1x128_S640000x128_0_1 : (⟨S1x128, .f32⟩ : BufTy).Contents (Elt F) → (⟨S640000x128, .f32⟩ : BufTy).Contents (Elt F)),
    StableHlo.binary main_v12 main_v17 main_v18 (subf : (⟨S640000x128, .f32⟩ : BufTy).Contents (Elt F) → (⟨S640000x128, .f32⟩ : BufTy).Contents (Elt F) → (⟨S640000x128, .f32⟩ : BufTy).Contents (Elt F)),
    StableHlo.binary main_v18 main_v18 main_v19 (mulf : (⟨S640000x128, .f32⟩ : BufTy).Contents (Elt F) → (⟨S640000x128, .f32⟩ : BufTy).Contents (Elt F) → (⟨S640000x128, .f32⟩ : BufTy).Contents (Elt F)),
    StableHlo.nullary main_cst_3 (constant S_ .f32 0x00000000#32),
    StableHlo.binary main_v19 main_cst_3 main_v20 ((fun x v => Host.reduceAdd x v reducesTo_S640000x128_S128_d0 h_S_) : (⟨S640000x128, .f32⟩ : BufTy).Contents (Elt F) → (⟨S_, .f32⟩ : BufTy).Contents (Elt F) → (⟨S128, .f32⟩ : BufTy).Contents (Elt F)),
    StableHlo.nullary main_cst_4 (constant S_ .f32 0x491C4000#32),
    StableHlo.unary main_cst_4 main_v21 (broadcastInDim S128 ![] bcast_S_S128 : (⟨S_, .f32⟩ : BufTy).Contents (Elt F) → (⟨S128, .f32⟩ : BufTy).Contents (Elt F)),
    StableHlo.binary main_v20 main_v21 main_v22 (Host.divf : (⟨S128, .f32⟩ : BufTy).Contents (Elt F) → (⟨S128, .f32⟩ : BufTy).Contents (Elt F) → (⟨S128, .f32⟩ : BufTy).Contents (Elt F)),
    StableHlo.unary main_v15 main_v23 (broadcastInDim S1x1x128 ![2] bcast_S128_S1x1x128_2 : (⟨S128, .f32⟩ : BufTy).Contents (Elt F) → (⟨S1x1x128, .f32⟩ : BufTy).Contents (Elt F)),
    StableHlo.unary main_v23 main_v24 (broadcastInDim S20000x32x128 ![0, 1, 2] bcast_S1x1x128_S20000x32x128_0_1_2 : (⟨S1x1x128, .f32⟩ : BufTy).Contents (Elt F) → (⟨S20000x32x128, .f32⟩ : BufTy).Contents (Elt F)),
    StableHlo.binary main_v11 main_v24 main_v25 (subf : (⟨S20000x32x128, .f32⟩ : BufTy).Contents (Elt F) → (⟨S20000x32x128, .f32⟩ : BufTy).Contents (Elt F) → (⟨S20000x32x128, .f32⟩ : BufTy).Contents (Elt F)),
    StableHlo.nullary main_cst_5 (constant S_ .f32 0x3727C5AC#32),
    StableHlo.unary main_cst_5 main_v26 (broadcastInDim S128 ![] bcast_S_S128 : (⟨S_, .f32⟩ : BufTy).Contents (Elt F) → (⟨S128, .f32⟩ : BufTy).Contents (Elt F)),
    StableHlo.binary main_v22 main_v26 main_v27 (addf : (⟨S128, .f32⟩ : BufTy).Contents (Elt F) → (⟨S128, .f32⟩ : BufTy).Contents (Elt F) → (⟨S128, .f32⟩ : BufTy).Contents (Elt F)),
    StableHlo.unary main_v27 main_v28 (Host.rsqrt : (⟨S128, .f32⟩ : BufTy).Contents (Elt F) → (⟨S128, .f32⟩ : BufTy).Contents (Elt F)),
    StableHlo.unary main_v28 main_v29 (broadcastInDim S1x1x128 ![2] bcast_S128_S1x1x128_2 : (⟨S128, .f32⟩ : BufTy).Contents (Elt F) → (⟨S1x1x128, .f32⟩ : BufTy).Contents (Elt F)),
    StableHlo.unary main_v29 main_v30 (broadcastInDim S20000x32x128 ![0, 1, 2] bcast_S1x1x128_S20000x32x128_0_1_2 : (⟨S1x1x128, .f32⟩ : BufTy).Contents (Elt F) → (⟨S20000x32x128, .f32⟩ : BufTy).Contents (Elt F)),
    StableHlo.binary main_v25 main_v30 main_v31 (mulf : (⟨S20000x32x128, .f32⟩ : BufTy).Contents (Elt F) → (⟨S20000x32x128, .f32⟩ : BufTy).Contents (Elt F) → (⟨S20000x32x128, .f32⟩ : BufTy).Contents (Elt F)),
    StableHlo.unary main_arg5 main_v32 (broadcastInDim S1x1x128 ![2] bcast_S128_S1x1x128_2 : (⟨S128, .f32⟩ : BufTy).Contents (Elt F) → (⟨S1x1x128, .f32⟩ : BufTy).Contents (Elt F)),
    StableHlo.unary main_v32 main_v33 (broadcastInDim S20000x32x128 ![0, 1, 2] bcast_S1x1x128_S20000x32x128_0_1_2 : (⟨S1x1x128, .f32⟩ : BufTy).Contents (Elt F) → (⟨S20000x32x128, .f32⟩ : BufTy).Contents (Elt F)),
    StableHlo.binary main_v31 main_v33 main_v34 (mulf : (⟨S20000x32x128, .f32⟩ : BufTy).Contents (Elt F) → (⟨S20000x32x128, .f32⟩ : BufTy).Contents (Elt F) → (⟨S20000x32x128, .f32⟩ : BufTy).Contents (Elt F)),
    StableHlo.unary main_arg6 main_v35 (broadcastInDim S1x1x128 ![2] bcast_S128_S1x1x128_2 : (⟨S128, .f32⟩ : BufTy).Contents (Elt F) → (⟨S1x1x128, .f32⟩ : BufTy).Contents (Elt F)),
    StableHlo.unary main_v35 main_v36 (broadcastInDim S20000x32x128 ![0, 1, 2] bcast_S1x1x128_S20000x32x128_0_1_2 : (⟨S1x1x128, .f32⟩ : BufTy).Contents (Elt F) → (⟨S20000x32x128, .f32⟩ : BufTy).Contents (Elt F)),
    StableHlo.binary main_v34 main_v36 main_v37 (addf : (⟨S20000x32x128, .f32⟩ : BufTy).Contents (Elt F) → (⟨S20000x32x128, .f32⟩ : BufTy).Contents (Elt F) → (⟨S20000x32x128, .f32⟩ : BufTy).Contents (Elt F)),
    StableHlo.TRef.nullary main_call0.cst (constant S_ .f32 0x00000000#32),
    StableHlo.TRef.unary main_call0.cst main_call0.v0 (broadcastInDim S20000x32x128 ![] bcast_S_S20000x32x128),
    StableHlo.TRef.binary (.of main_v37) main_call0.v0 main_call0.v1 maximumf,
    StableHlo.reshape main_v10 main_v39 rfl shapeCasts_S20000x32x4_S1x20000x1x32x1x4,
    StableHlo.unary main_v39 main_v40 (broadcastInDim S1x20000x1x32x32x4 ![0, 1, 2, 3, 4, 5] bcast_S1x20000x1x32x1x4_S1x20000x1x32x32x4_0_1_2_3_4_5 : (⟨S1x20000x1x32x1x4, .f32⟩ : BufTy).Contents (Elt F) → (⟨S1x20000x1x32x32x4, .f32⟩ : BufTy).Contents (Elt F)),
    StableHlo.reshape main_v40 main_v41 rfl shapeCasts_S1x20000x1x32x32x4_S20000x32x128,
    StableHlo.unary main_arg3 main_v42 (sitofp .f32 : (⟨S20000x32, .i32⟩ : BufTy).Contents (Elt F) → (⟨S20000x32, .f32⟩ : BufTy).Contents (Elt F)),
    StableHlo.binary main_v38 main_v41 main_v43 (mulf : (⟨S20000x32x128, .f32⟩ : BufTy).Contents (Elt F) → (⟨S20000x32x128, .f32⟩ : BufTy).Contents (Elt F) → (⟨S20000x32x128, .f32⟩ : BufTy).Contents (Elt F)),
    StableHlo.unary main_v42 main_v44 (broadcastInDim S20000x32x1 ![0, 1] bcast_S20000x32_S20000x32x1_0_1 : (⟨S20000x32, .f32⟩ : BufTy).Contents (Elt F) → (⟨S20000x32x1, .f32⟩ : BufTy).Contents (Elt F)),
    StableHlo.unary main_v44 main_v45 (broadcastInDim S20000x32x128 ![0, 1, 2] bcast_S20000x32x1_S20000x32x128_0_1_2 : (⟨S20000x32x1, .f32⟩ : BufTy).Contents (Elt F) → (⟨S20000x32x128, .f32⟩ : BufTy).Contents (Elt F)),
    StableHlo.binary main_v43 main_v45 main_v46 (mulf : (⟨S20000x32x128, .f32⟩ : BufTy).Contents (Elt F) → (⟨S20000x32x128, .f32⟩ : BufTy).Contents (Elt F) → (⟨S20000x32x128, .f32⟩ : BufTy).Contents (Elt F)),
    StableHlo.nullary main_cst_6 (constant S_ .f32 0x00000000#32),
    StableHlo.binary main_v46 main_cst_6 main_v47 ((fun x v => Host.reduceAdd x v reducesTo_S20000x32x128_S20000x128_d1 h_S_) : (⟨S20000x32x128, .f32⟩ : BufTy).Contents (Elt F) → (⟨S_, .f32⟩ : BufTy).Contents (Elt F) → (⟨S20000x128, .f32⟩ : BufTy).Contents (Elt F)),
    StableHlo.nullary main_cst_7 (constant S_ .f32 0x00000000#32),
    StableHlo.binary main_v42 main_cst_7 main_v48 ((fun x v => Host.reduceAdd x v reducesTo_S20000x32_S20000_d1 h_S_) : (⟨S20000x32, .f32⟩ : BufTy).Contents (Elt F) → (⟨S_, .f32⟩ : BufTy).Contents (Elt F) → (⟨S20000, .f32⟩ : BufTy).Contents (Elt F)),
    StableHlo.unary main_v48 main_v49 (broadcastInDim S20000x1 ![0] bcast_S20000_S20000x1_0 : (⟨S20000, .f32⟩ : BufTy).Contents (Elt F) → (⟨S20000x1, .f32⟩ : BufTy).Contents (Elt F)),
    StableHlo.nullary main_cst_8 (constant S_ .f32 0x3F800000#32),
    StableHlo.unary main_cst_8 main_v50 (broadcastInDim S20000x1 ![] bcast_S_S20000x1 : (⟨S_, .f32⟩ : BufTy).Contents (Elt F) → (⟨S20000x1, .f32⟩ : BufTy).Contents (Elt F)),
    StableHlo.binary main_v49 main_v50 main_v51 (maximumf : (⟨S20000x1, .f32⟩ : BufTy).Contents (Elt F) → (⟨S20000x1, .f32⟩ : BufTy).Contents (Elt F) → (⟨S20000x1, .f32⟩ : BufTy).Contents (Elt F)),
    StableHlo.unary main_v51 main_v52 (broadcastInDim S20000x128 ![0, 1] bcast_S20000x1_S20000x128_0_1 : (⟨S20000x1, .f32⟩ : BufTy).Contents (Elt F) → (⟨S20000x128, .f32⟩ : BufTy).Contents (Elt F)),
    StableHlo.binary main_v47 main_v52 main_v53 (Host.divf : (⟨S20000x128, .f32⟩ : BufTy).Contents (Elt F) → (⟨S20000x128, .f32⟩ : BufTy).Contents (Elt F) → (⟨S20000x128, .f32⟩ : BufTy).Contents (Elt F)) ]

end Cert.PosPool.R

end
-- ==== Proof.RefRun.lean ====
/-
  The reference's run: @main is the straight line of its 66 operations, so every weakly fair execution ends with
  each buffer at the fold of the operations' results over the launch contents.
-/
import proofs.«420376_j26259430048619_3_alg».proof.Proof.RefOpsList

noncomputable section

namespace Cert.PosPool.R

open Cert.ReferenceIdeal Cert.ReferenceIdeal.Gen Idealize.ShloMosaic Idealize.ShloMosaic.TcCoe Idealize.SL.Sem Idealize.ShloMosaic.StableHlo

variable {F : FTy → Type} [FloatOps F]

-- one rewrite per statement under the chain of sixty-six binds: the recursion goes as deep as the chain is long
set_option maxRecDepth 2048 in
/-- @main is its two windows in order, and the one call in the first window is the callee's three statements over
    the call's record. With the windows and the callee opened, both sides are a single chain of operation steps;
    they differ only in how the sequencing is bracketed, which associativity of bind and the left unit law remove
    (`bind_assoc`, `pure_bind`). After that the two sides are the same term. -/
theorem main_eq (c : Dev nD) : main (F := F) c = seq ops := by
  simp only [main, main_part0, main_part1, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Each operation reads and writes only references of the TensorCore's table: one fact per operation, in the
    list's order, chosen by the operation's arity (a reshape has its own). The rows below follow the stages of the
    computation. -/
theorem ops_sub : (ops : List (HloOp τ sig (Elt F))).Forall fun op => op.bufs ⊆ tcRefs τ sig :=
  ⟨-- 1–13: the relative position, its squared length appended as a fourth channel, divided by the four scales
    nullary_bufs_sub .., unary_bufs_sub .., unary_bufs_sub .., unary_bufs_sub .., binary_bufs_sub .., binary_bufs_sub ..,
    nullary_bufs_sub .., binary_bufs_sub .., unary_bufs_sub .., binary_bufs_sub .., unary_bufs_sub .., unary_bufs_sub ..,
    binary_bufs_sub ..,
    -- 14–20: the contraction over the 64 features, flattened to 640000 rows, and its mean per channel
    binary_bufs_sub .., reshape_bufs_sub .., nullary_bufs_sub .., binary_bufs_sub .., nullary_bufs_sub .., unary_bufs_sub ..,
    binary_bufs_sub ..,
    -- 21–29: the variance per channel: centred, squared, summed over the rows, divided by their number
    unary_bufs_sub .., unary_bufs_sub .., binary_bufs_sub .., binary_bufs_sub .., nullary_bufs_sub .., binary_bufs_sub ..,
    nullary_bufs_sub .., unary_bufs_sub .., binary_bufs_sub ..,
    -- 30–39: centred again at full rank, times the reciprocal square root of variance plus epsilon
    unary_bufs_sub .., unary_bufs_sub .., binary_bufs_sub .., nullary_bufs_sub .., unary_bufs_sub .., binary_bufs_sub ..,
    unary_bufs_sub .., unary_bufs_sub .., unary_bufs_sub .., binary_bufs_sub ..,
    -- 40–45: times the scale, plus the shift, each broadcast along the channel axis
    unary_bufs_sub .., unary_bufs_sub .., binary_bufs_sub .., unary_bufs_sub .., unary_bufs_sub .., binary_bufs_sub ..,
    -- 46–48: the called function's three: zero, its broadcast, the maximum with it
    nullary_bufs_sub .., unary_bufs_sub .., binary_bufs_sub ..,
    -- 49–51: the four geometry channels repeated 32 times to fill the 128
    reshape_bufs_sub .., unary_bufs_sub .., reshape_bufs_sub ..,
    -- 52–58: the mask as a float, the product of the three factors, summed over the 32 neighbours
    unary_bufs_sub .., binary_bufs_sub .., unary_bufs_sub .., unary_bufs_sub .., binary_bufs_sub .., nullary_bufs_sub ..,
    binary_bufs_sub ..,
    -- 59–66: the neighbour count, bounded below by one, and the quotient
    nullary_bufs_sub .., binary_bufs_sub .., unary_bufs_sub .., nullary_bufs_sub .., unary_bufs_sub .., binary_bufs_sub ..,
    unary_bufs_sub .., binary_bufs_sub ..⟩

/-- Every weakly fair execution of @main terminates, and every final state has each buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.PosPool.R

end
-- ==== Proof.RefKeep.lean ====
/-
  The reference's operations write none of the seven argument buffers: the fold of the 66 operations leaves each as
  the valuation has it.
-/
import proofs.«420376_j26259430048619_3_alg».proof.Proof.RefOpsList
import Idealize.ShloMosaic.PureOps.Ideal

noncomputable section

namespace Cert.PosPool.R

open Cert.ReferenceIdeal Cert.ReferenceIdeal.Gen Idealize.ShloMosaic Idealize.ShloMosaic.TcCoe Idealize.SL.Sem Idealize.ShloMosaic.StableHlo

/-- Each operation writes exactly one buffer, its result's (`nullary_writes` … `reshape_writes`; the called function's
    three are the same builders at the call's record). A buffer that no operation of the line writes keeps its contents
    through the fold (`after_of_forall_not_mem`), so it is enough that the argument's buffer is none of the 66 result
    buffers. Distinct references are distinct device buffers (`devRef_ne_of_ne`), and which reference is which is
    decided: the arguments are entries 0 … 6 of the HBM table and the 66 result buffers are its entries 7 … 72, each once
    (the called function's three are 52, 53, 54). -/
theorem arg0_eq (V : Valuation τ sig (Elt Ideal)) : after (ops (F := Ideal)) V (main_arg0 : DevRef τ sig) = V (main_arg0 : DevRef τ sig) :=
  after_of_forall_not_mem (b := Proc.devRef .tc main_arg0) _ _ (List.forall_iff_forall_mem.mp (by
    simp only [ops, List.Forall, nullary_writes, unary_writes, binary_writes, reshape_writes, Finset.mem_singleton]
    repeat' apply And.intro
    all_goals exact devRef_ne_of_ne (by decide)))

/-- Likewise: the second argument's buffer is none of the 66 result buffers. -/
theorem arg1_eq (V : Valuation τ sig (Elt Ideal)) : after (ops (F := Ideal)) V (main_arg1 : DevRef τ sig) = V (main_arg1 : DevRef τ sig) :=
  after_of_forall_not_mem (b := Proc.devRef .tc main_arg1) _ _ (List.forall_iff_forall_mem.mp (by
    simp only [ops, List.Forall, nullary_writes, unary_writes, binary_writes, reshape_writes, Finset.mem_singleton]
    repeat' apply And.intro
    all_goals exact devRef_ne_of_ne (by decide)))

/-- Likewise: the third argument's buffer is none of the 66 result buffers. -/
theorem arg2_eq (V : Valuation τ sig (Elt Ideal)) : after (ops (F := Ideal)) V (main_arg2 : DevRef τ sig) = V (main_arg2 : DevRef τ sig) :=
  after_of_forall_not_mem (b := Proc.devRef .tc main_arg2) _ _ (List.forall_iff_forall_mem.mp (by
    simp only [ops, List.Forall, nullary_writes, unary_writes, binary_writes, reshape_writes, Finset.mem_singleton]
    repeat' apply And.intro
    all_goals exact devRef_ne_of_ne (by decide)))

/-- Likewise: the fourth argument's buffer is none of the 66 result buffers. -/
theorem arg3_eq (V : Valuation τ sig (Elt Ideal)) : after (ops (F := Ideal)) V (main_arg3 : DevRef τ sig) = V (main_arg3 : DevRef τ sig) :=
  after_of_forall_not_mem (b := Proc.devRef .tc main_arg3) _ _ (List.forall_iff_forall_mem.mp (by
    simp only [ops, List.Forall, nullary_writes, unary_writes, binary_writes, reshape_writes, Finset.mem_singleton]
    repeat' apply And.intro
    all_goals exact devRef_ne_of_ne (by decide)))

/-- Likewise: the fifth argument's buffer is none of the 66 result buffers. -/
theorem arg4_eq (V : Valuation τ sig (Elt Ideal)) : after (ops (F := Ideal)) V (main_arg4 : DevRef τ sig) = V (main_arg4 : DevRef τ sig) :=
  after_of_forall_not_mem (b := Proc.devRef .tc main_arg4) _ _ (List.forall_iff_forall_mem.mp (by
    simp only [ops, List.Forall, nullary_writes, unary_writes, binary_writes, reshape_writes, Finset.mem_singleton]
    repeat' apply And.intro
    all_goals exact devRef_ne_of_ne (by decide)))

/-- Likewise: the sixth argument's buffer is none of the 66 result buffers. -/
theorem arg5_eq (V : Valuation τ sig (Elt Ideal)) : after (ops (F := Ideal)) V (main_arg5 : DevRef τ sig) = V (main_arg5 : DevRef τ sig) :=
  after_of_forall_not_mem (b := Proc.devRef .tc main_arg5) _ _ (List.forall_iff_forall_mem.mp (by
    simp only [ops, List.Forall, nullary_writes, unary_writes, binary_writes, reshape_writes, Finset.mem_singleton]
    repeat' apply And.intro
    all_goals exact devRef_ne_of_ne (by decide)))

/-- Likewise: the seventh argument's buffer is none of the 66 result buffers. -/
theorem arg6_eq (V : Valuation τ sig (Elt Ideal)) : after (ops (F := Ideal)) V (main_arg6 : DevRef τ sig) = V (main_arg6 : DevRef τ sig) :=
  after_of_forall_not_mem (b := Proc.devRef .tc main_arg6) _ _ (List.forall_iff_forall_mem.mp (by
    simp only [ops, List.Forall, nullary_writes, unary_writes, binary_writes, reshape_writes, Finset.mem_singleton]
    repeat' apply And.intro
    all_goals exact devRef_ne_of_ne (by decide)))

end Cert.PosPool.R

end
-- ==== Proof.RefData.lean ====
/-
  The pieces of the data that both programs compute by the same host operations, as single terms over the
  reference's shapes: the geometric encoding, the mask as floats and the clamped mask count.
-/
import proofs.«420376_j26259430048619_3_alg».proof.Proof.Spec
import proofs.«420376_j26259430048619_3_alg».proof.Proof.Gen.ReferenceIdeal

noncomputable section

namespace Cert.PosPool.R

open Cert.ReferenceIdeal Cert.ReferenceIdeal.Gen Idealize.ShloMosaic Idealize.ShloMosaic.TcCoe Idealize.SL.Sem Idealize.ShloMosaic.StableHlo
open Cert.PosPool Idealize.ShloMosaic.ValueIdx

/-- The neighbours' positions relative to their centre: `coords − centers[:, 1:4]`, broadcast along the neighbours. -/
def relR (coords : FVec Ideal S20000x32x3 .f32) (centers : FVec Ideal S20000x4 .f32) : FVec Ideal S20000x32x3 .f32 :=
  subf (F := Ideal) (φ := .f32) coords (broadcastInDim (α := EReal) S20000x32x3 ![0, 1, 2] bcast_S20000x1x3_S20000x32x3_0_1_2
    (broadcastInDim (α := EReal) S20000x1x3 ![0, 2] bcast_S20000x3_S20000x1x3_0_2 (extractStridedSlice (α := EReal) S20000x3 ![0, 1] centers slices_S20000x4_S20000x3_0_1)))

/-- The geometric encoding: the three relative coordinates and their squared length, each divided by its normaliser
    (0.1, 0.1, 0.2, 0.06). Both programs compute it by the same thirteen host operations; it is carried as one term and
    never opened. -/
def geoR (coords : FVec Ideal S20000x32x3 .f32) (centers : FVec Ideal S20000x4 .f32) : FVec Ideal S20000x32x4 .f32 :=
  Host.divf (F := Ideal) (φ := .f32)
    (concatenate (α := EReal) S20000x32x4 2 [⟨S20000x32x3, relR coords centers⟩,
      ⟨S20000x32x1, broadcastInDim (α := EReal) S20000x32x1 ![0, 1] bcast_S20000x32_S20000x32x1_0_1
        (Host.reduceAdd (F := Ideal) (φ := .f32) (mulf (F := Ideal) (φ := .f32) (relR coords centers) (relR coords centers)) (constant (F := Ideal) S_ .f32 0x00000000#32) reducesTo_S20000x32x3_S20000x32_d2 h_S_)⟩]
      concatenates_S20000x32x3_S20000x32x1_S20000x32x4_d2)
    (broadcastInDim (α := EReal) S20000x32x4 ![0, 1, 2] bcast_S1x1x4_S20000x32x4_0_1_2
      (broadcastInDim (α := EReal) S1x1x4 ![2] bcast_S4_S1x1x4_2 (fun i => FloatOps.ofBits (F := Ideal) .f32 (lit0 (S4.rowMajor i)))))

/-- The mask as floats. -/
def mfR (mask : IVec S20000x32 32) : FVec Ideal S20000x32 .f32 := sitofp (F := Ideal) .f32 mask

/-- The clamped mask count `max (Σₛ mask, 1)`, as a column. -/
def denR (mask : IVec S20000x32 32) : FVec Ideal S20000x1 .f32 :=
  maximumf (F := Ideal) (φ := .f32)
    (broadcastInDim (α := EReal) S20000x1 ![0] bcast_S20000_S20000x1_0
      (Host.reduceAdd (F := Ideal) (φ := .f32) (mfR mask) (constant (F := Ideal) S_ .f32 0x00000000#32) reducesTo_S20000x32_S20000_d1 h_S_))
    (broadcastInDim (α := EReal) S20000x1 ![] bcast_S_S20000x1 (constant (F := Ideal) S_ .f32 0x3F800000#32))

/-- The data of the specification, from the seven argument arrays. -/
def dataR (a0 : FVec Ideal S20000x32x64 .f32) (a1 : FVec Ideal S20000x32x3 .f32) (a2 : FVec Ideal S20000x4 .f32)
    (a3 : IVec S20000x32 32) (a4 : FVec Ideal S128x64 .f32) (a5 a6 : FVec Ideal S128 .f32) : Data where
  feat := a0
  W := a4
  gamma := a5
  beta := a6
  geo := geoR a1 a2
  mf := mfR a3
  den := denR a3

end Cert.PosPool.R

end
-- ==== Proof.RefStats.lean ====
/-
  The reference's linear layer and its batch statistics as named stages of the argument arrays, read at an index: the
  layer is the contraction over the 64 features; the mean of channel `d` is the sum over the 640000 rows divided by
  the row count; the variance is the mean of the squared deviations from that mean. The 640000 rows are the
  (centre, neighbour) pairs in row-major order: row `q` is centre `q / 32`, neighbour `q % 32`.
-/
import proofs.«420376_j26259430048619_3_alg».proof.Proof.Spec
import proofs.«420376_j26259430048619_3_alg».proof.Proof.Gen.ReferenceIdeal
import Idealize.ShloMosaic.Lib.Pipeline.Value
import Idealize.ShloMosaic.PureOps.Ideal.Laws
import Idealize.ShloMosaic.Lib.IdealHost

noncomputable section

namespace Cert.PosPool.R

open Cert.ReferenceIdeal Cert.ReferenceIdeal.Gen Idealize.ShloMosaic Idealize.ShloMosaic.TcCoe Idealize.SL.Sem Idealize.ShloMosaic.StableHlo
open Cert.PosPool Idealize.ShloMosaic.ValueIdx

/-- The linear layer. -/
def xR (a0 : FVec Ideal S20000x32x64 .f32) (a4 : FVec Ideal S128x64 .f32) : FVec Ideal S20000x32x128 .f32 :=
  Host.dotGeneral (F := Ideal) dot_S20000x32x64_S128x64_S20000x32x128_2_1_01_0_n_n none a0 a4

/-- The layer's output as 640000 rows. -/
def xRows (a0 : FVec Ideal S20000x32x64 .f32) (a4 : FVec Ideal S128x64 .f32) : FVec Ideal S640000x128 .f32 :=
  shapeCast S640000x128 (xR a0 a4) shapeCasts_S20000x32x128_S640000x128

/-- The channel means. -/
def muArr (a0 : FVec Ideal S20000x32x64 .f32) (a4 : FVec Ideal S128x64 .f32) : FVec Ideal S128 .f32 :=
  Host.divf (F := Ideal)
    (Host.reduceAdd (F := Ideal) (xRows a0 a4) (constant (F := Ideal) S_ .f32 0x00000000#32) reducesTo_S640000x128_S128_d0 h_S_)
    (broadcastInDim S128 ![] bcast_S_S128 (constant (F := Ideal) S_ .f32 0x491C4000#32))

/-- The rows' deviations from the channel means. -/
def devRows (a0 : FVec Ideal S20000x32x64 .f32) (a4 : FVec Ideal S128x64 .f32) : FVec Ideal S640000x128 .f32 :=
  subf (F := Ideal) (xRows a0 a4)
    (broadcastInDim S640000x128 ![0, 1] bcast_S1x128_S640000x128_0_1 (broadcastInDim S1x128 ![1] bcast_S128_S1x128_1 (muArr a0 a4)))

/-- The channel variances: the mean of the squared deviations. -/
def varArr (a0 : FVec Ideal S20000x32x64 .f32) (a4 : FVec Ideal S128x64 .f32) : FVec Ideal S128 .f32 :=
  Host.divf (F := Ideal)
    (Host.reduceAdd (F := Ideal) (mulf (F := Ideal) (devRows a0 a4) (devRows a0 a4)) (constant (F := Ideal) S_ .f32 0x00000000#32) reducesTo_S640000x128_S128_d0 h_S_)
    (broadcastInDim S128 ![] bcast_S_S128 (constant (F := Ideal) S_ .f32 0x491C4000#32))

variable (a0 : FVec Ideal S20000x32x64 .f32) (a4 : FVec Ideal S128x64 .f32)

/-! ## The linear layer at an index

The contraction's two operand indices, axis by axis: the features are read at the output's centre and neighbour and at
the contracted coordinate; the weights at the output's channel and at the contracted coordinate. -/

theorem lhs_xR_0 (i : S20000x32x128.Idx) (q : dot_S20000x32x64_S128x64_S20000x32x128_2_1_01_0_n_n.contr.Idx) :
    (dot_S20000x32x64_S128x64_S20000x32x128_2_1_01_0_n_n.lhsIdx i q 0).val = (i 0).val := by
  unfold DotDims.lhsIdx
  rw [dif_neg (show ¬(0 : Fin S20000x32x64.rank) ∈ dot_S20000x32x64_S128x64_S20000x32x128_2_1_01_0_n_n.lhsBatch by decide), dif_pos (show (0 : Fin S20000x32x64.rank) ∈ dot_S20000x32x64_S128x64_S20000x32x128_2_1_01_0_n_n.lhsNonContracting by decide)]
  rfl

theorem lhs_xR_1 (i : S20000x32x128.Idx) (q : dot_S20000x32x64_S128x64_S20000x32x128_2_1_01_0_n_n.contr.Idx) :
    (dot_S20000x32x64_S128x64_S20000x32x128_2_1_01_0_n_n.lhsIdx i q 1).val = (i 1).val := by
  unfold DotDims.lhsIdx
  rw [dif_neg (show ¬(1 : Fin S20000x32x64.rank) ∈ dot_S20000x32x64_S128x64_S20000x32x128_2_1_01_0_n_n.lhsBatch by decide), dif_pos (show (1 : Fin S20000x32x64.rank) ∈ dot_S20000x32x64_S128x64_S20000x32x128_2_1_01_0_n_n.lhsNonContracting by decide)]
  rfl

theorem lhs_xR_2 (i : S20000x32x128.Idx) (q : dot_S20000x32x64_S128x64_S20000x32x128_2_1_01_0_n_n.contr.Idx) :
    (dot_S20000x32x64_S128x64_S20000x32x128_2_1_01_0_n_n.lhsIdx i q 2).val = (q ⟨0, by decide⟩).val :=
  dot_S20000x32x64_S128x64_S20000x32x128_2_1_01_0_n_n.lhsIdx_val_of_single rfl i q

theorem rhs_xR_0 (i : S20000x32x128.Idx) (q : dot_S20000x32x64_S128x64_S20000x32x128_2_1_01_0_n_n.contr.Idx) :
    (dot_S20000x32x64_S128x64_S20000x32x128_2_1_01_0_n_n.rhsIdx i q 0).val = (i 2).val := by
  unfold DotDims.rhsIdx
  rw [dif_neg (show ¬(0 : Fin S128x64.rank) ∈ dot_S20000x32x64_S128x64_S20000x32x128_2_1_01_0_n_n.rhsBatch by decide), dif_pos (show (0 : Fin S128x64.rank) ∈ dot_S20000x32x64_S128x64_S20000x32x128_2_1_01_0_n_n.rhsNonContracting by decide)]
  rfl

theorem rhs_xR_1 (i : S20000x32x128.Idx) (q : dot_S20000x32x64_S128x64_S20000x32x128_2_1_01_0_n_n.contr.Idx) :
    (dot_S20000x32x64_S128x64_S20000x32x128_2_1_01_0_n_n.rhsIdx i q 1).val = (q ⟨0, by decide⟩).val :=
  dot_S20000x32x64_S128x64_S20000x32x128_2_1_01_0_n_n.rhsIdx_val_of_single rfl i q

/-- The layer at (centre, neighbour, channel) is the sum over the 64 features of feature times weight: the
    contraction's sum re-indexed by its one coordinate. -/
theorem xR_apply (n : Fin 20000) (s : Fin 32) (d : Fin 128) :
    xR a0 a4 (ix3 n s d) = ∑ k : Fin 64, a0 (ix3 n s k) * a4 (ix2 d k) := by
  unfold xR
  simp only [Host.dotGeneral]
  rw [Ideal.dotGeneral_apply, ← Equiv.sum_comp (contrEquiv1 dot_S20000x32x64_S128x64_S20000x32x128_2_1_01_0_n_n 64 rfl rfl).symm]
  refine Finset.sum_congr rfl fun k _ => ?_
  have hk := contrEquiv1_symm_val dot_S20000x32x64_S128x64_S20000x32x128_2_1_01_0_n_n 64 rfl rfl k
  have el : dot_S20000x32x64_S128x64_S20000x32x128_2_1_01_0_n_n.lhsIdx (ix3 n s d) ((contrEquiv1 dot_S20000x32x64_S128x64_S20000x32x128_2_1_01_0_n_n 64 rfl rfl).symm k) = ix3 n s k := funext fun a => Fin.ext (by
    match a with
    | ⟨0, _⟩ => exact lhs_xR_0 _ _
    | ⟨1, _⟩ => exact lhs_xR_1 _ _
    | ⟨2, _⟩ => exact (lhs_xR_2 _ _).trans hk)
  have er : dot_S20000x32x64_S128x64_S20000x32x128_2_1_01_0_n_n.rhsIdx (ix3 n s d) ((contrEquiv1 dot_S20000x32x64_S128x64_S20000x32x128_2_1_01_0_n_n 64 rfl rfl).symm k) = ix2 d k := funext fun a => Fin.ext (by
    match a with
    | ⟨0, _⟩ => exact rhs_xR_0 _ _
    | ⟨1, _⟩ => exact (rhs_xR_1 _ _).trans hk)
  rw [el, er]

/-! ## The rows -/

/-- Row `q`, channel `d` of the reshaped array is the layer at centre `q / 32`, neighbour `q % 32`: both sit at the
    row-major position `q · 128 + d = ((q / 32) · 32 + q % 32) · 128 + d`. -/
theorem xRows_apply (q : Fin 640000) (d : Fin 128) : xRows a0 a4 (ix2 q d) = xR a0 a4 (ix3 (rowN q) (rowS q) d) := by
  unfold xRows
  refine shapeCast_apply _ _ (ix2 q d) (ix3 (rowN q) (rowS q) d) ?_
  rw [Shape.rowMajor_val_three, Shape.rowMajor_val_two]
  show ((q.val / 32) * 32 + q.val % 32) * 128 + d.val = q.val * 128 + d.val
  omega

/-! ## The channel statistics -/

/-- The index the sum over the rows inserts: row `q` put in front of channel `d`. -/
theorem lift_rows (h : S640000x128.Reduces [0] S128) (d : Fin 128) (q : Fin 640000) : h.lift (ix1 d) q = ix2 q d :=
  funext fun a => Fin.ext (by match a with | ⟨0, _⟩ => rfl | ⟨1, _⟩ => rfl)

/-- The divisor is the row count's word at every channel: a broadcast scalar reads the scalar. -/
theorem cntArr_apply (d : Fin 128) :
    broadcastInDim S128 ![] bcast_S_S128 (constant (F := Ideal) S_ .f32 0x491C4000#32) (ix1 d) = cnt := by
  rw [broadcastInDim_scalar_apply, constant_apply]

/-- The sum over axis 0 of a 640000 × 128 array from the zero word, at channel `d`: the sum over the rows. -/
theorem sumRows_apply (x : FVec Ideal S640000x128 .f32) (d : Fin 128) :
    Host.reduceAdd (F := Ideal) x (constant (F := Ideal) S_ .f32 0x00000000#32) reducesTo_S640000x128_S128_d0 h_S_ (ix1 d)
      = ∑ q : Fin 640000, x (ix2 q d) := by
  rw [hostReduceAdd_apply, Ideal.hostReduceAdd_single reducesTo_S640000x128_S128_d0 (by decide), constant_apply,
    Ideal.ofBits_zero_f32, zero_add]
  exact Finset.sum_congr rfl fun q _ => congrArg x (lift_rows _ d q)

/-- The mean of channel `d`: the sum of the layer over the 640000 rows, divided by the row count. -/
theorem muArr_apply (d : Fin 128) :
    muArr a0 a4 (ix1 d) = Ideal.div (∑ q : Fin 640000, xR a0 a4 (ix3 (rowN q) (rowS q) d)) cnt := by
  unfold muArr
  rw [hostDivf_apply, sumRows_apply, cntArr_apply]
  exact congrArg (Ideal.div · cnt) (Finset.sum_congr rfl fun q _ => xRows_apply a0 a4 q d)

/-- The deviation of row `q`, channel `d`: the row's value less the channel's mean (the mean is laid along a unit
    row axis and then down the 640000 rows, so it is read at channel `d` whatever the row). -/
theorem devRows_apply (q : Fin 640000) (d : Fin 128) :
    devRows a0 a4 (ix2 q d) = xR a0 a4 (ix3 (rowN q) (rowS q) d) - muArr a0 a4 (ix1 d) := by
  unfold devRows
  rw [subf_apply, xRows_apply]
  refine congrArg (xR a0 a4 (ix3 (rowN q) (rowS q) d) - ·) ?_
  refine (broadcastInDim_apply ![0, 1] bcast_S1x128_S640000x128_0_1 _ (ix2 q d) (ix2 (0 : Fin 1) d) (fun a => by
    match a with
    | ⟨0, _⟩ => rfl
    | ⟨1, _⟩ => rfl)).trans ?_
  exact broadcastInDim_apply ![1] bcast_S128_S1x128_1 _ (ix2 (0 : Fin 1) d) (ix1 d) (fun a => by
    match a with
    | ⟨0, _⟩ => rfl)

/-- The variance of channel `d`: the sum over the 640000 rows of the squared deviations, divided by the row count. -/
theorem varArr_apply (d : Fin 128) :
    varArr a0 a4 (ix1 d)
      = Ideal.div (∑ q : Fin 640000, (xR a0 a4 (ix3 (rowN q) (rowS q) d) - muArr a0 a4 (ix1 d)) * (xR a0 a4 (ix3 (rowN q) (rowS q) d) - muArr a0 a4 (ix1 d))) cnt := by
  unfold varArr
  rw [hostDivf_apply, sumRows_apply, cntArr_apply]
  refine congrArg (Ideal.div · cnt) (Finset.sum_congr rfl fun q _ => ?_)
  rw [mulf_apply, devRows_apply]

end Cert.PosPool.R

end
-- ==== Proof.RefTile.lean ====
/-
  The reference's tiling of the geometric encoding along the channels, read at an index: [20000, 32, 4] is reshaped
  to [1, 20000, 1, 32, 1, 4], its unit axis 4 broadcast to 32, and the result reshaped to [20000, 32, 128]; channel
  `d = 4·(d / 4) + d % 4` of neighbour `s` of centre `n` holds component `d % 4` of that neighbour's encoding.
-/
import proofs.«420376_j26259430048619_3_alg».proof.Proof.Spec
import proofs.«420376_j26259430048619_3_alg».proof.Proof.Gen.ReferenceIdeal
import Idealize.ShloMosaic.Lib.Pipeline.Value
import Idealize.ShloMosaic.Lib.ValueIdxRank6

noncomputable section

namespace Cert.PosPool.R

open Cert.ReferenceIdeal Cert.ReferenceIdeal.Gen Idealize.ShloMosaic Idealize.ShloMosaic.TcCoe Idealize.SL.Sem Idealize.ShloMosaic.StableHlo
open Cert.PosPool Idealize.ShloMosaic.ValueIdx

/-- The row-major position of a rank-3 index, by its coordinates. -/
theorem pos_ix3 {n0 n1 n2 : Nat} (a : Fin n0) (b : Fin n1) (c : Fin n2) :
    ((⟨3, ![n0, n1, n2]⟩ : Shape).rowMajor (ix3 a b c)).val = (a.val * n1 + b.val) * n2 + c.val := by
  rw [Shape.rowMajor_val_three]
  rfl

/-- The row-major position of a rank-6 index, by its coordinates. -/
theorem pos_ix6 {n0 n1 n2 n3 n4 n5 : Nat} (a : Fin n0) (b : Fin n1) (c : Fin n2) (d : Fin n3) (e : Fin n4) (f : Fin n5) :
    ((⟨6, ![n0, n1, n2, n3, n4, n5]⟩ : Shape).rowMajor (ix6 a b c d e f)).val
      = ((((a.val * n1 + b.val) * n2 + c.val) * n3 + d.val) * n4 + e.val) * n5 + f.val := by
  rw [Shape.rowMajor_val_six]
  rfl

theorem tile_apply (g : FVec Ideal S20000x32x4 .f32) (n : Fin 20000) (s : Fin 32) (d : Fin 128) :
    shapeCast (α := EReal) S20000x32x128
        (broadcastInDim (α := EReal) S1x20000x1x32x32x4 ![0, 1, 2, 3, 4, 5] bcast_S1x20000x1x32x1x4_S1x20000x1x32x32x4_0_1_2_3_4_5
          (shapeCast (α := EReal) S1x20000x1x32x1x4 g shapeCasts_S20000x32x4_S1x20000x1x32x1x4))
        shapeCasts_S1x20000x1x32x32x4_S20000x32x128 (ix3 n s d)
      = g (ix3 n s (ch4 d)) := by
  have hd := d.isLt
  -- channel d = 4·(d / 4) + d % 4: the last reshape reads the broadcast array at (0, n, 0, s, d / 4, d % 4)
  rw [shapeCast_apply _ shapeCasts_S1x20000x1x32x32x4_S20000x32x128 (ix3 n s d)
    (ix6 (0 : Fin 1) n (0 : Fin 1) s (⟨d.val / 4, by omega⟩ : Fin 32) (⟨d.val % 4, by omega⟩ : Fin 4)) (by
      rw [pos_ix6, pos_ix3]
      simp only [Fin.val_zero]
      omega)]
  -- the broadcast along the unit axis forgets d / 4
  rw [broadcastInDim_apply _ bcast_S1x20000x1x32x1x4_S1x20000x1x32x32x4_0_1_2_3_4_5 _ _
    (ix6 (0 : Fin 1) n (0 : Fin 1) s (0 : Fin 1) (⟨d.val % 4, by omega⟩ : Fin 4)) (by
      intro a
      match a with
      | ⟨0, _⟩ => rfl
      | ⟨1, _⟩ => rfl
      | ⟨2, _⟩ => rfl
      | ⟨3, _⟩ => rfl
      | ⟨4, _⟩ => rfl
      | ⟨5, _⟩ => rfl)]
  -- and the first reshape only inserted unit axes
  rw [shapeCast_apply g shapeCasts_S20000x32x4_S1x20000x1x32x1x4 _ (ix3 n s (ch4 d)) (by
      rw [pos_ix6, pos_ix3]
      simp only [Fin.val_zero, ch4]
      omega)]

end Cert.PosPool.R

end
-- ==== Proof.RefRead.lean ====
/-
  The reference's result read index by index: the fold of its 66 operations at the result buffer is the textbook
  form `outR` of the argument arrays.

  The road: the fold is one term of the seven argument arrays (`refTerm`), composed of the shared stages — the linear
  layer, its channel means and variances, the geometric encoding, the mask as floats and the clamped count — which are
  never opened here. That term is then read at (centre n, channel d), outermost operation first: a quotient; a sum over
  the 32 neighbours; three products; a maximum with zero; the normalisation (x − μ) · rsqrt (var + ε) · γ + β, whose
  four channel arrays are broadcasts of [128] arrays; the encoding tiled with period 4 along the channels; the mask and
  the count copied along the channels. The specification's `lin`, `muR`, `varR` of the data are the layer, the mean
  and the variance stages read at an index, so the two sides meet term by term.
-/
import proofs.«420376_j26259430048619_3_alg».proof.Proof.RefOpsList
import proofs.«420376_j26259430048619_3_alg».proof.Proof.RefData
import proofs.«420376_j26259430048619_3_alg».proof.Proof.RefStats
import proofs.«420376_j26259430048619_3_alg».proof.Proof.RefTile
import Idealize.ShloMosaic.Lib.Pipeline.Value
import Idealize.ShloMosaic.Lib.IdealHost
import Idealize.ShloMosaic.PureOps.Ideal.Laws

noncomputable section

namespace Cert.PosPool.R

open Cert.ReferenceIdeal Cert.ReferenceIdeal.Gen Idealize.ShloMosaic Idealize.ShloMosaic.TcCoe Idealize.SL.Sem Idealize.ShloMosaic.StableHlo
open Cert.PosPool Idealize.ShloMosaic.ValueIdx

/-- The specification's data, read off a valuation's argument buffers. -/
def dataV (V : Valuation τ sig (Elt Ideal)) : Data :=
  dataR (V (main_arg0 : DevRef τ sig)) (V (main_arg1 : DevRef τ sig)) (V (main_arg2 : DevRef τ sig)) (V (main_arg3 : DevRef τ sig))
    (V (main_arg4 : DevRef τ sig)) (V (main_arg5 : DevRef τ sig)) (V (main_arg6 : DevRef τ sig))

/-! ## The reference as one term of the argument arrays -/

/-- A [128] array laid along the channels of the [20000, 32, 128] layer: entry (n, s, d) is the array at d. -/
def chanR (x : FVec Ideal S128 .f32) : FVec Ideal S20000x32x128 .f32 :=
  broadcastInDim (α := EReal) S20000x32x128 ![0, 1, 2] bcast_S1x1x128_S20000x32x128_0_1_2
    (broadcastInDim (α := EReal) S1x1x128 ![2] bcast_S128_S1x1x128_2 x)

/-- rsqrt (var + ε), channel by channel. -/
def rinvR (a0 : FVec Ideal S20000x32x64 .f32) (a4 : FVec Ideal S128x64 .f32) : FVec Ideal S128 .f32 :=
  Host.rsqrt (F := Ideal) (φ := .f32)
    (addf (F := Ideal) (φ := .f32) (varArr a0 a4)
      (broadcastInDim (α := EReal) S128 ![] bcast_S_S128 (constant (F := Ideal) S_ .f32 0x3727C5AC#32)))

/-- The normalised layer (x − μ) · rsqrt (var + ε) · γ + β. -/
def normR (a0 : FVec Ideal S20000x32x64 .f32) (a4 : FVec Ideal S128x64 .f32) (a5 a6 : FVec Ideal S128 .f32) :
    FVec Ideal S20000x32x128 .f32 :=
  addf (F := Ideal) (φ := .f32)
    (mulf (F := Ideal) (φ := .f32)
      (mulf (F := Ideal) (φ := .f32) (subf (F := Ideal) (φ := .f32) (xR a0 a4) (chanR (muArr a0 a4))) (chanR (rinvR a0 a4)))
      (chanR a5))
    (chanR a6)

/-- The rectifier: the maximum with the zero word broadcast everywhere. -/
def reluR (a0 : FVec Ideal S20000x32x64 .f32) (a4 : FVec Ideal S128x64 .f32) (a5 a6 : FVec Ideal S128 .f32) :
    FVec Ideal S20000x32x128 .f32 :=
  maximumf (F := Ideal) (φ := .f32) (normR a0 a4 a5 a6)
    (broadcastInDim (α := EReal) S20000x32x128 ![] bcast_S_S20000x32x128 (constant (F := Ideal) S_ .f32 0x00000000#32))

/-- The encoding repeated along the channels with period 4: [20000, 32, 4] seen as [1, 20000, 1, 32, 1, 4], copied 32
    times along the fifth axis, and flattened back to [20000, 32, 128]. -/
def geoTile (g : FVec Ideal S20000x32x4 .f32) : FVec Ideal S20000x32x128 .f32 :=
  shapeCast S20000x32x128
    (broadcastInDim (α := EReal) S1x20000x1x32x32x4 ![0, 1, 2, 3, 4, 5] bcast_S1x20000x1x32x1x4_S1x20000x1x32x32x4_0_1_2_3_4_5
      (shapeCast S1x20000x1x32x1x4 g shapeCasts_S20000x32x4_S1x20000x1x32x1x4))
    shapeCasts_S1x20000x1x32x32x4_S20000x32x128

/-- The mask copied along the channels. -/
def maskTile (m : FVec Ideal S20000x32 .f32) : FVec Ideal S20000x32x128 .f32 :=
  broadcastInDim (α := EReal) S20000x32x128 ![0, 1, 2] bcast_S20000x32x1_S20000x32x128_0_1_2
    (broadcastInDim (α := EReal) S20000x32x1 ![0, 1] bcast_S20000x32_S20000x32x1_0_1 m)

/-- The pooled numerator's summand as an array. -/
def prodR (a0 : FVec Ideal S20000x32x64 .f32) (a1 : FVec Ideal S20000x32x3 .f32) (a2 : FVec Ideal S20000x4 .f32)
    (a3 : IVec S20000x32 32) (a4 : FVec Ideal S128x64 .f32) (a5 a6 : FVec Ideal S128 .f32) : FVec Ideal S20000x32x128 .f32 :=
  mulf (F := Ideal) (φ := .f32) (mulf (F := Ideal) (φ := .f32) (reluR a0 a4 a5 a6) (geoTile (geoR a1 a2))) (maskTile (mfR a3))

/-- The whole reference as one term of the seven argument arrays. -/
def refTerm (a0 : FVec Ideal S20000x32x64 .f32) (a1 : FVec Ideal S20000x32x3 .f32) (a2 : FVec Ideal S20000x4 .f32)
    (a3 : IVec S20000x32 32) (a4 : FVec Ideal S128x64 .f32) (a5 a6 : FVec Ideal S128 .f32) : FVec Ideal S20000x128 .f32 :=
  Host.divf (F := Ideal) (φ := .f32)
    (Host.reduceAdd (F := Ideal) (φ := .f32) (prodR a0 a1 a2 a3 a4 a5 a6) (constant (F := Ideal) S_ .f32 0x00000000#32)
      reducesTo_S20000x32x128_S20000x128_d1 h_S_)
    (broadcastInDim (α := EReal) S20000x128 ![0, 1] bcast_S20000x1_S20000x128_0_1 (denR a3))

/-! ## The fold is that term -/

attribute [local irreducible] Host.reduceAdd concatenate in
set_option maxRecDepth 8192 in
/-- The fold of the 66 operations at the result buffer is `refTerm` of the argument buffers: each operation's result is
    its function of the buffers it reads, every other buffer is left as it was, and the stage definitions are literally
    the terms the operations compose. The sums and the concatenation stay folded: the equation never looks inside them. -/
theorem fold_eq (V : Valuation τ sig (Elt Ideal)) :
    (after (ops (F := Ideal)) V (main_v53 : DevRef τ sig) : FVec Ideal S20000x128 .f32)
      = refTerm (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) := by
  after_results_simp
  rfl

/-! ## The stages read at an index -/

/-- A channel array broadcast over centres and neighbours reads the array at the channel. -/
theorem chanR_apply (x : FVec Ideal S128 .f32) (n : Fin 20000) (s : Fin 32) (d : Fin 128) :
    chanR x (ix3 n s d) = x (ix1 d) := by
  unfold chanR
  refine (broadcastInDim_apply (α := EReal) ![0, 1, 2] bcast_S1x1x128_S20000x32x128_0_1_2 _ (ix3 n s d)
    (ix3 (0 : Fin 1) (0 : Fin 1) d) ?_).trans ?_
  · intro a
    match a with
    | ⟨0, _⟩ => rfl
    | ⟨1, _⟩ => rfl
    | ⟨2, _⟩ => rfl
  · refine broadcastInDim_apply (α := EReal) ![2] bcast_S128_S1x1x128_2 x _ (ix1 d) ?_
    intro a
    match a with
    | ⟨0, _⟩ => rfl

/-- The mask copied along the channels reads the mask at (centre, neighbour). -/
theorem maskTile_apply (m : FVec Ideal S20000x32 .f32) (n : Fin 20000) (s : Fin 32) (d : Fin 128) :
    maskTile m (ix3 n s d) = m (ix2 n s) := by
  unfold maskTile
  refine (broadcastInDim_apply (α := EReal) ![0, 1, 2] bcast_S20000x32x1_S20000x32x128_0_1_2 _ (ix3 n s d)
    (ix3 n s (0 : Fin 1)) ?_).trans ?_
  · intro a
    match a with
    | ⟨0, _⟩ => rfl
    | ⟨1, _⟩ => rfl
    | ⟨2, _⟩ => rfl
  · refine broadcastInDim_apply (α := EReal) ![0, 1] bcast_S20000x32_S20000x32x1_0_1 m _ (ix2 n s) ?_
    intro a
    match a with
    | ⟨0, _⟩ => rfl
    | ⟨1, _⟩ => rfl

/-- The count column copied along the channels reads the column at the centre. -/
theorem denCol_apply (c : FVec Ideal S20000x1 .f32) (n : Fin 20000) (d : Fin 128) :
    broadcastInDim (α := EReal) S20000x128 ![0, 1] bcast_S20000x1_S20000x128_0_1 c (ix2 n d) = c (ix2 n (0 : Fin 1)) := by
  refine broadcastInDim_apply (α := EReal) ![0, 1] bcast_S20000x1_S20000x128_0_1 c _ (ix2 n (0 : Fin 1)) ?_
  intro a
  match a with
  | ⟨0, _⟩ => rfl
  | ⟨1, _⟩ => rfl

/-- The tiled encoding reads component d % 4 of the neighbour's encoding. -/
theorem geoTile_apply (g : FVec Ideal S20000x32x4 .f32) (n : Fin 20000) (s : Fin 32) (d : Fin 128) :
    geoTile g (ix3 n s d) = g (ix3 n s (ch4 d)) := tile_apply g n s d

/-- rsqrt (var + ε) at a channel: the host's rsqrt is the ideal one pointwise, and the broadcast scalar is ε. -/
theorem rinvR_apply (a0 : FVec Ideal S20000x32x64 .f32) (a4 : FVec Ideal S128x64 .f32) (d : Fin 128) :
    rinvR a0 a4 (ix1 d) = Ideal.rsqrt (varArr a0 a4 (ix1 d) + eps) := by
  unfold rinvR
  show Ideal.rsqrt (varArr a0 a4 (ix1 d)
    + broadcastInDim (α := EReal) S128 ![] bcast_S_S128 (constant (F := Ideal) S_ .f32 0x3727C5AC#32) (ix1 d)) = _
  rw [broadcastInDim_scalar_apply]
  rfl

/-- The normalised layer at an index. -/
theorem normR_apply (a0 : FVec Ideal S20000x32x64 .f32) (a4 : FVec Ideal S128x64 .f32) (a5 a6 : FVec Ideal S128 .f32)
    (n : Fin 20000) (s : Fin 32) (d : Fin 128) :
    normR a0 a4 a5 a6 (ix3 n s d)
      = (xR a0 a4 (ix3 n s d) - muArr a0 a4 (ix1 d)) * Ideal.rsqrt (varArr a0 a4 (ix1 d) + eps) * a5 (ix1 d) + a6 (ix1 d) := by
  unfold normR
  show (xR a0 a4 (ix3 n s d) - chanR (muArr a0 a4) (ix3 n s d)) * chanR (rinvR a0 a4) (ix3 n s d) * chanR a5 (ix3 n s d)
      + chanR a6 (ix3 n s d) = _
  rw [chanR_apply, chanR_apply, chanR_apply, chanR_apply, rinvR_apply]

/-- The rectified layer at an index: the broadcast zero word is 0. -/
theorem reluR_apply (a0 : FVec Ideal S20000x32x64 .f32) (a4 : FVec Ideal S128x64 .f32) (a5 a6 : FVec Ideal S128 .f32)
    (n : Fin 20000) (s : Fin 32) (d : Fin 128) :
    reluR a0 a4 a5 a6 (ix3 n s d) = max (normR a0 a4 a5 a6 (ix3 n s d)) 0 := by
  unfold reluR
  show max (normR a0 a4 a5 a6 (ix3 n s d))
    (broadcastInDim (α := EReal) S20000x32x128 ![] bcast_S_S20000x32x128 (constant (F := Ideal) S_ .f32 0x00000000#32) (ix3 n s d)) = _
  rw [broadcastInDim_scalar_apply, constant_apply, Ideal.ofBits_zero_f32]

/-- The pooled numerator's summand at an index. -/
theorem prodR_apply (a0 : FVec Ideal S20000x32x64 .f32) (a1 : FVec Ideal S20000x32x3 .f32) (a2 : FVec Ideal S20000x4 .f32)
    (a3 : IVec S20000x32 32) (a4 : FVec Ideal S128x64 .f32) (a5 a6 : FVec Ideal S128 .f32)
    (n : Fin 20000) (s : Fin 32) (d : Fin 128) :
    prodR a0 a1 a2 a3 a4 a5 a6 (ix3 n s d)
      = max (normR a0 a4 a5 a6 (ix3 n s d)) 0 * geoR a1 a2 (ix3 n s (ch4 d)) * mfR a3 (ix2 n s) := by
  unfold prodR
  show reluR a0 a4 a5 a6 (ix3 n s d) * geoTile (geoR a1 a2) (ix3 n s d) * maskTile (mfR a3) (ix3 n s d) = _
  rw [reluR_apply, geoTile_apply, maskTile_apply]

/-- The whole reference at an index: the quotient of the sum over the 32 neighbours by the clamped count. -/
theorem refTerm_apply (a0 : FVec Ideal S20000x32x64 .f32) (a1 : FVec Ideal S20000x32x3 .f32) (a2 : FVec Ideal S20000x4 .f32)
    (a3 : IVec S20000x32 32) (a4 : FVec Ideal S128x64 .f32) (a5 a6 : FVec Ideal S128 .f32) (n : Fin 20000) (d : Fin 128) :
    refTerm a0 a1 a2 a3 a4 a5 a6 (ix2 n d)
      = Ideal.div (∑ s : Fin 32, prodR a0 a1 a2 a3 a4 a5 a6 (ix3 n s d)) (denR a3 (ix2 n (0 : Fin 1))) := by
  unfold refTerm
  have hR : S20000x32x128.Reduces [1] S20000x128 := by decide
  refine (hostDivf_apply _ _ _).trans ?_
  refine congrArg₂ Ideal.div ?_ (denCol_apply (denR a3) n d)
  refine (hostReduceAdd_apply _ _ _ _ _).trans ?_
  refine (Ideal.hostReduceAdd_single reducesTo_S20000x32x128_S20000x128_d1 hR _ _ _).trans ?_
  rw [constant_apply, Ideal.ofBits_zero_f32, zero_add]
  show ∑ k : Fin 32, prodR a0 a1 a2 a3 a4 a5 a6 (hR.lift (ix2 n d) k) = _
  refine Finset.sum_congr rfl fun k _ => congrArg _ ?_
  funext a
  match a with
  | ⟨0, _⟩ => exact Fin.ext rfl
  | ⟨1, _⟩ => exact Fin.ext rfl
  | ⟨2, _⟩ => exact Fin.ext rfl

/-! ## The specification's pieces are the stages -/

theorem lin_eq (a0 : FVec Ideal S20000x32x64 .f32) (a1 : FVec Ideal S20000x32x3 .f32) (a2 : FVec Ideal S20000x4 .f32)
    (a3 : IVec S20000x32 32) (a4 : FVec Ideal S128x64 .f32) (a5 a6 : FVec Ideal S128 .f32) (n : Fin 20000) (s : Fin 32) (d : Fin 128) :
    lin (dataR a0 a1 a2 a3 a4 a5 a6) n s d = xR a0 a4 (ix3 n s d) := (xR_apply a0 a4 n s d).symm

theorem muR_eq (a0 : FVec Ideal S20000x32x64 .f32) (a1 : FVec Ideal S20000x32x3 .f32) (a2 : FVec Ideal S20000x4 .f32)
    (a3 : IVec S20000x32 32) (a4 : FVec Ideal S128x64 .f32) (a5 a6 : FVec Ideal S128 .f32) (d : Fin 128) :
    muR (dataR a0 a1 a2 a3 a4 a5 a6) d = muArr a0 a4 (ix1 d) := by
  rw [muArr_apply]
  unfold muR S1R
  refine congrArg (fun z => Ideal.div z cnt) (Finset.sum_congr rfl fun q _ => ?_)
  exact lin_eq a0 a1 a2 a3 a4 a5 a6 (rowN q) (rowS q) d

theorem varR_eq (a0 : FVec Ideal S20000x32x64 .f32) (a1 : FVec Ideal S20000x32x3 .f32) (a2 : FVec Ideal S20000x4 .f32)
    (a3 : IVec S20000x32 32) (a4 : FVec Ideal S128x64 .f32) (a5 a6 : FVec Ideal S128 .f32) (d : Fin 128) :
    varR (dataR a0 a1 a2 a3 a4 a5 a6) d = varArr a0 a4 (ix1 d) := by
  rw [varArr_apply]
  unfold varR
  refine congrArg (fun z => Ideal.div z cnt) (Finset.sum_congr rfl fun q _ => ?_)
  rw [lin_eq, muR_eq]

/-- The reference's term at (centre, channel) is the textbook form of the data. -/
theorem refTerm_eq_outR (a0 : FVec Ideal S20000x32x64 .f32) (a1 : FVec Ideal S20000x32x3 .f32) (a2 : FVec Ideal S20000x4 .f32)
    (a3 : IVec S20000x32 32) (a4 : FVec Ideal S128x64 .f32) (a5 a6 : FVec Ideal S128 .f32) (n : Fin 20000) (d : Fin 128) :
    refTerm a0 a1 a2 a3 a4 a5 a6 (ix2 n d) = outR (dataR a0 a1 a2 a3 a4 a5 a6) n d := by
  rw [refTerm_apply]
  unfold outR
  refine congrArg₂ Ideal.div (Finset.sum_congr rfl fun s _ => ?_) rfl
  rw [prodR_apply, normR_apply]
  unfold termR
  rw [lin_eq, muR_eq, varR_eq]
  rfl

/-! ## The statement -/

/-- The fold at the result buffer, index by index, is the textbook form. -/
theorem ref_value (V : Valuation τ sig (Elt Ideal)) :
    (after (ops (F := Ideal)) V (main_v53 : DevRef τ sig) : FVec Ideal S20000x128 .f32) = fun j => outR (dataV V) (j 0) (j 1) := by
  funext j
  -- an index of the [20000, 128] result is a pair (centre n, channel d)
  obtain ⟨n, d, rfl⟩ : ∃ (n : Fin 20000) (d : Fin 128), j = ix2 n d := ⟨j 0, j 1, eq_ix2 j⟩
  show (after (ops (F := Ideal)) V (main_v53 : DevRef τ sig) : FVec Ideal S20000x128 .f32) (ix2 n d) = outR (dataV V) n d
  exact (congrFun (fold_eq V) (ix2 n d)).trans (refTerm_eq_outR _ _ _ _ _ _ _ n d)

end Cert.PosPool.R

end
-- ==== Proof.Regroup.lean ====
/-
  The 640000 rows gathered two ways: half by half, tile by tile, row by row of the tile (2 · 50 · 6400), or in order.
  Both enumerate each (centre, neighbour) pair exactly once, so a sum over one is the sum over the other in any
  commutative monoid.
-/
import proofs.«420376_j26259430048619_3_alg».proof.Proof.Spec

noncomputable section

namespace Cert.PosPool

/-- Row `r` of tile `i` of half `h` is row `(h · 50 + i) · 6400 + r` of the 640000; conversely row `q` lies in half
    `q / 320000`, tile `q / 6400 % 50`, at place `q % 6400` of the tile. The two are inverse to each other. -/
def tileRow : Fin 2 × Fin 50 × Fin 6400 ≃ Fin 640000 where
  toFun x := ⟨(x.1.val * 50 + x.2.1.val) * 6400 + x.2.2.val, by
    have := x.1.isLt; have := x.2.1.isLt; have := x.2.2.isLt; omega⟩
  invFun q := (⟨q.val / 320000, by have := q.isLt; omega⟩,
    ⟨q.val / 6400 % 50, Nat.mod_lt _ (by decide)⟩,
    ⟨q.val % 6400, Nat.mod_lt _ (by decide)⟩)
  left_inv := by
    rintro ⟨h, i, r⟩
    have := h.isLt; have := i.isLt; have := r.isLt
    refine Prod.ext (Fin.ext ?_) (Prod.ext (Fin.ext ?_) (Fin.ext ?_)) <;> simp only [] <;> omega
  right_inv := by
    intro q
    have := q.isLt
    refine Fin.ext ?_
    simp only []
    omega

/-- The centre of a tile's row is the centre of the corresponding row of the 640000: 6400 = 200 · 32. -/
theorem rowN_tileRow (h : Fin 2) (i : Fin 50) (r : Fin 6400) : rowN (tileRow (h, i, r)) = tileN h i r := by
  have := r.isLt
  refine Fin.ext ?_
  simp only [rowN, tileN, tileRow, Equiv.coe_fn_mk]
  omega

/-- The neighbour likewise: 6400 is a multiple of 32. -/
theorem rowS_tileRow (h : Fin 2) (i : Fin 50) (r : Fin 6400) : rowS (tileRow (h, i, r)) = tileS r := by
  refine Fin.ext ?_
  simp only [rowS, tileS, tileRow, Equiv.coe_fn_mk]
  omega

theorem sum_tiles_eq_sum_rows {M : Type} [AddCommMonoid M] (f : Fin 20000 → Fin 32 → M) :
    ∑ h : Fin 2, ∑ i : Fin 50, ∑ r : Fin 6400, f (tileN h i r) (tileS r) = ∑ q : Fin 640000, f (rowN q) (rowS q) := by
  -- the triple sum is a sum over triples, and the triples correspond one to one to the rows
  rw [← Fintype.sum_equiv tileRow (fun x => f (tileN x.1 x.2.1 x.2.2) (tileS x.2.2)) (fun q => f (rowN q) (rowS q))
    (fun x => by rw [rowN_tileRow, rowS_tileRow])]
  simp only [Fintype.sum_prod_type]

end Cert.PosPool

end
-- ==== Proof.Algebra.lean ====
/-
  The two arrangements of the computation agree on finite data: the tile-by-tile sums are the row-by-row sums
  regrouped; the mean of squared deviations is `E[x²] − μ²`, which is non-negative, so the clamp is the identity;
  `x · (γ r) + (β − μ (γ r)) = (x − μ) r γ + β` by distributivity over the reals (every quantity finite, `r` the
  reciprocal root of a positive real); and `y · (g · m) = (y · g) · m` on all extended reals.
-/
import proofs.«420376_j26259430048619_3_alg».proof.Proof.Spec
import proofs.«420376_j26259430048619_3_alg».proof.Proof.Regroup
import Idealize.ShloMosaic.PureOps.Ideal.Laws

noncomputable section

namespace Cert.PosPool

open Idealize.ShloMosaic Idealize.ShloMosaic.ValueIdx

namespace Algebra

/-- The row count's pattern denotes the real 640000. -/
theorem cnt_eq : cnt = ((640000 : ℝ) : EReal) := by
  simp [Ideal.ofBits, Ideal.ieee, -EReal.coe_mul]; norm_num

/-- The normalisation's ε denotes a positive real. -/
theorem eps_pos : ∃ e : ℝ, 0 < e ∧ eps = (e : EReal) := by
  refine ⟨(10995116 : ℝ) * (2 : ℝ) ^ (-40 : ℤ), by positivity, ?_⟩
  simp [Ideal.ofBits, Ideal.ieee, -EReal.coe_mul]

/-- The inclusion of the reals in the extended reals carries finite sums to finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals, the mean of the squared deviations from the mean is the mean of the squares less the squared
    mean, when the divisor is the number of terms. -/
theorem var_identity {ι : Type} [Fintype ι] (X : ι → ℝ) (N : ℝ) (hN : (Fintype.card ι : ℝ) = N) (hN0 : N ≠ 0) :
    (∑ q, (X q - (∑ j, X j) * (1 / N)) * (X q - (∑ j, X j) * (1 / N))) * (1 / N)
      = (∑ q, X q * X q) * (1 / N) - (∑ j, X j) * (1 / N) * ((∑ j, X j) * (1 / N)) := by
  set μ : ℝ := (∑ j, X j) * (1 / N) with hμ
  have h1 : ∀ q, (X q - μ) * (X q - μ) = X q * X q - 2 * μ * X q + μ * μ := fun q => by ring
  rw [Finset.sum_congr rfl (fun q _ => h1 q), Finset.sum_add_distrib, Finset.sum_sub_distrib, ← Finset.mul_sum,
    Finset.sum_const, Finset.card_univ, nsmul_eq_mul, hN]
  have h2 : (∑ j, X j) = μ * N := by rw [hμ]; field_simp
  rw [h2]; field_simp; ring

/-- … and it is non-negative: a sum of squares over a positive count. -/
theorem var_nonneg {ι : Type} [Fintype ι] (X : ι → ℝ) (μ N : ℝ) (hN0 : 0 < N) :
    0 ≤ (∑ q, (X q - μ) * (X q - μ)) * (1 / N) :=
  mul_nonneg (Finset.sum_nonneg (fun q _ => mul_self_nonneg _)) (by positivity)

/-- Division by the row count is multiplication by its reciprocal, at every extended real. -/
theorem div_cnt (x : EReal) : Ideal.div x cnt = x * ((1 / 640000 : ℝ) : EReal) := by
  rw [cnt_eq]; exact Ideal.div_coe (by norm_num) x

/-- The mean of a real sum is a real. -/
theorem muOf_coe (s1 : ℝ) : muOf (s1 : EReal) = ((s1 * (1 / 640000) : ℝ) : EReal) := by
  rw [muOf, div_cnt, ← EReal.coe_mul]

/-- The clamped variance of real sums is the unclamped real when that real is non-negative. -/
theorem varOf_coe (s1 s2 : ℝ) (h : 0 ≤ s2 * (1 / 640000) - s1 * (1 / 640000) * (s1 * (1 / 640000))) :
    varOf (s1 : EReal) (s2 : EReal) = ((s2 * (1 / 640000) - s1 * (1 / 640000) * (s1 * (1 / 640000)) : ℝ) : EReal) := by
  rw [varOf, muOf_coe, div_cnt, ← EReal.coe_mul, ← EReal.coe_mul, ← EReal.coe_sub]
  exact max_eq_left (EReal.coe_nonneg.2 h)

/-- The reciprocal root of a non-negative real plus ε is a real. -/
theorem rsqrt_add_eps (v : ℝ) (hv : 0 ≤ v) : ∃ r : ℝ, Ideal.rsqrt ((v : EReal) + eps) = (r : EReal) := by
  obtain ⟨e, he, hee⟩ := eps_pos
  have hpos : 0 < v + e := by linarith
  refine ⟨(Real.sqrt (v + e))⁻¹, ?_⟩
  rw [hee, ← EReal.coe_add, Ideal.rsqrt_coe, if_neg (not_lt.2 hpos.le), if_neg hpos.ne']

/-- The multiply-add with folded coefficients is the normalisation written out, over the reals. -/
theorem fma_identity (x μ r g b : ℝ) : x * (g * r) + (b - μ * (g * r)) = (x - μ) * r * g + b := by ring

end Algebra

open Algebra in
/-- On finite features, weights, γ and β the fused form is the textbook form, whatever the geometric encoding, the
    mask and the count hold. -/
theorem outK_eq_outR (D : Data) (hfeat : ∀ i, ∃ r : ℝ, D.feat i = (r : EReal)) (hW : ∀ i, ∃ r : ℝ, D.W i = (r : EReal))
    (hgamma : ∀ i, ∃ r : ℝ, D.gamma i = (r : EReal)) (hbeta : ∀ i, ∃ r : ℝ, D.beta i = (r : EReal))
    (n : Fin 20000) (d : Fin 128) : outK D n d = outR D n d := by
  choose f hf using hfeat
  choose w hw using hW
  obtain ⟨g, hg⟩ := hgamma (ix1 d)
  obtain ⟨b, hb⟩ := hbeta (ix1 d)
  -- the linear layer's value is a real: a finite sum of products of reals
  have hlin : ∀ n s, lin D n s d = ((∑ k : Fin 64, f (ix3 n s k) * w (ix2 d k) : ℝ) : EReal) := by
    intro n s
    rw [lin, coe_sum]
    exact Finset.sum_congr rfl (fun k _ => by rw [hf, hw, EReal.coe_mul])
  -- the rows' values, in order
  obtain ⟨X, hX⟩ : ∃ X : Fin 640000 → ℝ, ∀ q, lin D (rowN q) (rowS q) d = (X q : EReal) :=
    ⟨fun q => ∑ k : Fin 64, f (ix3 (rowN q) (rowS q) k) * w (ix2 d k), fun q => hlin _ _⟩
  -- the tile-by-tile sums are the row-by-row sums, and both are reals
  have hS1R : S1R D d = ((∑ q, X q : ℝ) : EReal) := by
    rw [S1R, coe_sum]; exact Finset.sum_congr rfl (fun q _ => hX q)
  have hS1K : S1K D d = ((∑ q, X q : ℝ) : EReal) := by
    rw [S1K, sum_tiles_eq_sum_rows (fun n s => lin D n s d)]; exact hS1R
  have hS2K : S2K D d = ((∑ q, X q * X q : ℝ) : EReal) := by
    rw [S2K, sum_tiles_eq_sum_rows (fun n s => lin D n s d * lin D n s d), coe_sum]
    exact Finset.sum_congr rfl (fun q _ => by rw [hX q, EReal.coe_mul])
  -- the two means agree
  have hmuR : muR D d = (((∑ q, X q) * (1 / 640000) : ℝ) : EReal) := by
    rw [muR, hS1R]; exact muOf_coe _
  have hcard : (Fintype.card (Fin 640000) : ℝ) = 640000 := by simp
  -- the two variances agree: the mean of squared deviations is E[x²] − μ², and it is non-negative
  have hvarR : varR D d
      = (((∑ q, (X q - (∑ j, X j) * (1 / 640000)) * (X q - (∑ j, X j) * (1 / 640000))) * (1 / 640000) : ℝ) : EReal) := by
    have hsq : ∀ q, (lin D (rowN q) (rowS q) d - muR D d) * (lin D (rowN q) (rowS q) d - muR D d)
        = (((X q - (∑ j, X j) * (1 / 640000)) * (X q - (∑ j, X j) * (1 / 640000)) : ℝ) : EReal) := by
      intro q; rw [hX q, hmuR, ← EReal.coe_sub, ← EReal.coe_mul]
    rw [varR, div_cnt, Finset.sum_congr rfl (fun q _ => hsq q), ← coe_sum, ← EReal.coe_mul]
  have hid := var_identity X 640000 hcard (by norm_num)
  have hnn := var_nonneg X ((∑ j, X j) * (1 / 640000)) 640000 (by norm_num)
  have hvarK : varOf (S1K D d) (S2K D d) = varR D d := by
    rw [hS1K, hS2K, hvarR, hid]
    exact varOf_coe _ _ (hid ▸ hnn)
  obtain ⟨r, hr⟩ := rsqrt_add_eps _ hnn
  rw [← hvarR] at hr
  -- the summands agree termwise
  have hterm : ∀ s, termK D (scaleK D d) (shiftK D d) n s d = termR D n s d := by
    intro s
    have hmuK : muOf (S1K D d) = muR D d := by rw [hS1K, hmuR]; exact muOf_coe _
    rw [termK, termR, scaleK, shiftK, shiftOf, scaleOf, hvarK, hmuK, hr, hmuR, hg, hb, hlin n s]
    rw [← EReal.coe_mul, ← EReal.coe_mul, ← EReal.coe_mul, ← EReal.coe_sub, ← EReal.coe_add,
      ← EReal.coe_sub, ← EReal.coe_mul, ← EReal.coe_mul, ← EReal.coe_add, fma_identity]
    -- the weight's two factors may be applied one after the other
    exact (mul_assoc _ _ _).symm
  rw [outK, outR, Finset.sum_congr rfl (fun s _ => hterm s)]

end Cert.PosPool

end
-- ==== Proof.Finite.lean ====
/-
  What the precondition gives: every float argument's entries are real numbers.
-/
import proofs.«420376_j26259430048619_3_alg».proof.Defs
import proofs.«420376_j26259430048619_3_alg».proof.Proof.Gen.KernelIdeal
import proofs.«420376_j26259430048619_3_alg».proof.Proof.Gen.Pre_finite_inputs
import Idealize.ShloMosaic.Lib.ReduceAll
import Idealize.ShloMosaic.PureOps.Ideal.Laws

noncomputable section

namespace Cert.PosPool

open Idealize.ShloMosaic Idealize.ShloMosaic.TcCoe Idealize.SL.Sem Cert.KernelIdeal

/-- An extended real x with max x (-x) strictly below the +∞ pattern (which denotes ⊤) is neither ⊤ nor ⊥:
    it is a real number. -/
theorem finite_real_of_abs_lt_inf (x : Ideal .f32)
    (h : FloatOps.cmpf (F := Ideal) .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- The rank-0 shape has exactly one index. -/
theorem finite_rank0_subsingleton : Subsingleton Cert.Pre_finite_inputs.S_.Idx := ⟨fun a b => funext fun d => d.elim0⟩

/-- Under the precondition the features, the weights, γ and β hold real numbers, on every core. -/
theorem finite_of_pre (m : (ℓ : Loc nD τ sig) → Buf (Elt Ideal) ℓ) (h : Cert.Pre_KernelIdeal m) (c : Dev nD) :
    (∀ i, ∃ r : ℝ, (m ((c.tc : Thread nD τ).loc main_arg0) : FVec Ideal S20000x32x64 .f32) i = (r : EReal))
    ∧ (∀ i, ∃ r : ℝ, (m ((c.tc : Thread nD τ).loc main_arg4) : FVec Ideal S128x64 .f32) i = (r : EReal))
    ∧ (∀ i, ∃ r : ℝ, (m ((c.tc : Thread nD τ).loc main_arg5) : FVec Ideal S128 .f32) i = (r : EReal))
    ∧ (∀ i, ∃ r : ℝ, (m ((c.tc : Thread nD τ).loc main_arg6) : FVec Ideal S128 .f32) i = (r : EReal)) := by
  haveI := finite_rank0_subsingleton
  -- the predicate's one result word, at the one index of the rank-0 shape, is 1
  have e := congrFun (h c) (fun d => d.elim0)
  dsimp only [Cert.Pre_finite_inputs.fn, Cert.Pre_finite_inputs.fn_part1] at e
  -- a conjunction of one-bit words is 1 exactly when each of the six conjuncts is 1
  simp only [andi, IntOp.andi_eq_one] at e
  obtain ⟨⟨⟨⟨⟨h0, -⟩, -⟩, h4⟩, h5⟩, h6⟩ := e
  -- each conjunct is an "all" over an array of comparisons |x i| < +∞; read it at the index i
  exact ⟨fun i => finite_real_of_abs_lt_inf _ (Host.reduce_andi_all _ _ _ _ _ h0 i),
    fun i => finite_real_of_abs_lt_inf _ (Host.reduce_andi_all _ _ _ _ _ h4 i),
    fun i => finite_real_of_abs_lt_inf _ (Host.reduce_andi_all _ _ _ _ _ h5 i),
    fun i => finite_real_of_abs_lt_inf _ (Host.reduce_andi_all _ _ _ _ _ h6 i)⟩

end Cert.PosPool

end
-- ==== Proof.lean ====
/-
  The certificate of the pooling kernel against its reference.

  The fused program computes, for 20000 centres with 32 neighbours each, a linear layer, a batch normalisation over
  all 640000 rows, a rectifier and a geometrically weighted masked mean over the neighbours, in two kernels around
  host operations: the first gathers the channel sums of `x` and `x²` tile by tile, the host turns them into the
  coefficients of one multiply-add, the second applies it and pools. The reference is the textbook sequence on the
  host.

  * The three frames: the two kernel programs' are the generated ones; the reference's is its run (a straight line of
    66 host operations) with the result dropped.
  * `preserves`: the idealisation rewrote nothing.
  * `algebraic`: at the extended reals the fused program's result array is the fused form `outK` of the arguments
    (module KernelValue, over the run of module KernelRun), the reference's is the textbook form `outR` (module
    RefRead); both are stated over ONE data record — the shared geometric encoding, mask and count are the same
    terms on both sides — and on finite features, weights, γ and β (module Finite, from the precondition) the two
    forms agree (module Algebra): the variance as `E[x²] − μ²` is the mean of squared deviations and is not negative,
    the multiply-add is the normalisation distributed, and the pooling weight's product re-associates.
-/
import proofs.«420376_j26259430048619_3_alg».proof.Defs
import proofs.«420376_j26259430048619_3_alg».proof.Proof.Gen.Kernel
import proofs.«420376_j26259430048619_3_alg».proof.Proof.Gen.Kernel.Skeleton
import proofs.«420376_j26259430048619_3_alg».proof.Proof.Gen.Kernel.Launch
import proofs.«420376_j26259430048619_3_alg».proof.Proof.Gen.Kernel.Points
import proofs.«420376_j26259430048619_3_alg».proof.Proof.Gen.Kernel.Frame
import proofs.«420376_j26259430048619_3_alg».proof.Proof.Gen.KernelIdeal
import proofs.«420376_j26259430048619_3_alg».proof.Proof.Gen.KernelIdeal.Skeleton
import proofs.«420376_j26259430048619_3_alg».proof.Proof.Gen.KernelIdeal.Launch
import proofs.«420376_j26259430048619_3_alg».proof.Proof.Gen.KernelIdeal.Points
import proofs.«420376_j26259430048619_3_alg».proof.Proof.Gen.KernelIdeal.Frame
import proofs.«420376_j26259430048619_3_alg».proof.Proof.Gen.ReferenceIdeal
import proofs.«420376_j26259430048619_3_alg».proof.Proof.Gen.Pre_finite_inputs
import proofs.«420376_j26259430048619_3_alg».proof.Proof.KernelRun
import proofs.«420376_j26259430048619_3_alg».proof.Proof.KernelValue
import proofs.«420376_j26259430048619_3_alg».proof.Proof.RefRun
import proofs.«420376_j26259430048619_3_alg».proof.Proof.RefKeep
import proofs.«420376_j26259430048619_3_alg».proof.Proof.RefRead
import proofs.«420376_j26259430048619_3_alg».proof.Proof.Algebra
import proofs.«420376_j26259430048619_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.StableHlo
open Cert.PosPool

theorem frame_k : Cert.frame_Kernel := fun m ρ _ => Cert.Kernel.Gen.frame m ρ

theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono
    (fun r h c => ⟨(h c _).trans (R.arg0_eq _), (h c _).trans (R.arg1_eq _), (h c _).trans (R.arg2_eq _),
      (h c _).trans (R.arg3_eq _), (h c _).trans (R.arg4_eq _), (h c _).trans (R.arg5_eq _), (h c _).trans (R.arg6_eq _)⟩)
    (R.run_main (F := Ideal) m ρ)

theorem preserves : Cert.preserves_Kernel_KernelIdeal := trivial

/-- The two data records are one: the arguments agree, and the shared pieces are the same terms. -/
theorem data_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    R.dataV (launchContents m' c) = K.dataM m c := by
  show R.dataR (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) = _
  rw [h0, h1, h2, h3, h4, h5, h6]
  rfl

/-- At the extended reals both programs end with the fused form of the (agreeing) arguments in their result arrays. -/
theorem algebraic : Cert.algebraic_KernelIdeal_ReferenceIdeal := by
  intro m ρ m' ρ' hpre hagree
  refine ⟨fun c => ((fun j => outK (K.dataM m c) (j 0) (j 1)) : FVec Ideal Cert.KernelIdeal.S20000x128 .f32), ?_, ?_⟩
  · exact (θ_run Cert.KernelIdeal.defs _ _).mono
      (fun r h c => ⟨(h c).1.trans (K.kernel_result m ρ c), (h c).2⟩) (K.run_value (F := Ideal) m ρ)
  · refine (θ_run Cert.ReferenceIdeal.defs _ _).mono (fun r h c => ⟨?_, (h c _).trans (R.arg0_eq _), (h c _).trans (R.arg1_eq _),
      (h c _).trans (R.arg2_eq _), (h c _).trans (R.arg3_eq _), (h c _).trans (R.arg4_eq _), (h c _).trans (R.arg5_eq _),
      (h c _).trans (R.arg6_eq _)⟩) (R.run_main (F := Ideal) m' ρ')
    refine ((h c Cert.ReferenceIdeal.main_v53).trans (R.ref_value (launchContents m' c))).trans ?_
    obtain ⟨hf, hW, hg, hb⟩ := finite_of_pre m hpre c
    obtain ⟨h0, h1, h2, h3, h4, h5, h6⟩ := hagree c
    rw [data_eq m m' c h0 h1 h2 h3 h4 h5 h6]
    funext j
    exact (outK_eq_outR (K.dataM m c) hf hW hg hb (j 0) (j 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
